-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192x1 : Shape := ⟨3, ![4, 8192, 1]⟩
abbrev S1x512x3 : Shape := ⟨3, ![1, 512, 3]⟩
abbrev S1x1024x3 : Shape := ⟨3, ![1, 1024, 3]⟩
abbrev S1x512x1 : Shape := ⟨3, ![1, 512, 1]⟩
abbrev S512x1 : Shape := ⟨2, ![512, 1]⟩
abbrev S512x3 : Shape := ⟨2, ![512, 3]⟩
abbrev S1024x3 : Shape := ⟨2, ![1024, 3]⟩
abbrev S512x1024 : Shape := ⟨2, ![512, 1024]⟩
abbrev S1024x1 : Shape := ⟨2, ![1024, 1]⟩
abbrev S1024 : Shape := ⟨1, ![1024]⟩
abbrev S1x1024 : Shape := ⟨2, ![1, 1024]⟩
abbrev S512 : Shape := ⟨1, ![512]⟩
abbrev S4x8192 : Shape := ⟨2, ![4, 8192]⟩
abbrev S_ : Shape := ⟨0, ![]⟩

abbrev nBuf : Space → Nat
  | .hbm => 11
  | .vmem => 14
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x1, .f32⟩
  | .hbm, ⟨3, _⟩ => ⟨S4x8192, .f32⟩
  | .hbm, ⟨4, _⟩ => ⟨S4x8192x1, .f32⟩
  | .hbm, ⟨5, _⟩ => ⟨S4x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x1024x3, .f32⟩
  | .local _ .vmem, ⟨3, _⟩ => ⟨S1x1024x3, .f32⟩
  | .local _ .vmem, ⟨4, _⟩ => ⟨S1x512x1, .f32⟩
  | .local _ .vmem, ⟨5, _⟩ => ⟨S1x512x1, .f32⟩
  | .local _ .vmem, ⟨6, _⟩ => ⟨S512x1, .f32⟩
  | .local _ .vmem, ⟨7, _⟩ => ⟨S1x512x3, .f32⟩
  | .local _ .vmem, ⟨8, _⟩ => ⟨S1x512x3, .f32⟩
  | .local _ .vmem, ⟨9, _⟩ => ⟨S1x1024x3, .f32⟩
  | .local _ .vmem, ⟨10, _⟩ => ⟨S1x1024x3, .f32⟩
  | .local _ .vmem, ⟨11, _⟩ => ⟨S1x512x1, .f32⟩
  | .local _ .vmem, ⟨12, _⟩ => ⟨S1x512x1, .f32⟩
  | .local _ .vmem, ⟨13, _⟩ => ⟨S512x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![4, 16, 8], ![false, false, false]⟩

def k0_cond2 (i : grid0.Coords) : BitVec 1 :=
  let arg2 : BitVec 32 := BitVec.ofNat 32 (i 2).val
  let c7_i32 : BitVec 32 := 7#32
  let v45 : BitVec 1 := Scalar.cmpi .eq arg2 c7_i32
  let v46 : BitVec 32 := Scalar.extui v45
  let c0_i32_12 : BitVec 32 := 0#32
  let v47 : BitVec 1 := Scalar.cmpi .ne v46 c0_i32_12
  v47

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 16, 8], ![false, false, false]⟩

def k1_cond2 (i : grid1.Coords) : BitVec 1 :=
  let arg2 : BitVec 32 := BitVec.ofNat 32 (i 2).val
  let c7_i32 : BitVec 32 := 7#32
  let v45 : BitVec 1 := Scalar.cmpi .eq arg2 c7_i32
  let v46 : BitVec 32 := Scalar.extui v45
  let c0_i32_12 : BitVec 32 := 0#32
  let v47 : BitVec 1 := Scalar.cmpi .ne v46 c0_i32_12
  v47

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  slices_S512x3_o0_0_S512x1 : S512x3.Slices ![0, 0] S512x1
  slices_S1024x3_o0_0_S1024x1 : S1024x3.Slices ![0, 0] S1024x1
  shapeCasts_S1024x1_S1024 : S1024x1.ShapeCasts S1024
  shapeCasts_S1024_S1x1024 : S1024.ShapeCasts S1x1024
  broadcasts_S512x1_S512x1024 : S512x1.Broadcasts S512x1024
  broadcasts_S1x1024_S512x1024 : S1x1024.Broadcasts S512x1024
  slices_S512x3_o0_1_S512x1 : S512x3.Slices ![0, 1] S512x1
  slices_S1024x3_o0_1_S1024x1 : S1024x3.Slices ![0, 1] S1024x1
  slices_S512x3_o0_2_S512x1 : S512x3.Slices ![0, 2] S512x1
  slices_S1024x3_o0_2_S1024x1 : S1024x3.Slices ![0, 2] S1024x1
  reduces_S512x1024_S512 : S512x1024.Reduces [1] S512
  shapeCasts_S512_S512x1 : S512.ShapeCasts S512x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  shapeCasts_S4x8192x1_S4x8192 : S4x8192x1.ShapeCasts S4x8192
  reducesTo_S4x8192_S_d0_1 : S4x8192.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S4x8192x3.size a
  hwx0_0 : ∀ i : grid0.Coords, EltTy.bits .f32 = 32 ∨ (Rect.block (s := S4x8192x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S4x8192x3.size a
  hwx0_1 : ∀ i : grid0.Coords, EltTy.bits .f32 = 32 ∨ (Rect.block (s := S4x8192x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S4x8192x1.size a
  hwx0_2 : ∀ i : grid0.Coords, EltTy.bits .f32 = 32 ∨ (Rect.block (s := S4x8192x1) S1x512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x3.size a ≤ S4x8192x3.size a
  hwx1_0 : ∀ i : grid1.Coords, EltTy.bits .f32 = 32 ∨ (Rect.block (s := S4x8192x3) S1x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x3.size a ≤ S4x8192x3.size a
  hwx1_1 : ∀ i : grid1.Coords, EltTy.bits .f32 = 32 ∨ (Rect.block (s := S4x8192x3) S1x1024x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1.size a ≤ S4x8192x1.size a
  hwx1_2 : ∀ i : grid1.Coords, EltTy.bits .f32 = 32 ∨ (Rect.block (s := S4x8192x1) S1x512x1.size (cc1_transform_2 i) (hinb1_2 i)).WholeWords (EltTy.packing .f32)

variable [Facts₀]

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x1024x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4x8192, .f32⟩
  | .hbm, ⟨28, _⟩ => ⟨S_, .f32⟩
  | .hbm, ⟨29, _⟩ => ⟨S_, .f32⟩
  | .hbm, ⟨30, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S_d0_1 : S4x8192.ReducesTo [0, 1] S_
  reducesTo_S4x8192x8192_S4x8192_d1 : S4x8192x8192.ReducesTo [1] S4x8192
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.K.Shared0.lean ====
/-
  Region 0 (the first launch of the row-minimum kernel): what its three control cases share.
  A grid point is (batch, row tile, column tile); the body resets its running-minimum scratch at
  column tile 0, folds one tile of pairwise distances into it at every point, and stores the
  scratch into the output block at column tile 7. The conditions are decided over the grid in
  closed form (the point's position modulo 8), and each window's block is read off the array the
  region is entered with.
-/
import proofs.«115515_j9887014715551_1_alg».proof.Proof.Gen.Kernel.Launch
import proofs.«115515_j9887014715551_1_alg».proof.Proof.Gen.Kernel.Skeleton
import proofs.«115515_j9887014715551_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Rg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile's staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column tile's staging buffer holds its block at every point. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, over the grid -/

/-- "This is the first column tile": the scratch is reset to +∞. -/
abbrev condReset (i : grid0.Coords) : Prop := (Scalar.cmpi .ne (Scalar.extui (Scalar.cmpi .eq (BitVec.ofNat 32 (i 2).val) 0#32)) 0#32) = 1#1
theorem hcondReset : ∀ t : Fin cfg0.N, condReset (grid0.coords t) ↔ t.val % 8 = 0 :=
  (by decide +kernel : ∀ t : Fin grid0.N, condReset (grid0.coords t) ↔ t.val % 8 = 0)

/-- "This is the last column tile": the scratch is stored into the output block. -/
abbrev condStore (i : grid0.Coords) : Prop := k0_cond2 i = 1#1
theorem hcondStore : ∀ t : Fin cfg0.N, condStore (grid0.coords t) ↔ t.val % 8 = 7 :=
  (by decide +kernel : ∀ t : Fin grid0.N, condStore (grid0.coords t) ↔ t.val % 8 = 7)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem idleAt_2 : ∀ t : Fin cfg0.N, ¬condStore (grid0.coords t) → cfg0.idle 2 (grid0.coords t) = true := by decide +kernel
theorem noFlush_2 : ∀ t : Fin cfg0.N, ¬condStore (grid0.coords t) → (cfg0.win 2).flush t = false := by decide +kernel
theorem liveAt_2 : ∀ t : Fin cfg0.N, condStore (grid0.coords t) → cfg0.idle 2 (grid0.coords t) = false := by decide +kernel

/-! ## The memrefs the body is called with -/

/-- One staging buffer of the output window, through which its contents are stated. -/
abbrev VO : View sig .tc .vmem S1x512x1 .f32 := (Memref.whole cc0_stg2_0 : Memref sig .tc .vmem S1x512x1 .f32).view
abbrev ms_0 (t : Fin cfg0.N) : Memref sig .tc .vmem S1x512x3 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x1024x3 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x512x1 .f32 := win0_2.stage (cfg0.slots t 2)
abbrev hs_2 (t : Fin cfg0.N) : (ms_2 t).IsWhole := hstage0_2 ((cfg0.slots t 2).cast nbuf0_2)
/-- The running-minimum scratch, a whole scoped buffer of the kernel's own. -/
abbrev scM : Memref sig .tc .vmem S512x1 .f32 := Memref.whole cc0_scratch0
abbrev VS : View sig .tc .vmem S512x1 .f32 := scM.view

/-- The other launch's scoped buffers, each at anything: they ride through this region untouched. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant, conjunct by conjunct: the scratch as a memref owned at some contents, the other launch's
    scoped buffers at anything, the generator register at some state. -/
theorem PhiA_eq (c : Dev nD) :
    (Pipeline.ΦA spec0 c : sProp 𝕄)
      = iprop(iprop((∃ d, owns (c : Thread nD τ) scM fullShare d) ∗ otherScoped c) ∗ (∃ r, prngReg c r)) := by
  unfold Pipeline.ΦA otherScoped; rw [scopedRest0_eq]; simp only [scM, owns_whole]
  first
    | rfl
    | (have assoc : ∀ P Q R' : sProp 𝕄, iprop((P ∗ Q) ∗ R') = iprop(P ∗ Q ∗ R') :=
         fun _ _ _ => Idealize.SL.BI.Entails.antisymm Idealize.SL.BI.sep_assoc Idealize.SL.BI.sep_assoc'
       have comm : ∀ P Q : sProp 𝕄, iprop(P ∗ Q) = iprop(Q ∗ P) :=
         fun _ _ => Idealize.SL.BI.Entails.antisymm Idealize.SL.BI.sep_comm Idealize.SL.BI.sep_comm
       conv_rhs => arg 1; rw [comm]
       simp only [assoc]
       first | done | rfl)

end Cert.Kernel.Rg0

end
-- ==== Proof.K.RunA0.lean ====
/-
  Region 0, the body at a point of the first column tile: the scratch, found at anything, is reset to +∞ and then holds the minimum of +∞ and this tile's row minima; the output block is not touched.
-/
import proofs.«115515_j9887014715551_1_alg».proof.Proof.K.Shared0

set_option maxRecDepth 16384

noncomputable section

namespace Cert.Kernel.Rg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run at a first-column-tile point, on whole memrefs: the two input blocks at `x0`, `x1` and the output's
    buffer at `xi2` are handed back as found; the scratch, found at anything, ends with the listed pieces written. -/
noncomputable def kernelRun_A (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : condReset i) (hc1 : ¬condStore i)
    (x0 : Vec F S1x512x3 .f32) (x1 : Vec F S1x1024x3 .f32) :
    Σ' (L2 : List (View.Piece (Elt F) S1x512x1 .f32)), { LS : List (View.Piece (Elt F) S512x1 .f32) //
      ∀ (xi2 : Vec F S1x512x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc0__min_dist_kernel i arg3 harg3 arg4 harg4 arg5 harg5 arg6 harg6) K } := by
  refine ⟨[], ?_, fun xi2 E K => ?run⟩
  case run =>
    simp only [cc0__min_dist_kernel_eq_skeleton]; unfold cc0__min_dist_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Rg0

end
-- ==== Proof.K.RunB0.lean ====
/-
  Region 0, the body at a point of a middle column tile: the scratch, found at what the point before left, ends at the minimum of that and this tile's row minima; the output block is not touched.
-/
import proofs.«115515_j9887014715551_1_alg».proof.Proof.K.RunA0

set_option maxRecDepth 16384

noncomputable section

namespace Cert.Kernel.Rg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run at a middle-column-tile point, on whole memrefs: inputs and the output's buffer handed back as found;
    the scratch, found at `xs`, ends with the listed pieces written. -/
noncomputable def kernelRun_B (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : ¬condStore i)
    (x0 : Vec F S1x512x3 .f32) (x1 : Vec F S1x1024x3 .f32) (xs : Vec F S512x1 .f32) :
    Σ' (L2 : List (View.Piece (Elt F) S1x512x1 .f32)), { LS : List (View.Piece (Elt F) S512x1 .f32) //
      ∀ (xi2 : Vec F S1x512x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc0__min_dist_kernel i arg3 harg3 arg4 harg4 arg5 harg5 arg6 harg6) K } := by
  refine ⟨[], ?_, fun xi2 E K => ?run⟩
  case run =>
    simp only [cc0__min_dist_kernel_eq_skeleton]; unfold cc0__min_dist_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Rg0

end
-- ==== Proof.K.RunC0.lean ====
/-
  Region 0, the body at a point of the last column tile: the scratch, found at what the point before left, ends at the minimum of that and this tile's row minima, and the output block is stored whole from it.
-/
import proofs.«115515_j9887014715551_1_alg».proof.Proof.K.RunB0

set_option maxRecDepth 16384

noncomputable section

namespace Cert.Kernel.Rg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run at a last-column-tile point, on whole memrefs: inputs handed back as found; the output's buffer,
    found at anything, and the scratch, found at `xs`, end with the listed pieces written. -/
noncomputable def kernelRun_C (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : condStore i)
    (x0 : Vec F S1x512x3 .f32) (x1 : Vec F S1x1024x3 .f32) (xs : Vec F S512x1 .f32) :
    Σ' (L2 : List (View.Piece (Elt F) S1x512x1 .f32)), { LS : List (View.Piece (Elt F) S512x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc0__min_dist_kernel i arg3 harg3 arg4 harg4 arg5 harg5 arg6 harg6) K } := by
  refine ⟨?_, ?_, fun E K => ?run⟩
  case run =>
    simp only [cc0__min_dist_kernel_eq_skeleton]; unfold cc0__min_dist_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.Kernel.Rg0

end
-- ==== Proof.K.Frame0.lean ====
/-
  Region 0 (the first launch of the row-minimum kernel): the frame data on top of the three per-case runs.
  Along the grid the scratch carries, for the current batch and row tile, the minimum over the column tiles
  met so far of each row's distance to the tile's columns; at the last column tile that running minimum is
  what the output block receives. This module names what the output's staging buffer and the scratch hold
  after every point, states the region invariant over those contents, and discharges the body obligation
  of the pipeline point by point.
-/
import proofs.«115515_j9887014715551_1_alg».proof.Proof.K.RunC0

set_option maxRecDepth 16384

noncomputable section

namespace Cert.Kernel.Rg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output's staging buffer and in the scratch -/

/-- At a first-column-tile point nothing is stored into the output block (its window is idle there and is not
    written back): the empty list of pieces read back over arbitrary contents, a placeholder nothing consults. -/
def out_A_2 (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : condReset i) (hc1 : ¬condStore i)
    (x0 : Vec F S1x512x3 .f32) (x1 : Vec F S1x1024x3 .f32) : Vec F S1x512x1 .f32 :=
  VO.read (Elt F) (VO.writes (Elt F) VO.junk (kernelRun_A c i arg3 harg3 arg4 harg4 arg5 harg5 arg6 harg6 hc0 hc1 x0 x1).1)

/-- At a first-column-tile point the pieces written into the scratch (the reset to +∞, then the minimum with this
    tile's row minima) reach every row of it. -/
theorem scover_A (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : condReset i) (hc1 : ¬condStore i)
    (x0 : Vec F S1x512x3 .f32) (x1 : Vec F S1x1024x3 .f32) (y : S512x1.Idx) :
    ∃ pc ∈ (kernelRun_A c i arg3 harg3 arg4 harg4 arg5 harg5 arg6 harg6 hc0 hc1 x0 x1).2.1, y ∈ pc.1.set :=
  View.cover_of_tiledL (kernelRun_A c i arg3 harg3 arg4 harg4 arg5 harg5 arg6 harg6 hc0 hc1 x0 x1).2.1 S512x1.size (by sl_kernel_rfl) y

/-- What a first-column-tile point leaves in the scratch: the running minimum started afresh, i.e. the minimum of +∞
    and this tile's row minima, as the written pieces read back. -/
def sout_A (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : condReset i) (hc1 : ¬condStore i)
    (x0 : Vec F S1x512x3 .f32) (x1 : Vec F S1x1024x3 .f32) : Vec F S512x1 .f32 :=
  VS.read (Elt F) (VS.writes (Elt F) VS.junk (kernelRun_A c i arg3 harg3 arg4 harg4 arg5 harg5 arg6 harg6 hc0 hc1 x0 x1).2.1)

/-- At a middle-column-tile point nothing is stored into the output block either: the same placeholder. -/
def out_B_2 (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : ¬condStore i)
    (x0 : Vec F S1x512x3 .f32) (x1 : Vec F S1x1024x3 .f32) (xs : Vec F S512x1 .f32) : Vec F S1x512x1 .f32 :=
  VO.read (Elt F) (VO.writes (Elt F) VO.junk (kernelRun_B c i arg3 harg3 arg4 harg4 arg5 harg5 arg6 harg6 hc0 hc1 x0 x1 xs).1)

/-- At a middle-column-tile point the piece written into the scratch (the minimum of what it held and this tile's
    row minima) reaches every row of it. -/
theorem scover_B (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : ¬condStore i)
    (x0 : Vec F S1x512x3 .f32) (x1 : Vec F S1x1024x3 .f32) (xs : Vec F S512x1 .f32) (y : S512x1.Idx) :
    ∃ pc ∈ (kernelRun_B c i arg3 harg3 arg4 harg4 arg5 harg5 arg6 harg6 hc0 hc1 x0 x1 xs).2.1, y ∈ pc.1.set :=
  View.cover_of_tiledL (kernelRun_B c i arg3 harg3 arg4 harg4 arg5 harg5 arg6 harg6 hc0 hc1 x0 x1 xs).2.1 S512x1.size (by sl_kernel_rfl) y

/-- What a middle-column-tile point leaves in the scratch: the running minimum `xs` found there, lowered by this
    tile's row minima. -/
def sout_B (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : ¬condStore i)
    (x0 : Vec F S1x512x3 .f32) (x1 : Vec F S1x1024x3 .f32) (xs : Vec F S512x1 .f32) : Vec F S512x1 .f32 :=
  VS.read (Elt F) (VS.writes (Elt F) VS.junk (kernelRun_B c i arg3 harg3 arg4 harg4 arg5 harg5 arg6 harg6 hc0 hc1 x0 x1 xs).2.1)

/-- At a last-column-tile point the store into the output block reaches every row of the block. -/
theorem cover_C_2 (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : condStore i)
    (x0 : Vec F S1x512x3 .f32) (x1 : Vec F S1x1024x3 .f32) (xs : Vec F S512x1 .f32) (y : S1x512x1.Idx) :
    ∃ pc ∈ (kernelRun_C c i arg3 harg3 arg4 harg4 arg5 harg5 arg6 harg6 hc0 hc1 x0 x1 xs).1, y ∈ pc.1.set :=
  View.cover_of_tiledL (kernelRun_C c i arg3 harg3 arg4 harg4 arg5 harg5 arg6 harg6 hc0 hc1 x0 x1 xs).1 S1x512x1.size (by sl_kernel_rfl) y

/-- What a last-column-tile point leaves in the output's staging buffer: the finished running minimum over all
    eight column tiles, one value per row of the tile. -/
def out_C_2 (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : condStore i)
    (x0 : Vec F S1x512x3 .f32) (x1 : Vec F S1x1024x3 .f32) (xs : Vec F S512x1 .f32) : Vec F S1x512x1 .f32 :=
  VO.read (Elt F) (VO.writes (Elt F) VO.junk (kernelRun_C c i arg3 harg3 arg4 harg4 arg5 harg5 arg6 harg6 hc0 hc1 x0 x1 xs).1)

/-- At a last-column-tile point the piece written into the scratch reaches every row of it. -/
theorem scover_C (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : condStore i)
    (x0 : Vec F S1x512x3 .f32) (x1 : Vec F S1x1024x3 .f32) (xs : Vec F S512x1 .f32) (y : S512x1.Idx) :
    ∃ pc ∈ (kernelRun_C c i arg3 harg3 arg4 harg4 arg5 harg5 arg6 harg6 hc0 hc1 x0 x1 xs).2.1, y ∈ pc.1.set :=
  View.cover_of_tiledL (kernelRun_C c i arg3 harg3 arg4 harg4 arg5 harg5 arg6 harg6 hc0 hc1 x0 x1 xs).2.1 S512x1.size (by sl_kernel_rfl) y

/-- What a last-column-tile point leaves in the scratch: the running minimum `xs` lowered by the last tile's row
    minima, the same values the output block receives. -/
def sout_C (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : condStore i)
    (x0 : Vec F S1x512x3 .f32) (x1 : Vec F S1x1024x3 .f32) (xs : Vec F S512x1 .f32) : Vec F S512x1 .f32 :=
  VS.read (Elt F) (VS.writes (Elt F) VS.junk (kernelRun_C c i arg3 harg3 arg4 harg4 arg5 harg5 arg6 harg6 hc0 hc1 x0 x1 xs).2.1)

/-! ## What the output's buffer and the scratch hold after each point -/

/-- The accumulation. What the output's staging buffer (first component) and the scratch (second component) hold after
    the body at position `n`: the case the point's column tile selects, run at the point's memrefs and input blocks;
    past the first column tile the scratch is read at what position `n - 1` left in it, so that along a row tile's
    eight points the second component is the minimum so far over the column tiles met, and at the eighth the first
    component is that finished minimum. A point cannot be both the first and the last column tile. -/
def outsAt (c : Dev nD) : (n : ℕ) → n < cfg0.N → Vec F S1x512x1 .f32 × Vec F S512x1 .f32
  | 0, hn => (out_A_2 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcondReset ⟨0, hn⟩).mpr (Nat.zero_mod _)) (fun h => (fun h => by (try dsimp only at h); omega) ((hcondStore ⟨0, hn⟩).mp h)) (iblk V c 0 ⟨0, hn⟩) (iblk V c 1 ⟨0, hn⟩), sout_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcondReset ⟨0, hn⟩).mpr (Nat.zero_mod _)) (fun h => (fun h => by (try dsimp only at h); omega) ((hcondStore ⟨0, hn⟩).mp h)) (iblk V c 0 ⟨0, hn⟩) (iblk V c 1 ⟨0, hn⟩))
  | n + 1, hn =>
    if h0 : (n + 1) % 8 = 0 then
      if h1 : (n + 1) % 8 = 7 then
        False.elim (by have hN : n + 1 < 512 := lt_of_lt_of_eq hn (show cfg0.N = 512 from N_0); omega)
      else
        (out_A_2 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcondReset ⟨n + 1, hn⟩).mpr h0) (fun h => h1 ((hcondStore ⟨n + 1, hn⟩).mp h)) (iblk V c 0 ⟨n + 1, hn⟩) (iblk V c 1 ⟨n + 1, hn⟩), sout_A c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcondReset ⟨n + 1, hn⟩).mpr h0) (fun h => h1 ((hcondStore ⟨n + 1, hn⟩).mp h)) (iblk V c 0 ⟨n + 1, hn⟩) (iblk V c 1 ⟨n + 1, hn⟩))
    else
      if h1 : (n + 1) % 8 = 7 then
        (out_C_2 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcondReset ⟨n + 1, hn⟩).mp h)) ((hcondStore ⟨n + 1, hn⟩).mpr h1) (iblk V c 0 ⟨n + 1, hn⟩) (iblk V c 1 ⟨n + 1, hn⟩) (outsAt c n (Nat.lt_of_succ_lt hn)).2, sout_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcondReset ⟨n + 1, hn⟩).mp h)) ((hcondStore ⟨n + 1, hn⟩).mpr h1) (iblk V c 0 ⟨n + 1, hn⟩) (iblk V c 1 ⟨n + 1, hn⟩) (outsAt c n (Nat.lt_of_succ_lt hn)).2)
      else
        (out_B_2 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcondReset ⟨n + 1, hn⟩).mp h)) (fun h => h1 ((hcondStore ⟨n + 1, hn⟩).mp h)) (iblk V c 0 ⟨n + 1, hn⟩) (iblk V c 1 ⟨n + 1, hn⟩) (outsAt c n (Nat.lt_of_succ_lt hn)).2, sout_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcondReset ⟨n + 1, hn⟩).mp h)) (fun h => h1 ((hcondStore ⟨n + 1, hn⟩).mp h)) (iblk V c 0 ⟨n + 1, hn⟩) (iblk V c 1 ⟨n + 1, hn⟩) (outsAt c n (Nat.lt_of_succ_lt hn)).2)

/-- At a first-column-tile point: the running minimum started afresh. -/
theorem outsAt_A (c : Dev nD) (t : Fin cfg0.N) (h0 : t.val % 8 = 0) (h1 : ¬t.val % 8 = 7) :
    outsAt V c t.val t.isLt = (out_A_2 c (grid0.coords t) (ms_0 t) (hs_0 t) (ms_1 t) (hs_1 t) (ms_2 t) (hs_2 t) scM (Memref.isWhole_whole _) ((hcondReset t).mpr h0) (fun h => h1 ((hcondStore t).mp h)) (iblk V c 0 t) (iblk V c 1 t), sout_A c (grid0.coords t) (ms_0 t) (hs_0 t) (ms_1 t) (hs_1 t) (ms_2 t) (hs_2 t) scM (Memref.isWhole_whole _) ((hcondReset t).mpr h0) (fun h => h1 ((hcondStore t).mp h)) (iblk V c 0 t) (iblk V c 1 t)) := by
  obtain ⟨n, hn⟩ := t
  cases n with
  | zero => exact rfl
  | succ n => exact (dif_pos h0).trans ((dif_neg h1).trans rfl)

/-- At a middle-column-tile point: the running minimum the point before left, lowered by this tile. -/
theorem outsAt_B (c : Dev nD) (t : Fin cfg0.N) (h0 : ¬t.val % 8 = 0) (h1 : ¬t.val % 8 = 7) :
    outsAt V c t.val t.isLt = (out_B_2 c (grid0.coords t) (ms_0 t) (hs_0 t) (ms_1 t) (hs_1 t) (ms_2 t) (hs_2 t) scM (Memref.isWhole_whole _) (fun h => h0 ((hcondReset t).mp h)) (fun h => h1 ((hcondStore t).mp h)) (iblk V c 0 t) (iblk V c 1 t) (outsAt V c (t.val - 1) (Nat.lt_of_le_of_lt (Nat.sub_le _ _) t.isLt)).2, sout_B c (grid0.coords t) (ms_0 t) (hs_0 t) (ms_1 t) (hs_1 t) (ms_2 t) (hs_2 t) scM (Memref.isWhole_whole _) (fun h => h0 ((hcondReset t).mp h)) (fun h => h1 ((hcondStore t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last-column-tile point: the running minimum the point before left, lowered by the last tile and stored. -/
theorem outsAt_C (c : Dev nD) (t : Fin cfg0.N) (h0 : ¬t.val % 8 = 0) (h1 : t.val % 8 = 7) :
    outsAt V c t.val t.isLt = (out_C_2 c (grid0.coords t) (ms_0 t) (hs_0 t) (ms_1 t) (hs_1 t) (ms_2 t) (hs_2 t) scM (Memref.isWhole_whole _) (fun h => h0 ((hcondReset t).mp h)) ((hcondStore t).mpr h1) (iblk V c 0 t) (iblk V c 1 t) (outsAt V c (t.val - 1) (Nat.lt_of_le_of_lt (Nat.sub_le _ _) t.isLt)).2, sout_C c (grid0.coords t) (ms_0 t) (hs_0 t) (ms_1 t) (hs_1 t) (ms_2 t) (hs_2 t) scM (Memref.isWhole_whole _) (fun h => h0 ((hcondReset t).mp h)) ((hcondStore t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`. Before the first point it is the class's own: the scratch at anything, the other
    launch's scoped buffers at anything, the generator register at some state. Afterwards the scratch is held at the
    running minimum the point before left in it; the other launch's buffers and the register ride along unchanged. -/
def PhiS (c : Dev nD) : (n : ℕ) → n ≤ cfg0.N → sProp 𝕄
  | 0, _ => Pipeline.ΦA spec0 c
  | n + 1, hn => iprop(iprop(owns (c : Thread nD τ) scM fullShare ((outsAt V c n hn).2) ∗ otherScoped c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the scratch at that point's running minimum. -/
theorem PhiS_succ (c : Dev nD) (n : ℕ) (hn : n < cfg0.N) :
    PhiS V c (n + 1) hn = iprop(iprop(owns (c : Thread nD τ) scM fullShare ((outsAt V c n hn).2) ∗ otherScoped c) ∗ (∃ r, prngReg c r)) := rfl

/-- Before a point that is not the first: the scratch at the running minimum the point before left. -/
theorem PhiS_pos (c : Dev nD) (n : ℕ) (h : n ≤ cfg0.N) (hz : n ≠ 0) :
    PhiS V c n h = iprop(iprop(owns (c : Thread nD τ) scM fullShare ((outsAt V c (n - 1) (by omega)).2) ∗ otherScoped c) ∗ (∃ r, prngReg c r)) := by
  cases n with
  | zero => exact absurd rfl hz
  | succ n => rfl

/-! ## The pipeline's proof data -/

/-- The proof data of the pipeline on core `c`: the arrays as the region finds them; after the body at point `t` the
    row tile's and the column tile's buffers at their blocks and the output's buffer at `outsAt`'s first component
    (the finished row minima at a last-column-tile point); the invariant `PhiS`; full shares; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

/-- The proof data's arrays are the contents the region is entered with. -/
theorem A_eq (c : Dev nD) (w : Fin cfg0.W) : (dat V c).A w = V c (Pipeline.arrRef spec0 w) := by
  dsimp only [dat]

/-- The invariant at a point's start, restated at the point's position. -/
theorem PhiS_castSucc (c : Dev nD) (t : Fin cfg0.N) :
    (dat V c).Φ t.castSucc = PhiS V c t.val (Nat.le_of_lt t.isLt) := by
  dsimp only [dat]; simp only [Fin.coe_castSucc]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]

/-- Each input's current staging buffer holds its block at every point, fetched there or not. -/
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation, at a generic point -/

/-- What the body is called with at point `t`: the invariant, the core's debt, and each window's current staging
    buffer at what the pipeline leaves there before the body. -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The two input buffers hold their blocks. The point's position modulo 8 says which case it
    is in. The invariant hands the body the scratch at the running minimum the point before left (at anything at the very
    first point), and takes it back at this point's running minimum, the written pieces reaching every row of it. The
    output's buffer is handed back untouched except at a last-column-tile point, where it receives the finished minimum.
    The other launch's buffers, the generator register and the core's debt pass through unchanged. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  have hN : t.val < 512 := lt_of_lt_of_eq t.isLt (show cfg0.N = 512 from N_0)
  by_cases h0 : t.val % 8 = 0
  · by_cases h1 : t.val % 8 = 7
    · exfalso; omega
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [Dat.leavesExact_idle (dat V c) 2 t (idleAt_2 t (fun h => h1 ((hcondStore t).mp h))) (noFlush_2 t (fun h => h1 ((hcondStore t).mp h)))]
      rw [outsAt_A V c t h0 h1]
      unfold sout_A; (try dsimp only)
      by_cases hz : t.val = 0
      · rw [PhiS_castSucc V c t, PhiS_zero V c _ _ hz, PhiA_eq]
        iintro ⟨⟨⟨HS0, Hoth⟩, Hg⟩, Ho, ⟨%d0, H0⟩, ⟨%d1, H1⟩, ⟨%d2, H2⟩⟩
        iapply ((kernelRun_A c (grid0.coords t) _ _ _ _ _ _ _ _ ((hcondReset t).mpr h0) (fun h => h1 ((hcondStore t).mp h)) (iblk V c 0 t) (iblk V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover_A c _ _ _ _ _ _ _ _ _ _ _ _ _)
            iexact Hoth
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun_A c (grid0.coords t) _ _ _ _ _ _ _ _ ((hcondReset t).mpr h0) (fun h => h1 ((hcondStore t).mp h)) (iblk V c 0 t) (iblk V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover_A c _ _ _ _ _ _ _ _ _ _ _ _ _)
            iexact Hoth
          iexact Hg
        isplitl [Ho]; · iexact Ho
        isplitl [H0]; · iexact H0
        isplitl [H1]; · iexact H1
        iexists _; iexact H2
  · by_cases h1 : t.val % 8 = 7
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t ((hcondStore t).mpr h1)], after_2]
      rw [outsAt_C V c t h0 h1]
      unfold out_C_2 sout_C; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun_C c (grid0.coords t) _ _ _ _ _ _ _ _ (fun h => h0 ((hcondReset t).mp h)) ((hcondStore t).mpr h1) (iblk V c 0 t) (iblk V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover_C c _ _ _ _ _ _ _ _ _ _ _ _ _ _)
            iexact Hoth
          iexact Hg
        isplitl [Ho]; · iexact Ho
        isplitl [H0]; · iexact H0
        isplitl [H1]; · iexact H1
        unfold owns; iexists _; isplitr
        swap; · iexact H2
        ipureintro; exact View.read_writes_of_cover _ _ _ _ _ (cover_C_2 c _ _ _ _ _ _ _ _ _ _ _ _ _ _)
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [Dat.leavesExact_idle (dat V c) 2 t (idleAt_2 t (fun h => h1 ((hcondStore t).mp h))) (noFlush_2 t (fun h => h1 ((hcondStore t).mp h)))]
      rw [outsAt_B V c t h0 h1]
      unfold sout_B; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun_B c (grid0.coords t) _ _ _ _ _ _ _ _ (fun h => h0 ((hcondReset t).mp h)) (fun h => h1 ((hcondStore t).mp h)) (iblk V c 0 t) (iblk V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover_B c _ _ _ _ _ _ _ _ _ _ _ _ _ _)
            iexact Hoth
          iexact Hg
        isplitl [Ho]; · iexact Ho
        isplitl [H0]; · iexact H0
        isplitl [H1]; · iexact H1
        iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the scratch's running minimum is forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS0, Hoth⟩, Hg⟩
  isplitl [HS0 Hoth]
  · isplitl [HS0]
    · iexists _; iexact HS0
    iexact Hoth
  iexact Hg

/-- The same after the last point. -/
theorem hout (c : Dev nD) : (dat V c).Φ (Fin.last cfg0.N) ⊢ Pipeline.ΦA spec0 c :=
  Phi_out V c _ (by rw [Fin.val_last]; have : cfg0.N = 512 := N_0; omega)

end Cert.Kernel.Rg0

end
-- ==== Proof.K.Shared1.lean ====
/-
  Region 1 (the second launch of the row-minimum kernel): what its three control cases share.
  A grid point is (batch, row tile, column tile); the body resets its running-minimum scratch at
  column tile 0, folds one tile of pairwise distances into it at every point, and stores the
  scratch into the output block at column tile 7. The conditions are decided over the grid in
  closed form (the point's position modulo 8), and each window's block is read off the array the
  region is entered with.
-/
import proofs.«115515_j9887014715551_1_alg».proof.Proof.Gen.Kernel.Launch
import proofs.«115515_j9887014715551_1_alg».proof.Proof.Gen.Kernel.Skeleton
import proofs.«115515_j9887014715551_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Rg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile's staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column tile's staging buffer holds its block at every point. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, over the grid -/

/-- "This is the first column tile": the scratch is reset to +∞. -/
abbrev condReset (i : grid1.Coords) : Prop := (Scalar.cmpi .ne (Scalar.extui (Scalar.cmpi .eq (BitVec.ofNat 32 (i 2).val) 0#32)) 0#32) = 1#1
theorem hcondReset : ∀ t : Fin cfg1.N, condReset (grid1.coords t) ↔ t.val % 8 = 0 :=
  (by decide +kernel : ∀ t : Fin grid1.N, condReset (grid1.coords t) ↔ t.val % 8 = 0)

/-- "This is the last column tile": the scratch is stored into the output block. -/
abbrev condStore (i : grid1.Coords) : Prop := k1_cond2 i = 1#1
theorem hcondStore : ∀ t : Fin cfg1.N, condStore (grid1.coords t) ↔ t.val % 8 = 7 :=
  (by decide +kernel : ∀ t : Fin grid1.N, condStore (grid1.coords t) ↔ t.val % 8 = 7)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem idleAt_2 : ∀ t : Fin cfg1.N, ¬condStore (grid1.coords t) → cfg1.idle 2 (grid1.coords t) = true := by decide +kernel
theorem noFlush_2 : ∀ t : Fin cfg1.N, ¬condStore (grid1.coords t) → (cfg1.win 2).flush t = false := by decide +kernel
theorem liveAt_2 : ∀ t : Fin cfg1.N, condStore (grid1.coords t) → cfg1.idle 2 (grid1.coords t) = false := by decide +kernel

/-! ## The memrefs the body is called with -/

/-- One staging buffer of the output window, through which its contents are stated. -/
abbrev VO : View sig .tc .vmem S1x512x1 .f32 := (Memref.whole cc1_stg2_0 : Memref sig .tc .vmem S1x512x1 .f32).view
abbrev ms_0 (t : Fin cfg1.N) : Memref sig .tc .vmem S1x512x3 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x1024x3 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x512x1 .f32 := win1_2.stage (cfg1.slots t 2)
abbrev hs_2 (t : Fin cfg1.N) : (ms_2 t).IsWhole := hstage1_2 ((cfg1.slots t 2).cast nbuf1_2)
/-- The running-minimum scratch, a whole scoped buffer of the kernel's own. -/
abbrev scM : Memref sig .tc .vmem S512x1 .f32 := Memref.whole cc1_scratch0
abbrev VS : View sig .tc .vmem S512x1 .f32 := scM.view

/-- The other launch's scoped buffers, each at anything: they ride through this region untouched. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant, conjunct by conjunct: the scratch as a memref owned at some contents, the other launch's
    scoped buffers at anything, the generator register at some state. -/
theorem PhiA_eq (c : Dev nD) :
    (Pipeline.ΦA spec1 c : sProp 𝕄)
      = iprop(iprop((∃ d, owns (c : Thread nD τ) scM fullShare d) ∗ otherScoped c) ∗ (∃ r, prngReg c r)) := by
  unfold Pipeline.ΦA otherScoped; rw [scopedRest1_eq]; simp only [scM, owns_whole]
  first
    | rfl
    | (have assoc : ∀ P Q R' : sProp 𝕄, iprop((P ∗ Q) ∗ R') = iprop(P ∗ Q ∗ R') :=
         fun _ _ _ => Idealize.SL.BI.Entails.antisymm Idealize.SL.BI.sep_assoc Idealize.SL.BI.sep_assoc'
       have comm : ∀ P Q : sProp 𝕄, iprop(P ∗ Q) = iprop(Q ∗ P) :=
         fun _ _ => Idealize.SL.BI.Entails.antisymm Idealize.SL.BI.sep_comm Idealize.SL.BI.sep_comm
       conv_rhs => arg 1; rw [comm]
       simp only [assoc]
       first | done | rfl)

end Cert.Kernel.Rg1

end
-- ==== Proof.K.RunA1.lean ====
/-
  Region 1, the body at a point of the first column tile: the scratch, found at anything, is reset to +∞ and then holds the minimum of +∞ and this tile's row minima; the output block is not touched.
-/
import proofs.«115515_j9887014715551_1_alg».proof.Proof.K.Shared1

set_option maxRecDepth 16384

noncomputable section

namespace Cert.Kernel.Rg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run at a first-column-tile point, on whole memrefs: the two input blocks at `x0`, `x1` and the output's
    buffer at `xi2` are handed back as found; the scratch, found at anything, ends with the listed pieces written. -/
noncomputable def kernelRun_A (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : condReset i) (hc1 : ¬condStore i)
    (x0 : Vec F S1x512x3 .f32) (x1 : Vec F S1x1024x3 .f32) :
    Σ' (L2 : List (View.Piece (Elt F) S1x512x1 .f32)), { LS : List (View.Piece (Elt F) S512x1 .f32) //
      ∀ (xi2 : Vec F S1x512x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__min_dist_kernel i arg3 harg3 arg4 harg4 arg5 harg5 arg6 harg6) K } := by
  refine ⟨[], ?_, fun xi2 E K => ?run⟩
  case run =>
    simp only [cc1__min_dist_kernel_eq_skeleton]; unfold cc1__min_dist_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Rg1

end
-- ==== Proof.K.RunB1.lean ====
/-
  Region 1, the body at a point of a middle column tile: the scratch, found at what the point before left, ends at the minimum of that and this tile's row minima; the output block is not touched.
-/
import proofs.«115515_j9887014715551_1_alg».proof.Proof.K.RunA1

set_option maxRecDepth 16384

noncomputable section

namespace Cert.Kernel.Rg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run at a middle-column-tile point, on whole memrefs: inputs and the output's buffer handed back as found;
    the scratch, found at `xs`, ends with the listed pieces written. -/
noncomputable def kernelRun_B (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : ¬condStore i)
    (x0 : Vec F S1x512x3 .f32) (x1 : Vec F S1x1024x3 .f32) (xs : Vec F S512x1 .f32) :
    Σ' (L2 : List (View.Piece (Elt F) S1x512x1 .f32)), { LS : List (View.Piece (Elt F) S512x1 .f32) //
      ∀ (xi2 : Vec F S1x512x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__min_dist_kernel i arg3 harg3 arg4 harg4 arg5 harg5 arg6 harg6) K } := by
  refine ⟨[], ?_, fun xi2 E K => ?run⟩
  case run =>
    simp only [cc1__min_dist_kernel_eq_skeleton]; unfold cc1__min_dist_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Rg1

end
-- ==== Proof.K.RunC1.lean ====
/-
  Region 1, the body at a point of the last column tile: the scratch, found at what the point before left, ends at the minimum of that and this tile's row minima, and the output block is stored whole from it.
-/
import proofs.«115515_j9887014715551_1_alg».proof.Proof.K.RunB1

set_option maxRecDepth 16384

noncomputable section

namespace Cert.Kernel.Rg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run at a last-column-tile point, on whole memrefs: inputs handed back as found; the output's buffer,
    found at anything, and the scratch, found at `xs`, end with the listed pieces written. -/
noncomputable def kernelRun_C (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : condStore i)
    (x0 : Vec F S1x512x3 .f32) (x1 : Vec F S1x1024x3 .f32) (xs : Vec F S512x1 .f32) :
    Σ' (L2 : List (View.Piece (Elt F) S1x512x1 .f32)), { LS : List (View.Piece (Elt F) S512x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc1__min_dist_kernel i arg3 harg3 arg4 harg4 arg5 harg5 arg6 harg6) K } := by
  refine ⟨?_, ?_, fun E K => ?run⟩
  case run =>
    simp only [cc1__min_dist_kernel_eq_skeleton]; unfold cc1__min_dist_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.Kernel.Rg1

end
-- ==== Proof.K.Frame1.lean ====
/-
  Region 1 (the second launch of the row-minimum kernel): the frame data on top of the three per-case runs.
  Along the grid the scratch carries, for the current batch and row tile, the minimum over the column tiles
  met so far of each row's distance to the tile's columns; at the last column tile that running minimum is
  what the output block receives. This module names what the output's staging buffer and the scratch hold
  after every point, states the region invariant over those contents, and discharges the body obligation
  of the pipeline point by point.
-/
import proofs.«115515_j9887014715551_1_alg».proof.Proof.K.RunC1

set_option maxRecDepth 16384

noncomputable section

namespace Cert.Kernel.Rg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output's staging buffer and in the scratch -/

/-- At a first-column-tile point nothing is stored into the output block (its window is idle there and is not
    written back): the empty list of pieces read back over arbitrary contents, a placeholder nothing consults. -/
def out_A_2 (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : condReset i) (hc1 : ¬condStore i)
    (x0 : Vec F S1x512x3 .f32) (x1 : Vec F S1x1024x3 .f32) : Vec F S1x512x1 .f32 :=
  VO.read (Elt F) (VO.writes (Elt F) VO.junk (kernelRun_A c i arg3 harg3 arg4 harg4 arg5 harg5 arg6 harg6 hc0 hc1 x0 x1).1)

/-- At a first-column-tile point the pieces written into the scratch (the reset to +∞, then the minimum with this
    tile's row minima) reach every row of it. -/
theorem scover_A (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : condReset i) (hc1 : ¬condStore i)
    (x0 : Vec F S1x512x3 .f32) (x1 : Vec F S1x1024x3 .f32) (y : S512x1.Idx) :
    ∃ pc ∈ (kernelRun_A c i arg3 harg3 arg4 harg4 arg5 harg5 arg6 harg6 hc0 hc1 x0 x1).2.1, y ∈ pc.1.set :=
  View.cover_of_tiledL (kernelRun_A c i arg3 harg3 arg4 harg4 arg5 harg5 arg6 harg6 hc0 hc1 x0 x1).2.1 S512x1.size (by sl_kernel_rfl) y

/-- What a first-column-tile point leaves in the scratch: the running minimum started afresh, i.e. the minimum of +∞
    and this tile's row minima, as the written pieces read back. -/
def sout_A (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : condReset i) (hc1 : ¬condStore i)
    (x0 : Vec F S1x512x3 .f32) (x1 : Vec F S1x1024x3 .f32) : Vec F S512x1 .f32 :=
  VS.read (Elt F) (VS.writes (Elt F) VS.junk (kernelRun_A c i arg3 harg3 arg4 harg4 arg5 harg5 arg6 harg6 hc0 hc1 x0 x1).2.1)

/-- At a middle-column-tile point nothing is stored into the output block either: the same placeholder. -/
def out_B_2 (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : ¬condStore i)
    (x0 : Vec F S1x512x3 .f32) (x1 : Vec F S1x1024x3 .f32) (xs : Vec F S512x1 .f32) : Vec F S1x512x1 .f32 :=
  VO.read (Elt F) (VO.writes (Elt F) VO.junk (kernelRun_B c i arg3 harg3 arg4 harg4 arg5 harg5 arg6 harg6 hc0 hc1 x0 x1 xs).1)

/-- At a middle-column-tile point the piece written into the scratch (the minimum of what it held and this tile's
    row minima) reaches every row of it. -/
theorem scover_B (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : ¬condStore i)
    (x0 : Vec F S1x512x3 .f32) (x1 : Vec F S1x1024x3 .f32) (xs : Vec F S512x1 .f32) (y : S512x1.Idx) :
    ∃ pc ∈ (kernelRun_B c i arg3 harg3 arg4 harg4 arg5 harg5 arg6 harg6 hc0 hc1 x0 x1 xs).2.1, y ∈ pc.1.set :=
  View.cover_of_tiledL (kernelRun_B c i arg3 harg3 arg4 harg4 arg5 harg5 arg6 harg6 hc0 hc1 x0 x1 xs).2.1 S512x1.size (by sl_kernel_rfl) y

/-- What a middle-column-tile point leaves in the scratch: the running minimum `xs` found there, lowered by this
    tile's row minima. -/
def sout_B (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : ¬condStore i)
    (x0 : Vec F S1x512x3 .f32) (x1 : Vec F S1x1024x3 .f32) (xs : Vec F S512x1 .f32) : Vec F S512x1 .f32 :=
  VS.read (Elt F) (VS.writes (Elt F) VS.junk (kernelRun_B c i arg3 harg3 arg4 harg4 arg5 harg5 arg6 harg6 hc0 hc1 x0 x1 xs).2.1)

/-- At a last-column-tile point the store into the output block reaches every row of the block. -/
theorem cover_C_2 (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : condStore i)
    (x0 : Vec F S1x512x3 .f32) (x1 : Vec F S1x1024x3 .f32) (xs : Vec F S512x1 .f32) (y : S1x512x1.Idx) :
    ∃ pc ∈ (kernelRun_C c i arg3 harg3 arg4 harg4 arg5 harg5 arg6 harg6 hc0 hc1 x0 x1 xs).1, y ∈ pc.1.set :=
  View.cover_of_tiledL (kernelRun_C c i arg3 harg3 arg4 harg4 arg5 harg5 arg6 harg6 hc0 hc1 x0 x1 xs).1 S1x512x1.size (by sl_kernel_rfl) y

/-- What a last-column-tile point leaves in the output's staging buffer: the finished running minimum over all
    eight column tiles, one value per row of the tile. -/
def out_C_2 (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : condStore i)
    (x0 : Vec F S1x512x3 .f32) (x1 : Vec F S1x1024x3 .f32) (xs : Vec F S512x1 .f32) : Vec F S1x512x1 .f32 :=
  VO.read (Elt F) (VO.writes (Elt F) VO.junk (kernelRun_C c i arg3 harg3 arg4 harg4 arg5 harg5 arg6 harg6 hc0 hc1 x0 x1 xs).1)

/-- At a last-column-tile point the piece written into the scratch reaches every row of it. -/
theorem scover_C (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : condStore i)
    (x0 : Vec F S1x512x3 .f32) (x1 : Vec F S1x1024x3 .f32) (xs : Vec F S512x1 .f32) (y : S512x1.Idx) :
    ∃ pc ∈ (kernelRun_C c i arg3 harg3 arg4 harg4 arg5 harg5 arg6 harg6 hc0 hc1 x0 x1 xs).2.1, y ∈ pc.1.set :=
  View.cover_of_tiledL (kernelRun_C c i arg3 harg3 arg4 harg4 arg5 harg5 arg6 harg6 hc0 hc1 x0 x1 xs).2.1 S512x1.size (by sl_kernel_rfl) y

/-- What a last-column-tile point leaves in the scratch: the running minimum `xs` lowered by the last tile's row
    minima, the same values the output block receives. -/
def sout_C (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : condStore i)
    (x0 : Vec F S1x512x3 .f32) (x1 : Vec F S1x1024x3 .f32) (xs : Vec F S512x1 .f32) : Vec F S512x1 .f32 :=
  VS.read (Elt F) (VS.writes (Elt F) VS.junk (kernelRun_C c i arg3 harg3 arg4 harg4 arg5 harg5 arg6 harg6 hc0 hc1 x0 x1 xs).2.1)

/-! ## What the output's buffer and the scratch hold after each point -/

/-- The accumulation. What the output's staging buffer (first component) and the scratch (second component) hold after
    the body at position `n`: the case the point's column tile selects, run at the point's memrefs and input blocks;
    past the first column tile the scratch is read at what position `n - 1` left in it, so that along a row tile's
    eight points the second component is the minimum so far over the column tiles met, and at the eighth the first
    component is that finished minimum. A point cannot be both the first and the last column tile. -/
def outsAt (c : Dev nD) : (n : ℕ) → n < cfg1.N → Vec F S1x512x1 .f32 × Vec F S512x1 .f32
  | 0, hn => (out_A_2 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcondReset ⟨0, hn⟩).mpr (Nat.zero_mod _)) (fun h => (fun h => by (try dsimp only at h); omega) ((hcondStore ⟨0, hn⟩).mp h)) (iblk V c 0 ⟨0, hn⟩) (iblk V c 1 ⟨0, hn⟩), sout_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcondReset ⟨0, hn⟩).mpr (Nat.zero_mod _)) (fun h => (fun h => by (try dsimp only at h); omega) ((hcondStore ⟨0, hn⟩).mp h)) (iblk V c 0 ⟨0, hn⟩) (iblk V c 1 ⟨0, hn⟩))
  | n + 1, hn =>
    if h0 : (n + 1) % 8 = 0 then
      if h1 : (n + 1) % 8 = 7 then
        False.elim (by have hN : n + 1 < 512 := lt_of_lt_of_eq hn (show cfg1.N = 512 from N_1); omega)
      else
        (out_A_2 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcondReset ⟨n + 1, hn⟩).mpr h0) (fun h => h1 ((hcondStore ⟨n + 1, hn⟩).mp h)) (iblk V c 0 ⟨n + 1, hn⟩) (iblk V c 1 ⟨n + 1, hn⟩), sout_A c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcondReset ⟨n + 1, hn⟩).mpr h0) (fun h => h1 ((hcondStore ⟨n + 1, hn⟩).mp h)) (iblk V c 0 ⟨n + 1, hn⟩) (iblk V c 1 ⟨n + 1, hn⟩))
    else
      if h1 : (n + 1) % 8 = 7 then
        (out_C_2 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcondReset ⟨n + 1, hn⟩).mp h)) ((hcondStore ⟨n + 1, hn⟩).mpr h1) (iblk V c 0 ⟨n + 1, hn⟩) (iblk V c 1 ⟨n + 1, hn⟩) (outsAt c n (Nat.lt_of_succ_lt hn)).2, sout_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcondReset ⟨n + 1, hn⟩).mp h)) ((hcondStore ⟨n + 1, hn⟩).mpr h1) (iblk V c 0 ⟨n + 1, hn⟩) (iblk V c 1 ⟨n + 1, hn⟩) (outsAt c n (Nat.lt_of_succ_lt hn)).2)
      else
        (out_B_2 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcondReset ⟨n + 1, hn⟩).mp h)) (fun h => h1 ((hcondStore ⟨n + 1, hn⟩).mp h)) (iblk V c 0 ⟨n + 1, hn⟩) (iblk V c 1 ⟨n + 1, hn⟩) (outsAt c n (Nat.lt_of_succ_lt hn)).2, sout_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcondReset ⟨n + 1, hn⟩).mp h)) (fun h => h1 ((hcondStore ⟨n + 1, hn⟩).mp h)) (iblk V c 0 ⟨n + 1, hn⟩) (iblk V c 1 ⟨n + 1, hn⟩) (outsAt c n (Nat.lt_of_succ_lt hn)).2)

/-- At a first-column-tile point: the running minimum started afresh. -/
theorem outsAt_A (c : Dev nD) (t : Fin cfg1.N) (h0 : t.val % 8 = 0) (h1 : ¬t.val % 8 = 7) :
    outsAt V c t.val t.isLt = (out_A_2 c (grid1.coords t) (ms_0 t) (hs_0 t) (ms_1 t) (hs_1 t) (ms_2 t) (hs_2 t) scM (Memref.isWhole_whole _) ((hcondReset t).mpr h0) (fun h => h1 ((hcondStore t).mp h)) (iblk V c 0 t) (iblk V c 1 t), sout_A c (grid1.coords t) (ms_0 t) (hs_0 t) (ms_1 t) (hs_1 t) (ms_2 t) (hs_2 t) scM (Memref.isWhole_whole _) ((hcondReset t).mpr h0) (fun h => h1 ((hcondStore t).mp h)) (iblk V c 0 t) (iblk V c 1 t)) := by
  obtain ⟨n, hn⟩ := t
  cases n with
  | zero => exact rfl
  | succ n => exact (dif_pos h0).trans ((dif_neg h1).trans rfl)

/-- At a middle-column-tile point: the running minimum the point before left, lowered by this tile. -/
theorem outsAt_B (c : Dev nD) (t : Fin cfg1.N) (h0 : ¬t.val % 8 = 0) (h1 : ¬t.val % 8 = 7) :
    outsAt V c t.val t.isLt = (out_B_2 c (grid1.coords t) (ms_0 t) (hs_0 t) (ms_1 t) (hs_1 t) (ms_2 t) (hs_2 t) scM (Memref.isWhole_whole _) (fun h => h0 ((hcondReset t).mp h)) (fun h => h1 ((hcondStore t).mp h)) (iblk V c 0 t) (iblk V c 1 t) (outsAt V c (t.val - 1) (Nat.lt_of_le_of_lt (Nat.sub_le _ _) t.isLt)).2, sout_B c (grid1.coords t) (ms_0 t) (hs_0 t) (ms_1 t) (hs_1 t) (ms_2 t) (hs_2 t) scM (Memref.isWhole_whole _) (fun h => h0 ((hcondReset t).mp h)) (fun h => h1 ((hcondStore t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last-column-tile point: the running minimum the point before left, lowered by the last tile and stored. -/
theorem outsAt_C (c : Dev nD) (t : Fin cfg1.N) (h0 : ¬t.val % 8 = 0) (h1 : t.val % 8 = 7) :
    outsAt V c t.val t.isLt = (out_C_2 c (grid1.coords t) (ms_0 t) (hs_0 t) (ms_1 t) (hs_1 t) (ms_2 t) (hs_2 t) scM (Memref.isWhole_whole _) (fun h => h0 ((hcondReset t).mp h)) ((hcondStore t).mpr h1) (iblk V c 0 t) (iblk V c 1 t) (outsAt V c (t.val - 1) (Nat.lt_of_le_of_lt (Nat.sub_le _ _) t.isLt)).2, sout_C c (grid1.coords t) (ms_0 t) (hs_0 t) (ms_1 t) (hs_1 t) (ms_2 t) (hs_2 t) scM (Memref.isWhole_whole _) (fun h => h0 ((hcondReset t).mp h)) ((hcondStore t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`. Before the first point it is the class's own: the scratch at anything, the other
    launch's scoped buffers at anything, the generator register at some state. Afterwards the scratch is held at the
    running minimum the point before left in it; the other launch's buffers and the register ride along unchanged. -/
def PhiS (c : Dev nD) : (n : ℕ) → n ≤ cfg1.N → sProp 𝕄
  | 0, _ => Pipeline.ΦA spec1 c
  | n + 1, hn => iprop(iprop(owns (c : Thread nD τ) scM fullShare ((outsAt V c n hn).2) ∗ otherScoped c) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the scratch at that point's running minimum. -/
theorem PhiS_succ (c : Dev nD) (n : ℕ) (hn : n < cfg1.N) :
    PhiS V c (n + 1) hn = iprop(iprop(owns (c : Thread nD τ) scM fullShare ((outsAt V c n hn).2) ∗ otherScoped c) ∗ (∃ r, prngReg c r)) := rfl

/-- Before a point that is not the first: the scratch at the running minimum the point before left. -/
theorem PhiS_pos (c : Dev nD) (n : ℕ) (h : n ≤ cfg1.N) (hz : n ≠ 0) :
    PhiS V c n h = iprop(iprop(owns (c : Thread nD τ) scM fullShare ((outsAt V c (n - 1) (by omega)).2) ∗ otherScoped c) ∗ (∃ r, prngReg c r)) := by
  cases n with
  | zero => exact absurd rfl hz
  | succ n => rfl

/-! ## The pipeline's proof data -/

/-- The proof data of the pipeline on core `c`: the arrays as the region finds them; after the body at point `t` the
    row tile's and the column tile's buffers at their blocks and the output's buffer at `outsAt`'s first component
    (the finished row minima at a last-column-tile point); the invariant `PhiS`; full shares; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

/-- The proof data's arrays are the contents the region is entered with. -/
theorem A_eq (c : Dev nD) (w : Fin cfg1.W) : (dat V c).A w = V c (Pipeline.arrRef spec1 w) := by
  dsimp only [dat]

/-- The invariant at a point's start, restated at the point's position. -/
theorem PhiS_castSucc (c : Dev nD) (t : Fin cfg1.N) :
    (dat V c).Φ t.castSucc = PhiS V c t.val (Nat.le_of_lt t.isLt) := by
  dsimp only [dat]; simp only [Fin.coe_castSucc]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = (outsAt V c t.val t.isLt).1 := by dsimp only [dat]

/-- Each input's current staging buffer holds its block at every point, fetched there or not. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-! ## The body obligation, at a generic point -/

/-- What the body is called with at point `t`: the invariant, the core's debt, and each window's current staging
    buffer at what the pipeline leaves there before the body. -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The two input buffers hold their blocks. The point's position modulo 8 says which case it
    is in. The invariant hands the body the scratch at the running minimum the point before left (at anything at the very
    first point), and takes it back at this point's running minimum, the written pieces reaching every row of it. The
    output's buffer is handed back untouched except at a last-column-tile point, where it receives the finished minimum.
    The other launch's buffers, the generator register and the core's debt pass through unchanged. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  have hN : t.val < 512 := lt_of_lt_of_eq t.isLt (show cfg1.N = 512 from N_1)
  by_cases h0 : t.val % 8 = 0
  · by_cases h1 : t.val % 8 = 7
    · exfalso; omega
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [Dat.leavesExact_idle (dat V c) 2 t (idleAt_2 t (fun h => h1 ((hcondStore t).mp h))) (noFlush_2 t (fun h => h1 ((hcondStore t).mp h)))]
      rw [outsAt_A V c t h0 h1]
      unfold sout_A; (try dsimp only)
      by_cases hz : t.val = 0
      · rw [PhiS_castSucc V c t, PhiS_zero V c _ _ hz, PhiA_eq]
        iintro ⟨⟨⟨HS0, Hoth⟩, Hg⟩, Ho, ⟨%d0, H0⟩, ⟨%d1, H1⟩, ⟨%d2, H2⟩⟩
        iapply ((kernelRun_A c (grid1.coords t) _ _ _ _ _ _ _ _ ((hcondReset t).mpr h0) (fun h => h1 ((hcondStore t).mp h)) (iblk V c 0 t) (iblk V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover_A c _ _ _ _ _ _ _ _ _ _ _ _ _)
            iexact Hoth
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun_A c (grid1.coords t) _ _ _ _ _ _ _ _ ((hcondReset t).mpr h0) (fun h => h1 ((hcondStore t).mp h)) (iblk V c 0 t) (iblk V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover_A c _ _ _ _ _ _ _ _ _ _ _ _ _)
            iexact Hoth
          iexact Hg
        isplitl [Ho]; · iexact Ho
        isplitl [H0]; · iexact H0
        isplitl [H1]; · iexact H1
        iexists _; iexact H2
  · by_cases h1 : t.val % 8 = 7
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t ((hcondStore t).mpr h1)], after_2]
      rw [outsAt_C V c t h0 h1]
      unfold out_C_2 sout_C; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun_C c (grid1.coords t) _ _ _ _ _ _ _ _ (fun h => h0 ((hcondReset t).mp h)) ((hcondStore t).mpr h1) (iblk V c 0 t) (iblk V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover_C c _ _ _ _ _ _ _ _ _ _ _ _ _ _)
            iexact Hoth
          iexact Hg
        isplitl [Ho]; · iexact Ho
        isplitl [H0]; · iexact H0
        isplitl [H1]; · iexact H1
        unfold owns; iexists _; isplitr
        swap; · iexact H2
        ipureintro; exact View.read_writes_of_cover _ _ _ _ _ (cover_C_2 c _ _ _ _ _ _ _ _ _ _ _ _ _ _)
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [Dat.leavesExact_idle (dat V c) 2 t (idleAt_2 t (fun h => h1 ((hcondStore t).mp h))) (noFlush_2 t (fun h => h1 ((hcondStore t).mp h)))]
      rw [outsAt_B V c t h0 h1]
      unfold sout_B; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun_B c (grid1.coords t) _ _ _ _ _ _ _ _ (fun h => h0 ((hcondReset t).mp h)) (fun h => h1 ((hcondStore t).mp h)) (iblk V c 0 t) (iblk V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover_B c _ _ _ _ _ _ _ _ _ _ _ _ _ _)
            iexact Hoth
          iexact Hg
        isplitl [Ho]; · iexact Ho
        isplitl [H0]; · iexact H0
        isplitl [H1]; · iexact H1
        iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the scratch's running minimum is forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS0, Hoth⟩, Hg⟩
  isplitl [HS0 Hoth]
  · isplitl [HS0]
    · iexists _; iexact HS0
    iexact Hoth
  iexact Hg

/-- The same after the last point. -/
theorem hout (c : Dev nD) : (dat V c).Φ (Fin.last cfg1.N) ⊢ Pipeline.ΦA spec1 c :=
  Phi_out V c _ (by rw [Fin.val_last]; have : cfg1.N = 512 := N_1; omega)

end Cert.Kernel.Rg1

end
-- ==== Proof.K.Launch.lean ====
/-
  The launch of the whole program. @main is four items in order: the first run of the row-minimum kernel
  (rows from the first point cloud, columns from the second), one reshape of its result, the second run with the
  two clouds exchanged, and six host operations (the other reshape, two constants −∞, the maximum of each
  reshaped result, and their sum). This module follows the contents of every unscoped buffer of a core through
  the four items — a fold from the launch memory: a kernel run replaces its three arrays by what its write-backs
  leave and keeps every other buffer, a host stretch applies its operations — and proves that every weakly fair
  execution from any launch memory terminates with every unscoped buffer at the end of that fold. Neither
  argument array is written on the way, so both end as launched.
-/
import proofs.«115515_j9887014715551_1_alg».proof.Proof.K.Frame0
import proofs.«115515_j9887014715551_1_alg».proof.Proof.K.Frame1
import Idealize.ShloMosaic.Lib.Pipeline.Regions
import Idealize.ShloMosaic.Lib.Pipeline.RegionsLoop
import Idealize.ShloMosaic.Lib.Pipeline.Frame
import Idealize.ShloMosaic.Lib.Pipeline.FrameSuffix
import Idealize.ShloMosaic.Lib.Pipeline.Kit

set_option maxRecDepth 16384

noncomputable section

namespace Cert.Kernel.Ln

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items: a fold through @main -/

/-- Core `c`'s buffers at launch (the first run's entry). -/
abbrev Bnd0 : Dev nD → Valuation τ sig (Elt F) := fun c b => m (c, b)
/-- The same read at the TensorCore's references (what the first run's proof data take). -/
abbrev Ent0 : (c : Dev nD) → (b : Ref sig .tc) → Buf (Elt F) ((c : Thread nD τ).loc b) := fun c b => Bnd0 m c b

/-- After the first run: its three arrays at what the write-backs leave (the two inputs as entered, the output's
    blocks folded in), every other buffer as entered. -/
def Bnd1 (c : Dev nD) : Valuation τ sig (Elt F) :=
  Pipeline.withArrays spec0 c (Bnd0 m c) fun w => (Rg0.dat (Ent0 m) c).arrAt w cfg0.N
theorem Bnd1_arr (c : Dev nD) (w : Fin cfg0.W) :
    Bnd1 m c (Proc.devRef .tc (Pipeline.arrRef spec0 w)) = (Rg0.dat (Ent0 m) c).arrAt w cfg0.N := by
  unfold Bnd1; exact Pipeline.withArrays_arr spec0 launch0.win.arr_inj c _ _ w
theorem Bnd1_of_ne (c : Dev nD) (b : Ref sig .tc) (hb : ∀ w, Pipeline.arrRef spec0 w ≠ b) :
    Bnd1 m c (Proc.devRef .tc b) = Bnd0 m c (Proc.devRef .tc b) := by
  unfold Bnd1; exact Pipeline.withArrays_of_ne spec0 c _ _ b hb
/-- The same read at the TensorCore's references (the first run's exit contents). -/
abbrev Ext0 : (c : Dev nD) → (b : Ref sig .tc) → Buf (Elt F) ((c : Thread nD τ).loc b) := fun c b => Bnd1 m c b
/-- At the first run's exit each of its arrays holds what the write-backs leave, and every other buffer what it
    held at entry. -/
theorem hF0 (c : Dev nD) (w : Fin cfg0.W) : (Rg0.dat (Ent0 m) c).arrAt w cfg0.N = Ext0 m c (Pipeline.arrRef spec0 w) :=
  (Bnd1_arr m c w).symm
theorem hrest0 (c : Dev nD) : ∀ b, b ∉ Finset.univ.image (Pipeline.arrRef spec0) → Ext0 m c b = Ent0 m c b :=
  fun b hb => Bnd1_of_ne m c b fun w e => hb (Finset.mem_image.mpr ⟨w, Finset.mem_univ _, e⟩)

/-- After the first reshape (the second run's entry). -/
abbrev Bnd2 (c : Dev nD) : Valuation τ sig (Elt F) := StableHlo.after hostOps1 (Bnd1 m c)
/-- The same read at the TensorCore's references (what the second run's proof data take). -/
abbrev Ent1 : (c : Dev nD) → (b : Ref sig .tc) → Buf (Elt F) ((c : Thread nD τ).loc b) := fun c b => Bnd2 m c b

/-- After the second run: its three arrays at what the write-backs leave, every other buffer as entered. -/
def Bnd3 (c : Dev nD) : Valuation τ sig (Elt F) :=
  Pipeline.withArrays spec1 c (Bnd2 m c) fun w => (Rg1.dat (Ent1 m) c).arrAt w cfg1.N
theorem Bnd3_arr (c : Dev nD) (w : Fin cfg1.W) :
    Bnd3 m c (Proc.devRef .tc (Pipeline.arrRef spec1 w)) = (Rg1.dat (Ent1 m) c).arrAt w cfg1.N := by
  unfold Bnd3; exact Pipeline.withArrays_arr spec1 launch1.win.arr_inj c _ _ w
theorem Bnd3_of_ne (c : Dev nD) (b : Ref sig .tc) (hb : ∀ w, Pipeline.arrRef spec1 w ≠ b) :
    Bnd3 m c (Proc.devRef .tc b) = Bnd2 m c (Proc.devRef .tc b) := by
  unfold Bnd3; exact Pipeline.withArrays_of_ne spec1 c _ _ b hb
/-- The same read at the TensorCore's references (the second run's exit contents). -/
abbrev Ext1 : (c : Dev nD) → (b : Ref sig .tc) → Buf (Elt F) ((c : Thread nD τ).loc b) := fun c b => Bnd3 m c b
theorem hF1 (c : Dev nD) (w : Fin cfg1.W) : (Rg1.dat (Ent1 m) c).arrAt w cfg1.N = Ext1 m c (Pipeline.arrRef spec1 w) :=
  (Bnd3_arr m c w).symm
theorem hrest1 (c : Dev nD) : ∀ b, b ∉ Finset.univ.image (Pipeline.arrRef spec1) → Ext1 m c b = Ent1 m c b :=
  fun b hb => Bnd3_of_ne m c b fun w e => hb (Finset.mem_image.mpr ⟨w, Finset.mem_univ _, e⟩)

/-- After the last six host operations: the contents the program ends with. -/
abbrev Bnd4 (c : Dev nD) : Valuation τ sig (Elt F) := StableHlo.after hostOps2 (Bnd3 m c)

/-! ## What the host stretches write -/

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- The one reference the first stretch writes: the reshaped first result. -/
abbrev wr1 : List (Ref sig .tc) := [main_v1]
theorem hostOps1_wr : (hostOps1 : List (HloOp τ sig (Elt F))).Forall fun op => op.writes ⊆ (wr1.map (Proc.devRef (τ := τ) .tc)).toFinset := by
  simp only [List.Forall, StableHlo.reshape_writes, Finset.singleton_subset_iff, List.mem_toFinset]
  exact List.mem_map_of_mem (by decide)
/-- The references the second stretch writes: the reshaped second result, the two constants, the two maxima, the sum. -/
abbrev wr2 : List (Ref sig .tc) := [main_v3, main_cst, main_v4, main_cst_0, main_v5, main_v6]
theorem hostOps2_wr : (hostOps2 : List (HloOp τ sig (Elt F))).Forall fun op => op.writes ⊆ (wr2.map (Proc.devRef (τ := τ) .tc)).toFinset := by
  simp only [List.Forall, StableHlo.reshape_writes, StableHlo.nullary_writes, StableHlo.binary_writes, Finset.singleton_subset_iff, List.mem_toFinset]
  refine ⟨?_, ?_, ?_, ?_, ?_, ?_⟩ <;> exact List.mem_map_of_mem (by decide)

/-- A buffer the first stretch does not write is after it as before it. -/
theorem Bnd2_of (c : Dev nD) (r : Ref sig .tc) (h : r ∉ wr1) : Bnd2 m c (Proc.devRef .tc r) = Bnd1 m c (Proc.devRef .tc r) :=
  StableHlo.after_of_writes_sub hostOps1 _ hostOps1_wr h
/-- A buffer the second stretch does not write is after it as before it. -/
theorem Bnd4_of (c : Dev nD) (r : Ref sig .tc) (h : r ∉ wr2) : Bnd4 m c (Proc.devRef .tc r) = Bnd3 m c (Proc.devRef .tc r) :=
  StableHlo.after_of_writes_sub hostOps2 _ hostOps2_wr h

/-! ### The arguments end as launched: no host operation writes one, and each run reads both through input
    windows, whose arrays are never written back -/

theorem Bnd4_main_arg0 (c : Dev nD) : Bnd4 m c (Proc.devRef .tc main_arg0) = m ((c : Thread nD τ).loc main_arg0) :=
  calc Bnd4 m c (Proc.devRef .tc main_arg0)
    _ = Bnd3 m c (Proc.devRef .tc main_arg0) := Bnd4_of m c main_arg0 (by decide)
    _ = Bnd2 m c (Proc.devRef .tc main_arg0) := (Bnd3_arr m c 1).trans (((Rg1.dat (Ent1 m) c).arrAt_in 1 rfl _).trans (Rg1.A_eq (Ent1 m) c 1))
    _ = Bnd1 m c (Proc.devRef .tc main_arg0) := Bnd2_of m c main_arg0 (by decide)
    _ = Bnd0 m c (Proc.devRef .tc main_arg0) := (Bnd1_arr m c 0).trans (((Rg0.dat (Ent0 m) c).arrAt_in 0 rfl _).trans (Rg0.A_eq (Ent0 m) c 0))
    _ = m ((c : Thread nD τ).loc main_arg0) := rfl
theorem Bnd4_main_arg1 (c : Dev nD) : Bnd4 m c (Proc.devRef .tc main_arg1) = m ((c : Thread nD τ).loc main_arg1) :=
  calc Bnd4 m c (Proc.devRef .tc main_arg1)
    _ = Bnd3 m c (Proc.devRef .tc main_arg1) := Bnd4_of m c main_arg1 (by decide)
    _ = Bnd2 m c (Proc.devRef .tc main_arg1) := (Bnd3_arr m c 0).trans (((Rg1.dat (Ent1 m) c).arrAt_in 0 rfl _).trans (Rg1.A_eq (Ent1 m) c 0))
    _ = Bnd1 m c (Proc.devRef .tc main_arg1) := Bnd2_of m c main_arg1 (by decide)
    _ = Bnd0 m c (Proc.devRef .tc main_arg1) := (Bnd1_arr m c 1).trans (((Rg0.dat (Ent0 m) c).arrAt_in 1 rfl _).trans (Rg0.A_eq (Ent0 m) c 1))
    _ = m ((c : Thread nD τ).loc main_arg1) := rfl

/-! ## The proof data family and the thread state -/

/-- The prefetched tables' admissible contents: neither run has a table. -/
abbrev adm : (p : Fin 2) → (pcfgs (F := F) p).Adm := fun p => (cfgs p).toPCfg_adm
/-- Both runs' proof data, each at its entry contents. -/
def pdats : (p : Fin 2) → (c : Dev nD) → Dat τ (Elt F) Unit ℕ (UR sig nD τ) ℕ (Pipeline.pin (pcfgs (F := F)) adm p) c
  | ⟨0, _⟩ => fun c => Rg0.dat (Ent0 m) c
  | ⟨1, _⟩ => fun c => Rg1.dat (Ent1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a run's
    invariant takes it in and gives it back) and the core owing nothing. -/
abbrev R (c : Dev nD) : sProp 𝕄 := iprop((∃ r, prngReg c r) ∗ ∃ W, owes (c : Thread nD τ) (0 : CellTallies nD τ sig Unit) W)
/-- A host stretch over every unscoped buffer from the contents `W`, `R` riding along: it ends with those buffers at
    the stretch's operations applied to `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator
    register at some state. -/
abbrev Tₙ (c : Dev nD) : sProp 𝕄 := iprop(StableHlo.held (c : Thread nD τ) (Pipeline.ucRefs τ sig) (Bnd4 m c) ∗ ∃ r, prngReg c r)

/-! ## The two runs as segments -/

set_option backward.isDefEq.respectTransparency.types false in
/-- THE FIRST RUN over the thread state: entered from every unscoped buffer at the launch contents, left at
    `Bnd1`. Its arrays are split out of the unscoped buffers and put back at the exit contents; the generator
    register and the scoped rest enter the run's invariant at its first point and come back from its last (the
    scratch's running minima are inside the invariant only in between); nothing owed; no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Rg0.body_obligation (Ent0 m) c).loose
  hwaits := Pipeline.hwaits_of_owed_zero _ _ _ _ L lv 0 fun _ _ => rfl
  pre c := iprop(StableHlo.held (c : Thread nD τ) (Pipeline.ucRefs τ sig) (Bnd0 m c) ∗ R c)
  post c := iprop(StableHlo.held (c : Thread nD τ) (Pipeline.ucRefs τ sig) (Bnd1 m c) ∗ R c)
  X c := iprop(∃ r, prngReg c r)
  Y c := iprop(∃ r, prngReg c r)
  Z c := Pipeline.unscopedRest (Ix := Unit) (Name := ℕ) (U := UR sig nD τ) (Lvl := ℕ) spec0 c (Ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Rg0.hin (Ent0 m) c)
    unfold Pipeline.ΦA
    iintro ⟨Hp, -, Hr⟩
    isplitl [Hr]; · iexact Hr
    iexact Hp
  hout c := by
    rw [Pipeline.ownSems0_none]
    refine BIBase.Entails.trans (Rg0.hout (Ent0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ent0 m c) (Ext0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND RUN over the thread state: entered from every unscoped buffer at `Bnd2`, left at `Bnd3`; otherwise
    as the first. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Rg1.body_obligation (Ent1 m) c).loose
  hwaits := Pipeline.hwaits_of_owed_zero _ _ _ _ L lv 1 fun _ _ => rfl
  pre c := iprop(StableHlo.held (c : Thread nD τ) (Pipeline.ucRefs τ sig) (Bnd2 m c) ∗ R c)
  post c := iprop(StableHlo.held (c : Thread nD τ) (Pipeline.ucRefs τ sig) (Bnd3 m c) ∗ R c)
  X c := iprop(∃ r, prngReg c r)
  Y c := iprop(∃ r, prngReg c r)
  Z c := Pipeline.unscopedRest (Ix := Unit) (Name := ℕ) (U := UR sig nD τ) (Lvl := ℕ) spec1 c (Ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Rg1.hin (Ent1 m) c)
    unfold Pipeline.ΦA
    iintro ⟨Hp, -, Hr⟩
    isplitl [Hr]; · iexact Hr
    iexact Hp
  hout c := by
    rw [Pipeline.ownSems0_none]
    refine BIBase.Entails.trans (Rg1.hout (Ent1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ent1 m c) (Ext1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The first reshape as a segment, from the first run's exit contents. -/
abbrev host1 : Pipeline.HostSeg (Name := ℕ) (U := UR sig nD τ) (pcfgs (F := F)) defs₀ 𝒱₀ L lv :=
  hseg hostOps1 hostOps1_sub hostOps1_fresh (Bnd1 m)
/-- The last six host operations as a segment, from the second run's exit contents. -/
abbrev host2 : Pipeline.HostSeg (Name := ℕ) (U := UR sig nD τ) (pcfgs (F := F)) defs₀ 𝒱₀ L lv :=
  hseg hostOps2 hostOps2_sub hostOps2_fresh (Bnd3 m)

/-- @main's four segments in order. -/
abbrev segs : List (Pipeline.Seg (pcfgs (F := F)) adm (pdats m) () defs₀ 𝒱₀ L lv) :=
  [ .region (reg0 m),
    .host (host1 m),
    .region (reg1 m),
    .host (host2 m) ]
/-- @main IS the run of the segments. -/
theorem main_run (c : Dev nD) : main (F := F) c = Pipeline.Seg.run (segs m) :=
  (main_chain c).trans (by chain_rfl)

/-- The last link of the chain: after the last stretch the thread state is the last contents and the generator
    register, beside the core owing nothing (the same three conjuncts, bracketed the other way). -/
theorem last_link (c : Dev nD) :
    iprop(StableHlo.held (c : Thread nD τ) (Pipeline.ucRefs τ sig) (Bnd4 m c) ∗ R c)
      ⊢ (iprop(Tₙ m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

set_option backward.isDefEq.respectTransparency.types false in
/-- THE RUN. From any memory with zero counters, every weakly fair execution of @main on the TensorCores terminates,
    nothing faulting, and in every final state each core's every unscoped buffer holds the end of the fold, `Bnd4`. -/
theorem run_all : θ_run defs (onTc (τ := τ) (main (F := F))) ⟨m, fun _ => 0, ρ⟩
    (fun r => ∀ c : Dev nD, ∀ b ∈ Pipeline.ucRefs τ sig, r.2.mem ((c : Thread nD τ).1, b) = Bnd4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bnd0 m c) ∗ R c)) (Tₙ := Tₙ m)
    (hch := ⟨fun _ => .rfl, fun _ => .rfl, fun _ => .rfl, fun _ => .rfl, fun c => last_link m c⟩)
    (hinit := by
      refine Pipeline.initEach L lv fun c => ?_
      rw [show unscopedBufs c (fun b => m ((c : Thread nD τ).loc b)) = StableHlo.held (c : Thread nD τ) (Pipeline.ucRefs τ sig) (Bnd0 m c)
        from Pipeline.unscopedBufs_held c (Bnd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bnd4 m c b)
    (hfin := fun c s' => by
      iintro ⟨⟨Hh, -⟩, HSI⟩
      unfold StableHlo.held
      imodintro
      iapply (pointsTo_read_all (Pipeline.ucRefs τ sig) (fun b => (((c : Thread nD τ)).1, b)) (Bnd4 m c) s')
      isplitl [Hh] <;> iassumption)
    (hQ := fun s h => h)

/-- THE FRAME: from any memory with zero counters every weakly fair execution of @main terminates and every final
    state has both argument arrays as launched — each read off the last contents, which the fold walks back to the
    launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (Bnd4_main_arg0 m c),
     (h c _ (mem_uc main_arg1 (by decide))).trans (Bnd4_main_arg1 m c)⟩) (run_all m ρ)

end Cert.Kernel.Ln

end
-- ==== Proof.KI.Shared0.lean ====
/-
  Region 0 (the first launch of the row-minimum kernel): what its three control cases share.
  A grid point is (batch, row tile, column tile); the body resets its running-minimum scratch at
  column tile 0, folds one tile of pairwise distances into it at every point, and stores the
  scratch into the output block at column tile 7. The conditions are decided over the grid in
  closed form (the point's position modulo 8), and each window's block is read off the array the
  region is entered with.
-/
import proofs.«115515_j9887014715551_1_alg».proof.Proof.Gen.KernelIdeal.Launch
import proofs.«115515_j9887014715551_1_alg».proof.Proof.Gen.KernelIdeal.Skeleton
import proofs.«115515_j9887014715551_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Rg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile's staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column tile's staging buffer holds its block at every point. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, over the grid -/

/-- "This is the first column tile": the scratch is reset to +∞. -/
abbrev condReset (i : grid0.Coords) : Prop := (Scalar.cmpi .ne (Scalar.extui (Scalar.cmpi .eq (BitVec.ofNat 32 (i 2).val) 0#32)) 0#32) = 1#1
theorem hcondReset : ∀ t : Fin cfg0.N, condReset (grid0.coords t) ↔ t.val % 8 = 0 :=
  (by decide +kernel : ∀ t : Fin grid0.N, condReset (grid0.coords t) ↔ t.val % 8 = 0)

/-- "This is the last column tile": the scratch is stored into the output block. -/
abbrev condStore (i : grid0.Coords) : Prop := k0_cond2 i = 1#1
theorem hcondStore : ∀ t : Fin cfg0.N, condStore (grid0.coords t) ↔ t.val % 8 = 7 :=
  (by decide +kernel : ∀ t : Fin grid0.N, condStore (grid0.coords t) ↔ t.val % 8 = 7)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem idleAt_2 : ∀ t : Fin cfg0.N, ¬condStore (grid0.coords t) → cfg0.idle 2 (grid0.coords t) = true := by decide +kernel
theorem noFlush_2 : ∀ t : Fin cfg0.N, ¬condStore (grid0.coords t) → (cfg0.win 2).flush t = false := by decide +kernel
theorem liveAt_2 : ∀ t : Fin cfg0.N, condStore (grid0.coords t) → cfg0.idle 2 (grid0.coords t) = false := by decide +kernel

/-! ## The memrefs the body is called with -/

/-- One staging buffer of the output window, through which its contents are stated. -/
abbrev VO : View sig .tc .vmem S1x512x1 .f32 := (Memref.whole cc0_stg2_0 : Memref sig .tc .vmem S1x512x1 .f32).view
abbrev ms_0 (t : Fin cfg0.N) : Memref sig .tc .vmem S1x512x3 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x1024x3 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x512x1 .f32 := win0_2.stage (cfg0.slots t 2)
abbrev hs_2 (t : Fin cfg0.N) : (ms_2 t).IsWhole := hstage0_2 ((cfg0.slots t 2).cast nbuf0_2)
/-- The running-minimum scratch, a whole scoped buffer of the kernel's own. -/
abbrev scM : Memref sig .tc .vmem S512x1 .f32 := Memref.whole cc0_scratch0
abbrev VS : View sig .tc .vmem S512x1 .f32 := scM.view

/-- The other launch's scoped buffers, each at anything: they ride through this region untouched. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant, conjunct by conjunct: the scratch as a memref owned at some contents, the other launch's
    scoped buffers at anything, the generator register at some state. -/
theorem PhiA_eq (c : Dev nD) :
    (Pipeline.ΦA spec0 c : sProp 𝕄)
      = iprop(iprop((∃ d, owns (c : Thread nD τ) scM fullShare d) ∗ otherScoped c) ∗ (∃ r, prngReg c r)) := by
  unfold Pipeline.ΦA otherScoped; rw [scopedRest0_eq]; simp only [scM, owns_whole]
  first
    | rfl
    | (have assoc : ∀ P Q R' : sProp 𝕄, iprop((P ∗ Q) ∗ R') = iprop(P ∗ Q ∗ R') :=
         fun _ _ _ => Idealize.SL.BI.Entails.antisymm Idealize.SL.BI.sep_assoc Idealize.SL.BI.sep_assoc'
       have comm : ∀ P Q : sProp 𝕄, iprop(P ∗ Q) = iprop(Q ∗ P) :=
         fun _ _ => Idealize.SL.BI.Entails.antisymm Idealize.SL.BI.sep_comm Idealize.SL.BI.sep_comm
       conv_rhs => arg 1; rw [comm]
       simp only [assoc]
       first | done | rfl)

end Cert.KernelIdeal.Rg0

end
-- ==== Proof.KI.RunA0.lean ====
/-
  Region 0, the body at a point of the first column tile: the scratch, found at anything, is reset to +∞ and then holds the minimum of +∞ and this tile's row minima; the output block is not touched.
-/
import proofs.«115515_j9887014715551_1_alg».proof.Proof.KI.Shared0

set_option maxRecDepth 16384

noncomputable section

namespace Cert.KernelIdeal.Rg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run at a first-column-tile point, on whole memrefs: the two input blocks at `x0`, `x1` and the output's
    buffer at `xi2` are handed back as found; the scratch, found at anything, ends with the listed pieces written. -/
noncomputable def kernelRun_A (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : condReset i) (hc1 : ¬condStore i)
    (x0 : Vec F S1x512x3 .f32) (x1 : Vec F S1x1024x3 .f32) :
    Σ' (L2 : List (View.Piece (Elt F) S1x512x1 .f32)), { LS : List (View.Piece (Elt F) S512x1 .f32) //
      ∀ (xi2 : Vec F S1x512x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc0__min_dist_kernel i arg3 harg3 arg4 harg4 arg5 harg5 arg6 harg6) K } := by
  refine ⟨[], ?_, fun xi2 E K => ?run⟩
  case run =>
    simp only [cc0__min_dist_kernel_eq_skeleton]; unfold cc0__min_dist_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Rg0

end
-- ==== Proof.KI.RunB0.lean ====
/-
  Region 0, the body at a point of a middle column tile: the scratch, found at what the point before left, ends at the minimum of that and this tile's row minima; the output block is not touched.
-/
import proofs.«115515_j9887014715551_1_alg».proof.Proof.KI.RunA0

set_option maxRecDepth 16384

noncomputable section

namespace Cert.KernelIdeal.Rg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run at a middle-column-tile point, on whole memrefs: inputs and the output's buffer handed back as found;
    the scratch, found at `xs`, ends with the listed pieces written. -/
noncomputable def kernelRun_B (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : ¬condStore i)
    (x0 : Vec F S1x512x3 .f32) (x1 : Vec F S1x1024x3 .f32) (xs : Vec F S512x1 .f32) :
    Σ' (L2 : List (View.Piece (Elt F) S1x512x1 .f32)), { LS : List (View.Piece (Elt F) S512x1 .f32) //
      ∀ (xi2 : Vec F S1x512x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc0__min_dist_kernel i arg3 harg3 arg4 harg4 arg5 harg5 arg6 harg6) K } := by
  refine ⟨[], ?_, fun xi2 E K => ?run⟩
  case run =>
    simp only [cc0__min_dist_kernel_eq_skeleton]; unfold cc0__min_dist_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Rg0

end
-- ==== Proof.KI.RunC0.lean ====
/-
  Region 0, the body at a point of the last column tile: the scratch, found at what the point before left, ends at the minimum of that and this tile's row minima, and the output block is stored whole from it.
-/
import proofs.«115515_j9887014715551_1_alg».proof.Proof.KI.RunB0

set_option maxRecDepth 16384

noncomputable section

namespace Cert.KernelIdeal.Rg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run at a last-column-tile point, on whole memrefs: inputs handed back as found; the output's buffer,
    found at anything, and the scratch, found at `xs`, end with the listed pieces written. -/
noncomputable def kernelRun_C (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : condStore i)
    (x0 : Vec F S1x512x3 .f32) (x1 : Vec F S1x1024x3 .f32) (xs : Vec F S512x1 .f32) :
    Σ' (L2 : List (View.Piece (Elt F) S1x512x1 .f32)), { LS : List (View.Piece (Elt F) S512x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc0__min_dist_kernel i arg3 harg3 arg4 harg4 arg5 harg5 arg6 harg6) K } := by
  refine ⟨?_, ?_, fun E K => ?run⟩
  case run =>
    simp only [cc0__min_dist_kernel_eq_skeleton]; unfold cc0__min_dist_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.KernelIdeal.Rg0

end
-- ==== Proof.KI.Frame0.lean ====
/-
  Region 0 (the first launch of the row-minimum kernel): the frame data on top of the three per-case runs.
  Along the grid the scratch carries, for the current batch and row tile, the minimum over the column tiles
  met so far of each row's distance to the tile's columns; at the last column tile that running minimum is
  what the output block receives. This module names what the output's staging buffer and the scratch hold
  after every point, states the region invariant over those contents, and discharges the body obligation
  of the pipeline point by point.
-/
import proofs.«115515_j9887014715551_1_alg».proof.Proof.KI.RunC0

set_option maxRecDepth 16384

noncomputable section

namespace Cert.KernelIdeal.Rg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output's staging buffer and in the scratch -/

/-- At a first-column-tile point nothing is stored into the output block (its window is idle there and is not
    written back): the empty list of pieces read back over arbitrary contents, a placeholder nothing consults. -/
def out_A_2 (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : condReset i) (hc1 : ¬condStore i)
    (x0 : Vec F S1x512x3 .f32) (x1 : Vec F S1x1024x3 .f32) : Vec F S1x512x1 .f32 :=
  VO.read (Elt F) (VO.writes (Elt F) VO.junk (kernelRun_A c i arg3 harg3 arg4 harg4 arg5 harg5 arg6 harg6 hc0 hc1 x0 x1).1)

/-- At a first-column-tile point the pieces written into the scratch (the reset to +∞, then the minimum with this
    tile's row minima) reach every row of it. -/
theorem scover_A (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : condReset i) (hc1 : ¬condStore i)
    (x0 : Vec F S1x512x3 .f32) (x1 : Vec F S1x1024x3 .f32) (y : S512x1.Idx) :
    ∃ pc ∈ (kernelRun_A c i arg3 harg3 arg4 harg4 arg5 harg5 arg6 harg6 hc0 hc1 x0 x1).2.1, y ∈ pc.1.set :=
  View.cover_of_tiledL (kernelRun_A c i arg3 harg3 arg4 harg4 arg5 harg5 arg6 harg6 hc0 hc1 x0 x1).2.1 S512x1.size (by sl_kernel_rfl) y

/-- What a first-column-tile point leaves in the scratch: the running minimum started afresh, i.e. the minimum of +∞
    and this tile's row minima, as the written pieces read back. -/
def sout_A (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : condReset i) (hc1 : ¬condStore i)
    (x0 : Vec F S1x512x3 .f32) (x1 : Vec F S1x1024x3 .f32) : Vec F S512x1 .f32 :=
  VS.read (Elt F) (VS.writes (Elt F) VS.junk (kernelRun_A c i arg3 harg3 arg4 harg4 arg5 harg5 arg6 harg6 hc0 hc1 x0 x1).2.1)

/-- At a middle-column-tile point nothing is stored into the output block either: the same placeholder. -/
def out_B_2 (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : ¬condStore i)
    (x0 : Vec F S1x512x3 .f32) (x1 : Vec F S1x1024x3 .f32) (xs : Vec F S512x1 .f32) : Vec F S1x512x1 .f32 :=
  VO.read (Elt F) (VO.writes (Elt F) VO.junk (kernelRun_B c i arg3 harg3 arg4 harg4 arg5 harg5 arg6 harg6 hc0 hc1 x0 x1 xs).1)

/-- At a middle-column-tile point the piece written into the scratch (the minimum of what it held and this tile's
    row minima) reaches every row of it. -/
theorem scover_B (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : ¬condStore i)
    (x0 : Vec F S1x512x3 .f32) (x1 : Vec F S1x1024x3 .f32) (xs : Vec F S512x1 .f32) (y : S512x1.Idx) :
    ∃ pc ∈ (kernelRun_B c i arg3 harg3 arg4 harg4 arg5 harg5 arg6 harg6 hc0 hc1 x0 x1 xs).2.1, y ∈ pc.1.set :=
  View.cover_of_tiledL (kernelRun_B c i arg3 harg3 arg4 harg4 arg5 harg5 arg6 harg6 hc0 hc1 x0 x1 xs).2.1 S512x1.size (by sl_kernel_rfl) y

/-- What a middle-column-tile point leaves in the scratch: the running minimum `xs` found there, lowered by this
    tile's row minima. -/
def sout_B (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : ¬condStore i)
    (x0 : Vec F S1x512x3 .f32) (x1 : Vec F S1x1024x3 .f32) (xs : Vec F S512x1 .f32) : Vec F S512x1 .f32 :=
  VS.read (Elt F) (VS.writes (Elt F) VS.junk (kernelRun_B c i arg3 harg3 arg4 harg4 arg5 harg5 arg6 harg6 hc0 hc1 x0 x1 xs).2.1)

/-- At a last-column-tile point the store into the output block reaches every row of the block. -/
theorem cover_C_2 (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : condStore i)
    (x0 : Vec F S1x512x3 .f32) (x1 : Vec F S1x1024x3 .f32) (xs : Vec F S512x1 .f32) (y : S1x512x1.Idx) :
    ∃ pc ∈ (kernelRun_C c i arg3 harg3 arg4 harg4 arg5 harg5 arg6 harg6 hc0 hc1 x0 x1 xs).1, y ∈ pc.1.set :=
  View.cover_of_tiledL (kernelRun_C c i arg3 harg3 arg4 harg4 arg5 harg5 arg6 harg6 hc0 hc1 x0 x1 xs).1 S1x512x1.size (by sl_kernel_rfl) y

/-- What a last-column-tile point leaves in the output's staging buffer: the finished running minimum over all
    eight column tiles, one value per row of the tile. -/
def out_C_2 (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : condStore i)
    (x0 : Vec F S1x512x3 .f32) (x1 : Vec F S1x1024x3 .f32) (xs : Vec F S512x1 .f32) : Vec F S1x512x1 .f32 :=
  VO.read (Elt F) (VO.writes (Elt F) VO.junk (kernelRun_C c i arg3 harg3 arg4 harg4 arg5 harg5 arg6 harg6 hc0 hc1 x0 x1 xs).1)

/-- At a last-column-tile point the piece written into the scratch reaches every row of it. -/
theorem scover_C (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : condStore i)
    (x0 : Vec F S1x512x3 .f32) (x1 : Vec F S1x1024x3 .f32) (xs : Vec F S512x1 .f32) (y : S512x1.Idx) :
    ∃ pc ∈ (kernelRun_C c i arg3 harg3 arg4 harg4 arg5 harg5 arg6 harg6 hc0 hc1 x0 x1 xs).2.1, y ∈ pc.1.set :=
  View.cover_of_tiledL (kernelRun_C c i arg3 harg3 arg4 harg4 arg5 harg5 arg6 harg6 hc0 hc1 x0 x1 xs).2.1 S512x1.size (by sl_kernel_rfl) y

/-- What a last-column-tile point leaves in the scratch: the running minimum `xs` lowered by the last tile's row
    minima, the same values the output block receives. -/
def sout_C (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : condStore i)
    (x0 : Vec F S1x512x3 .f32) (x1 : Vec F S1x1024x3 .f32) (xs : Vec F S512x1 .f32) : Vec F S512x1 .f32 :=
  VS.read (Elt F) (VS.writes (Elt F) VS.junk (kernelRun_C c i arg3 harg3 arg4 harg4 arg5 harg5 arg6 harg6 hc0 hc1 x0 x1 xs).2.1)

/-! ## What the output's buffer and the scratch hold after each point -/

/-- The accumulation. What the output's staging buffer (first component) and the scratch (second component) hold after
    the body at position `n`: the case the point's column tile selects, run at the point's memrefs and input blocks;
    past the first column tile the scratch is read at what position `n - 1` left in it, so that along a row tile's
    eight points the second component is the minimum so far over the column tiles met, and at the eighth the first
    component is that finished minimum. A point cannot be both the first and the last column tile. -/
def outsAt (c : Dev nD) : (n : ℕ) → n < cfg0.N → Vec F S1x512x1 .f32 × Vec F S512x1 .f32
  | 0, hn => (out_A_2 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcondReset ⟨0, hn⟩).mpr (Nat.zero_mod _)) (fun h => (fun h => by (try dsimp only at h); omega) ((hcondStore ⟨0, hn⟩).mp h)) (iblk V c 0 ⟨0, hn⟩) (iblk V c 1 ⟨0, hn⟩), sout_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcondReset ⟨0, hn⟩).mpr (Nat.zero_mod _)) (fun h => (fun h => by (try dsimp only at h); omega) ((hcondStore ⟨0, hn⟩).mp h)) (iblk V c 0 ⟨0, hn⟩) (iblk V c 1 ⟨0, hn⟩))
  | n + 1, hn =>
    if h0 : (n + 1) % 8 = 0 then
      if h1 : (n + 1) % 8 = 7 then
        False.elim (by have hN : n + 1 < 512 := lt_of_lt_of_eq hn (show cfg0.N = 512 from N_0); omega)
      else
        (out_A_2 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcondReset ⟨n + 1, hn⟩).mpr h0) (fun h => h1 ((hcondStore ⟨n + 1, hn⟩).mp h)) (iblk V c 0 ⟨n + 1, hn⟩) (iblk V c 1 ⟨n + 1, hn⟩), sout_A c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcondReset ⟨n + 1, hn⟩).mpr h0) (fun h => h1 ((hcondStore ⟨n + 1, hn⟩).mp h)) (iblk V c 0 ⟨n + 1, hn⟩) (iblk V c 1 ⟨n + 1, hn⟩))
    else
      if h1 : (n + 1) % 8 = 7 then
        (out_C_2 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcondReset ⟨n + 1, hn⟩).mp h)) ((hcondStore ⟨n + 1, hn⟩).mpr h1) (iblk V c 0 ⟨n + 1, hn⟩) (iblk V c 1 ⟨n + 1, hn⟩) (outsAt c n (Nat.lt_of_succ_lt hn)).2, sout_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcondReset ⟨n + 1, hn⟩).mp h)) ((hcondStore ⟨n + 1, hn⟩).mpr h1) (iblk V c 0 ⟨n + 1, hn⟩) (iblk V c 1 ⟨n + 1, hn⟩) (outsAt c n (Nat.lt_of_succ_lt hn)).2)
      else
        (out_B_2 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcondReset ⟨n + 1, hn⟩).mp h)) (fun h => h1 ((hcondStore ⟨n + 1, hn⟩).mp h)) (iblk V c 0 ⟨n + 1, hn⟩) (iblk V c 1 ⟨n + 1, hn⟩) (outsAt c n (Nat.lt_of_succ_lt hn)).2, sout_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcondReset ⟨n + 1, hn⟩).mp h)) (fun h => h1 ((hcondStore ⟨n + 1, hn⟩).mp h)) (iblk V c 0 ⟨n + 1, hn⟩) (iblk V c 1 ⟨n + 1, hn⟩) (outsAt c n (Nat.lt_of_succ_lt hn)).2)

/-- At a first-column-tile point: the running minimum started afresh. -/
theorem outsAt_A (c : Dev nD) (t : Fin cfg0.N) (h0 : t.val % 8 = 0) (h1 : ¬t.val % 8 = 7) :
    outsAt V c t.val t.isLt = (out_A_2 c (grid0.coords t) (ms_0 t) (hs_0 t) (ms_1 t) (hs_1 t) (ms_2 t) (hs_2 t) scM (Memref.isWhole_whole _) ((hcondReset t).mpr h0) (fun h => h1 ((hcondStore t).mp h)) (iblk V c 0 t) (iblk V c 1 t), sout_A c (grid0.coords t) (ms_0 t) (hs_0 t) (ms_1 t) (hs_1 t) (ms_2 t) (hs_2 t) scM (Memref.isWhole_whole _) ((hcondReset t).mpr h0) (fun h => h1 ((hcondStore t).mp h)) (iblk V c 0 t) (iblk V c 1 t)) := by
  obtain ⟨n, hn⟩ := t
  cases n with
  | zero => exact rfl
  | succ n => exact (dif_pos h0).trans ((dif_neg h1).trans rfl)

/-- At a middle-column-tile point: the running minimum the point before left, lowered by this tile. -/
theorem outsAt_B (c : Dev nD) (t : Fin cfg0.N) (h0 : ¬t.val % 8 = 0) (h1 : ¬t.val % 8 = 7) :
    outsAt V c t.val t.isLt = (out_B_2 c (grid0.coords t) (ms_0 t) (hs_0 t) (ms_1 t) (hs_1 t) (ms_2 t) (hs_2 t) scM (Memref.isWhole_whole _) (fun h => h0 ((hcondReset t).mp h)) (fun h => h1 ((hcondStore t).mp h)) (iblk V c 0 t) (iblk V c 1 t) (outsAt V c (t.val - 1) (Nat.lt_of_le_of_lt (Nat.sub_le _ _) t.isLt)).2, sout_B c (grid0.coords t) (ms_0 t) (hs_0 t) (ms_1 t) (hs_1 t) (ms_2 t) (hs_2 t) scM (Memref.isWhole_whole _) (fun h => h0 ((hcondReset t).mp h)) (fun h => h1 ((hcondStore t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last-column-tile point: the running minimum the point before left, lowered by the last tile and stored. -/
theorem outsAt_C (c : Dev nD) (t : Fin cfg0.N) (h0 : ¬t.val % 8 = 0) (h1 : t.val % 8 = 7) :
    outsAt V c t.val t.isLt = (out_C_2 c (grid0.coords t) (ms_0 t) (hs_0 t) (ms_1 t) (hs_1 t) (ms_2 t) (hs_2 t) scM (Memref.isWhole_whole _) (fun h => h0 ((hcondReset t).mp h)) ((hcondStore t).mpr h1) (iblk V c 0 t) (iblk V c 1 t) (outsAt V c (t.val - 1) (Nat.lt_of_le_of_lt (Nat.sub_le _ _) t.isLt)).2, sout_C c (grid0.coords t) (ms_0 t) (hs_0 t) (ms_1 t) (hs_1 t) (ms_2 t) (hs_2 t) scM (Memref.isWhole_whole _) (fun h => h0 ((hcondReset t).mp h)) ((hcondStore t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`. Before the first point it is the class's own: the scratch at anything, the other
    launch's scoped buffers at anything, the generator register at some state. Afterwards the scratch is held at the
    running minimum the point before left in it; the other launch's buffers and the register ride along unchanged. -/
def PhiS (c : Dev nD) : (n : ℕ) → n ≤ cfg0.N → sProp 𝕄
  | 0, _ => Pipeline.ΦA spec0 c
  | n + 1, hn => iprop(iprop(owns (c : Thread nD τ) scM fullShare ((outsAt V c n hn).2) ∗ otherScoped c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the scratch at that point's running minimum. -/
theorem PhiS_succ (c : Dev nD) (n : ℕ) (hn : n < cfg0.N) :
    PhiS V c (n + 1) hn = iprop(iprop(owns (c : Thread nD τ) scM fullShare ((outsAt V c n hn).2) ∗ otherScoped c) ∗ (∃ r, prngReg c r)) := rfl

/-- Before a point that is not the first: the scratch at the running minimum the point before left. -/
theorem PhiS_pos (c : Dev nD) (n : ℕ) (h : n ≤ cfg0.N) (hz : n ≠ 0) :
    PhiS V c n h = iprop(iprop(owns (c : Thread nD τ) scM fullShare ((outsAt V c (n - 1) (by omega)).2) ∗ otherScoped c) ∗ (∃ r, prngReg c r)) := by
  cases n with
  | zero => exact absurd rfl hz
  | succ n => rfl

/-! ## The pipeline's proof data -/

/-- The proof data of the pipeline on core `c`: the arrays as the region finds them; after the body at point `t` the
    row tile's and the column tile's buffers at their blocks and the output's buffer at `outsAt`'s first component
    (the finished row minima at a last-column-tile point); the invariant `PhiS`; full shares; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

/-- The proof data's arrays are the contents the region is entered with. -/
theorem A_eq (c : Dev nD) (w : Fin cfg0.W) : (dat V c).A w = V c (Pipeline.arrRef spec0 w) := by
  dsimp only [dat]

/-- The invariant at a point's start, restated at the point's position. -/
theorem PhiS_castSucc (c : Dev nD) (t : Fin cfg0.N) :
    (dat V c).Φ t.castSucc = PhiS V c t.val (Nat.le_of_lt t.isLt) := by
  dsimp only [dat]; simp only [Fin.coe_castSucc]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]

/-- Each input's current staging buffer holds its block at every point, fetched there or not. -/
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation, at a generic point -/

/-- What the body is called with at point `t`: the invariant, the core's debt, and each window's current staging
    buffer at what the pipeline leaves there before the body. -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The two input buffers hold their blocks. The point's position modulo 8 says which case it
    is in. The invariant hands the body the scratch at the running minimum the point before left (at anything at the very
    first point), and takes it back at this point's running minimum, the written pieces reaching every row of it. The
    output's buffer is handed back untouched except at a last-column-tile point, where it receives the finished minimum.
    The other launch's buffers, the generator register and the core's debt pass through unchanged. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  have hN : t.val < 512 := lt_of_lt_of_eq t.isLt (show cfg0.N = 512 from N_0)
  by_cases h0 : t.val % 8 = 0
  · by_cases h1 : t.val % 8 = 7
    · exfalso; omega
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [Dat.leavesExact_idle (dat V c) 2 t (idleAt_2 t (fun h => h1 ((hcondStore t).mp h))) (noFlush_2 t (fun h => h1 ((hcondStore t).mp h)))]
      rw [outsAt_A V c t h0 h1]
      unfold sout_A; (try dsimp only)
      by_cases hz : t.val = 0
      · rw [PhiS_castSucc V c t, PhiS_zero V c _ _ hz, PhiA_eq]
        iintro ⟨⟨⟨HS0, Hoth⟩, Hg⟩, Ho, ⟨%d0, H0⟩, ⟨%d1, H1⟩, ⟨%d2, H2⟩⟩
        iapply ((kernelRun_A c (grid0.coords t) _ _ _ _ _ _ _ _ ((hcondReset t).mpr h0) (fun h => h1 ((hcondStore t).mp h)) (iblk V c 0 t) (iblk V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover_A c _ _ _ _ _ _ _ _ _ _ _ _ _)
            iexact Hoth
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun_A c (grid0.coords t) _ _ _ _ _ _ _ _ ((hcondReset t).mpr h0) (fun h => h1 ((hcondStore t).mp h)) (iblk V c 0 t) (iblk V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover_A c _ _ _ _ _ _ _ _ _ _ _ _ _)
            iexact Hoth
          iexact Hg
        isplitl [Ho]; · iexact Ho
        isplitl [H0]; · iexact H0
        isplitl [H1]; · iexact H1
        iexists _; iexact H2
  · by_cases h1 : t.val % 8 = 7
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t ((hcondStore t).mpr h1)], after_2]
      rw [outsAt_C V c t h0 h1]
      unfold out_C_2 sout_C; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun_C c (grid0.coords t) _ _ _ _ _ _ _ _ (fun h => h0 ((hcondReset t).mp h)) ((hcondStore t).mpr h1) (iblk V c 0 t) (iblk V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover_C c _ _ _ _ _ _ _ _ _ _ _ _ _ _)
            iexact Hoth
          iexact Hg
        isplitl [Ho]; · iexact Ho
        isplitl [H0]; · iexact H0
        isplitl [H1]; · iexact H1
        unfold owns; iexists _; isplitr
        swap; · iexact H2
        ipureintro; exact View.read_writes_of_cover _ _ _ _ _ (cover_C_2 c _ _ _ _ _ _ _ _ _ _ _ _ _ _)
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [Dat.leavesExact_idle (dat V c) 2 t (idleAt_2 t (fun h => h1 ((hcondStore t).mp h))) (noFlush_2 t (fun h => h1 ((hcondStore t).mp h)))]
      rw [outsAt_B V c t h0 h1]
      unfold sout_B; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun_B c (grid0.coords t) _ _ _ _ _ _ _ _ (fun h => h0 ((hcondReset t).mp h)) (fun h => h1 ((hcondStore t).mp h)) (iblk V c 0 t) (iblk V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover_B c _ _ _ _ _ _ _ _ _ _ _ _ _ _)
            iexact Hoth
          iexact Hg
        isplitl [Ho]; · iexact Ho
        isplitl [H0]; · iexact H0
        isplitl [H1]; · iexact H1
        iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the scratch's running minimum is forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS0, Hoth⟩, Hg⟩
  isplitl [HS0 Hoth]
  · isplitl [HS0]
    · iexists _; iexact HS0
    iexact Hoth
  iexact Hg

/-- The same after the last point. -/
theorem hout (c : Dev nD) : (dat V c).Φ (Fin.last cfg0.N) ⊢ Pipeline.ΦA spec0 c :=
  Phi_out V c _ (by rw [Fin.val_last]; have : cfg0.N = 512 := N_0; omega)

end Cert.KernelIdeal.Rg0

end
-- ==== Proof.KI.Shared1.lean ====
/-
  Region 1 (the second launch of the row-minimum kernel): what its three control cases share.
  A grid point is (batch, row tile, column tile); the body resets its running-minimum scratch at
  column tile 0, folds one tile of pairwise distances into it at every point, and stores the
  scratch into the output block at column tile 7. The conditions are decided over the grid in
  closed form (the point's position modulo 8), and each window's block is read off the array the
  region is entered with.
-/
import proofs.«115515_j9887014715551_1_alg».proof.Proof.Gen.KernelIdeal.Launch
import proofs.«115515_j9887014715551_1_alg».proof.Proof.Gen.KernelIdeal.Skeleton
import proofs.«115515_j9887014715551_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Rg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile's staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column tile's staging buffer holds its block at every point. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, over the grid -/

/-- "This is the first column tile": the scratch is reset to +∞. -/
abbrev condReset (i : grid1.Coords) : Prop := (Scalar.cmpi .ne (Scalar.extui (Scalar.cmpi .eq (BitVec.ofNat 32 (i 2).val) 0#32)) 0#32) = 1#1
theorem hcondReset : ∀ t : Fin cfg1.N, condReset (grid1.coords t) ↔ t.val % 8 = 0 :=
  (by decide +kernel : ∀ t : Fin grid1.N, condReset (grid1.coords t) ↔ t.val % 8 = 0)

/-- "This is the last column tile": the scratch is stored into the output block. -/
abbrev condStore (i : grid1.Coords) : Prop := k1_cond2 i = 1#1
theorem hcondStore : ∀ t : Fin cfg1.N, condStore (grid1.coords t) ↔ t.val % 8 = 7 :=
  (by decide +kernel : ∀ t : Fin grid1.N, condStore (grid1.coords t) ↔ t.val % 8 = 7)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem idleAt_2 : ∀ t : Fin cfg1.N, ¬condStore (grid1.coords t) → cfg1.idle 2 (grid1.coords t) = true := by decide +kernel
theorem noFlush_2 : ∀ t : Fin cfg1.N, ¬condStore (grid1.coords t) → (cfg1.win 2).flush t = false := by decide +kernel
theorem liveAt_2 : ∀ t : Fin cfg1.N, condStore (grid1.coords t) → cfg1.idle 2 (grid1.coords t) = false := by decide +kernel

/-! ## The memrefs the body is called with -/

/-- One staging buffer of the output window, through which its contents are stated. -/
abbrev VO : View sig .tc .vmem S1x512x1 .f32 := (Memref.whole cc1_stg2_0 : Memref sig .tc .vmem S1x512x1 .f32).view
abbrev ms_0 (t : Fin cfg1.N) : Memref sig .tc .vmem S1x512x3 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x1024x3 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x512x1 .f32 := win1_2.stage (cfg1.slots t 2)
abbrev hs_2 (t : Fin cfg1.N) : (ms_2 t).IsWhole := hstage1_2 ((cfg1.slots t 2).cast nbuf1_2)
/-- The running-minimum scratch, a whole scoped buffer of the kernel's own. -/
abbrev scM : Memref sig .tc .vmem S512x1 .f32 := Memref.whole cc1_scratch0
abbrev VS : View sig .tc .vmem S512x1 .f32 := scM.view

/-- The other launch's scoped buffers, each at anything: they ride through this region untouched. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant, conjunct by conjunct: the scratch as a memref owned at some contents, the other launch's
    scoped buffers at anything, the generator register at some state. -/
theorem PhiA_eq (c : Dev nD) :
    (Pipeline.ΦA spec1 c : sProp 𝕄)
      = iprop(iprop((∃ d, owns (c : Thread nD τ) scM fullShare d) ∗ otherScoped c) ∗ (∃ r, prngReg c r)) := by
  unfold Pipeline.ΦA otherScoped; rw [scopedRest1_eq]; simp only [scM, owns_whole]
  first
    | rfl
    | (have assoc : ∀ P Q R' : sProp 𝕄, iprop((P ∗ Q) ∗ R') = iprop(P ∗ Q ∗ R') :=
         fun _ _ _ => Idealize.SL.BI.Entails.antisymm Idealize.SL.BI.sep_assoc Idealize.SL.BI.sep_assoc'
       have comm : ∀ P Q : sProp 𝕄, iprop(P ∗ Q) = iprop(Q ∗ P) :=
         fun _ _ => Idealize.SL.BI.Entails.antisymm Idealize.SL.BI.sep_comm Idealize.SL.BI.sep_comm
       conv_rhs => arg 1; rw [comm]
       simp only [assoc]
       first | done | rfl)

end Cert.KernelIdeal.Rg1

end
-- ==== Proof.KI.RunA1.lean ====
/-
  Region 1, the body at a point of the first column tile: the scratch, found at anything, is reset to +∞ and then holds the minimum of +∞ and this tile's row minima; the output block is not touched.
-/
import proofs.«115515_j9887014715551_1_alg».proof.Proof.KI.Shared1

set_option maxRecDepth 16384

noncomputable section

namespace Cert.KernelIdeal.Rg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run at a first-column-tile point, on whole memrefs: the two input blocks at `x0`, `x1` and the output's
    buffer at `xi2` are handed back as found; the scratch, found at anything, ends with the listed pieces written. -/
noncomputable def kernelRun_A (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : condReset i) (hc1 : ¬condStore i)
    (x0 : Vec F S1x512x3 .f32) (x1 : Vec F S1x1024x3 .f32) :
    Σ' (L2 : List (View.Piece (Elt F) S1x512x1 .f32)), { LS : List (View.Piece (Elt F) S512x1 .f32) //
      ∀ (xi2 : Vec F S1x512x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__min_dist_kernel i arg3 harg3 arg4 harg4 arg5 harg5 arg6 harg6) K } := by
  refine ⟨[], ?_, fun xi2 E K => ?run⟩
  case run =>
    simp only [cc1__min_dist_kernel_eq_skeleton]; unfold cc1__min_dist_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Rg1

end
-- ==== Proof.KI.RunB1.lean ====
/-
  Region 1, the body at a point of a middle column tile: the scratch, found at what the point before left, ends at the minimum of that and this tile's row minima; the output block is not touched.
-/
import proofs.«115515_j9887014715551_1_alg».proof.Proof.KI.RunA1

set_option maxRecDepth 16384

noncomputable section

namespace Cert.KernelIdeal.Rg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run at a middle-column-tile point, on whole memrefs: inputs and the output's buffer handed back as found;
    the scratch, found at `xs`, ends with the listed pieces written. -/
noncomputable def kernelRun_B (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : ¬condStore i)
    (x0 : Vec F S1x512x3 .f32) (x1 : Vec F S1x1024x3 .f32) (xs : Vec F S512x1 .f32) :
    Σ' (L2 : List (View.Piece (Elt F) S1x512x1 .f32)), { LS : List (View.Piece (Elt F) S512x1 .f32) //
      ∀ (xi2 : Vec F S1x512x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__min_dist_kernel i arg3 harg3 arg4 harg4 arg5 harg5 arg6 harg6) K } := by
  refine ⟨[], ?_, fun xi2 E K => ?run⟩
  case run =>
    simp only [cc1__min_dist_kernel_eq_skeleton]; unfold cc1__min_dist_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Rg1

end
-- ==== Proof.KI.RunC1.lean ====
/-
  Region 1, the body at a point of the last column tile: the scratch, found at what the point before left, ends at the minimum of that and this tile's row minima, and the output block is stored whole from it.
-/
import proofs.«115515_j9887014715551_1_alg».proof.Proof.KI.RunB1

set_option maxRecDepth 16384

noncomputable section

namespace Cert.KernelIdeal.Rg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run at a last-column-tile point, on whole memrefs: inputs handed back as found; the output's buffer,
    found at anything, and the scratch, found at `xs`, end with the listed pieces written. -/
noncomputable def kernelRun_C (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : condStore i)
    (x0 : Vec F S1x512x3 .f32) (x1 : Vec F S1x1024x3 .f32) (xs : Vec F S512x1 .f32) :
    Σ' (L2 : List (View.Piece (Elt F) S1x512x1 .f32)), { LS : List (View.Piece (Elt F) S512x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc1__min_dist_kernel i arg3 harg3 arg4 harg4 arg5 harg5 arg6 harg6) K } := by
  refine ⟨?_, ?_, fun E K => ?run⟩
  case run =>
    simp only [cc1__min_dist_kernel_eq_skeleton]; unfold cc1__min_dist_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.KernelIdeal.Rg1

end
-- ==== Proof.KI.Frame1.lean ====
/-
  Region 1 (the second launch of the row-minimum kernel): the frame data on top of the three per-case runs.
  Along the grid the scratch carries, for the current batch and row tile, the minimum over the column tiles
  met so far of each row's distance to the tile's columns; at the last column tile that running minimum is
  what the output block receives. This module names what the output's staging buffer and the scratch hold
  after every point, states the region invariant over those contents, and discharges the body obligation
  of the pipeline point by point.
-/
import proofs.«115515_j9887014715551_1_alg».proof.Proof.KI.RunC1

set_option maxRecDepth 16384

noncomputable section

namespace Cert.KernelIdeal.Rg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output's staging buffer and in the scratch -/

/-- At a first-column-tile point nothing is stored into the output block (its window is idle there and is not
    written back): the empty list of pieces read back over arbitrary contents, a placeholder nothing consults. -/
def out_A_2 (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : condReset i) (hc1 : ¬condStore i)
    (x0 : Vec F S1x512x3 .f32) (x1 : Vec F S1x1024x3 .f32) : Vec F S1x512x1 .f32 :=
  VO.read (Elt F) (VO.writes (Elt F) VO.junk (kernelRun_A c i arg3 harg3 arg4 harg4 arg5 harg5 arg6 harg6 hc0 hc1 x0 x1).1)

/-- At a first-column-tile point the pieces written into the scratch (the reset to +∞, then the minimum with this
    tile's row minima) reach every row of it. -/
theorem scover_A (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : condReset i) (hc1 : ¬condStore i)
    (x0 : Vec F S1x512x3 .f32) (x1 : Vec F S1x1024x3 .f32) (y : S512x1.Idx) :
    ∃ pc ∈ (kernelRun_A c i arg3 harg3 arg4 harg4 arg5 harg5 arg6 harg6 hc0 hc1 x0 x1).2.1, y ∈ pc.1.set :=
  View.cover_of_tiledL (kernelRun_A c i arg3 harg3 arg4 harg4 arg5 harg5 arg6 harg6 hc0 hc1 x0 x1).2.1 S512x1.size (by sl_kernel_rfl) y

/-- What a first-column-tile point leaves in the scratch: the running minimum started afresh, i.e. the minimum of +∞
    and this tile's row minima, as the written pieces read back. -/
def sout_A (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : condReset i) (hc1 : ¬condStore i)
    (x0 : Vec F S1x512x3 .f32) (x1 : Vec F S1x1024x3 .f32) : Vec F S512x1 .f32 :=
  VS.read (Elt F) (VS.writes (Elt F) VS.junk (kernelRun_A c i arg3 harg3 arg4 harg4 arg5 harg5 arg6 harg6 hc0 hc1 x0 x1).2.1)

/-- At a middle-column-tile point nothing is stored into the output block either: the same placeholder. -/
def out_B_2 (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : ¬condStore i)
    (x0 : Vec F S1x512x3 .f32) (x1 : Vec F S1x1024x3 .f32) (xs : Vec F S512x1 .f32) : Vec F S1x512x1 .f32 :=
  VO.read (Elt F) (VO.writes (Elt F) VO.junk (kernelRun_B c i arg3 harg3 arg4 harg4 arg5 harg5 arg6 harg6 hc0 hc1 x0 x1 xs).1)

/-- At a middle-column-tile point the piece written into the scratch (the minimum of what it held and this tile's
    row minima) reaches every row of it. -/
theorem scover_B (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : ¬condStore i)
    (x0 : Vec F S1x512x3 .f32) (x1 : Vec F S1x1024x3 .f32) (xs : Vec F S512x1 .f32) (y : S512x1.Idx) :
    ∃ pc ∈ (kernelRun_B c i arg3 harg3 arg4 harg4 arg5 harg5 arg6 harg6 hc0 hc1 x0 x1 xs).2.1, y ∈ pc.1.set :=
  View.cover_of_tiledL (kernelRun_B c i arg3 harg3 arg4 harg4 arg5 harg5 arg6 harg6 hc0 hc1 x0 x1 xs).2.1 S512x1.size (by sl_kernel_rfl) y

/-- What a middle-column-tile point leaves in the scratch: the running minimum `xs` found there, lowered by this
    tile's row minima. -/
def sout_B (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : ¬condStore i)
    (x0 : Vec F S1x512x3 .f32) (x1 : Vec F S1x1024x3 .f32) (xs : Vec F S512x1 .f32) : Vec F S512x1 .f32 :=
  VS.read (Elt F) (VS.writes (Elt F) VS.junk (kernelRun_B c i arg3 harg3 arg4 harg4 arg5 harg5 arg6 harg6 hc0 hc1 x0 x1 xs).2.1)

/-- At a last-column-tile point the store into the output block reaches every row of the block. -/
theorem cover_C_2 (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : condStore i)
    (x0 : Vec F S1x512x3 .f32) (x1 : Vec F S1x1024x3 .f32) (xs : Vec F S512x1 .f32) (y : S1x512x1.Idx) :
    ∃ pc ∈ (kernelRun_C c i arg3 harg3 arg4 harg4 arg5 harg5 arg6 harg6 hc0 hc1 x0 x1 xs).1, y ∈ pc.1.set :=
  View.cover_of_tiledL (kernelRun_C c i arg3 harg3 arg4 harg4 arg5 harg5 arg6 harg6 hc0 hc1 x0 x1 xs).1 S1x512x1.size (by sl_kernel_rfl) y

/-- What a last-column-tile point leaves in the output's staging buffer: the finished running minimum over all
    eight column tiles, one value per row of the tile. -/
def out_C_2 (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : condStore i)
    (x0 : Vec F S1x512x3 .f32) (x1 : Vec F S1x1024x3 .f32) (xs : Vec F S512x1 .f32) : Vec F S1x512x1 .f32 :=
  VO.read (Elt F) (VO.writes (Elt F) VO.junk (kernelRun_C c i arg3 harg3 arg4 harg4 arg5 harg5 arg6 harg6 hc0 hc1 x0 x1 xs).1)

/-- At a last-column-tile point the piece written into the scratch reaches every row of it. -/
theorem scover_C (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : condStore i)
    (x0 : Vec F S1x512x3 .f32) (x1 : Vec F S1x1024x3 .f32) (xs : Vec F S512x1 .f32) (y : S512x1.Idx) :
    ∃ pc ∈ (kernelRun_C c i arg3 harg3 arg4 harg4 arg5 harg5 arg6 harg6 hc0 hc1 x0 x1 xs).2.1, y ∈ pc.1.set :=
  View.cover_of_tiledL (kernelRun_C c i arg3 harg3 arg4 harg4 arg5 harg5 arg6 harg6 hc0 hc1 x0 x1 xs).2.1 S512x1.size (by sl_kernel_rfl) y

/-- What a last-column-tile point leaves in the scratch: the running minimum `xs` lowered by the last tile's row
    minima, the same values the output block receives. -/
def sout_C (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : condStore i)
    (x0 : Vec F S1x512x3 .f32) (x1 : Vec F S1x1024x3 .f32) (xs : Vec F S512x1 .f32) : Vec F S512x1 .f32 :=
  VS.read (Elt F) (VS.writes (Elt F) VS.junk (kernelRun_C c i arg3 harg3 arg4 harg4 arg5 harg5 arg6 harg6 hc0 hc1 x0 x1 xs).2.1)

/-! ## What the output's buffer and the scratch hold after each point -/

/-- The accumulation. What the output's staging buffer (first component) and the scratch (second component) hold after
    the body at position `n`: the case the point's column tile selects, run at the point's memrefs and input blocks;
    past the first column tile the scratch is read at what position `n - 1` left in it, so that along a row tile's
    eight points the second component is the minimum so far over the column tiles met, and at the eighth the first
    component is that finished minimum. A point cannot be both the first and the last column tile. -/
def outsAt (c : Dev nD) : (n : ℕ) → n < cfg1.N → Vec F S1x512x1 .f32 × Vec F S512x1 .f32
  | 0, hn => (out_A_2 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcondReset ⟨0, hn⟩).mpr (Nat.zero_mod _)) (fun h => (fun h => by (try dsimp only at h); omega) ((hcondStore ⟨0, hn⟩).mp h)) (iblk V c 0 ⟨0, hn⟩) (iblk V c 1 ⟨0, hn⟩), sout_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcondReset ⟨0, hn⟩).mpr (Nat.zero_mod _)) (fun h => (fun h => by (try dsimp only at h); omega) ((hcondStore ⟨0, hn⟩).mp h)) (iblk V c 0 ⟨0, hn⟩) (iblk V c 1 ⟨0, hn⟩))
  | n + 1, hn =>
    if h0 : (n + 1) % 8 = 0 then
      if h1 : (n + 1) % 8 = 7 then
        False.elim (by have hN : n + 1 < 512 := lt_of_lt_of_eq hn (show cfg1.N = 512 from N_1); omega)
      else
        (out_A_2 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcondReset ⟨n + 1, hn⟩).mpr h0) (fun h => h1 ((hcondStore ⟨n + 1, hn⟩).mp h)) (iblk V c 0 ⟨n + 1, hn⟩) (iblk V c 1 ⟨n + 1, hn⟩), sout_A c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcondReset ⟨n + 1, hn⟩).mpr h0) (fun h => h1 ((hcondStore ⟨n + 1, hn⟩).mp h)) (iblk V c 0 ⟨n + 1, hn⟩) (iblk V c 1 ⟨n + 1, hn⟩))
    else
      if h1 : (n + 1) % 8 = 7 then
        (out_C_2 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcondReset ⟨n + 1, hn⟩).mp h)) ((hcondStore ⟨n + 1, hn⟩).mpr h1) (iblk V c 0 ⟨n + 1, hn⟩) (iblk V c 1 ⟨n + 1, hn⟩) (outsAt c n (Nat.lt_of_succ_lt hn)).2, sout_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcondReset ⟨n + 1, hn⟩).mp h)) ((hcondStore ⟨n + 1, hn⟩).mpr h1) (iblk V c 0 ⟨n + 1, hn⟩) (iblk V c 1 ⟨n + 1, hn⟩) (outsAt c n (Nat.lt_of_succ_lt hn)).2)
      else
        (out_B_2 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcondReset ⟨n + 1, hn⟩).mp h)) (fun h => h1 ((hcondStore ⟨n + 1, hn⟩).mp h)) (iblk V c 0 ⟨n + 1, hn⟩) (iblk V c 1 ⟨n + 1, hn⟩) (outsAt c n (Nat.lt_of_succ_lt hn)).2, sout_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcondReset ⟨n + 1, hn⟩).mp h)) (fun h => h1 ((hcondStore ⟨n + 1, hn⟩).mp h)) (iblk V c 0 ⟨n + 1, hn⟩) (iblk V c 1 ⟨n + 1, hn⟩) (outsAt c n (Nat.lt_of_succ_lt hn)).2)

/-- At a first-column-tile point: the running minimum started afresh. -/
theorem outsAt_A (c : Dev nD) (t : Fin cfg1.N) (h0 : t.val % 8 = 0) (h1 : ¬t.val % 8 = 7) :
    outsAt V c t.val t.isLt = (out_A_2 c (grid1.coords t) (ms_0 t) (hs_0 t) (ms_1 t) (hs_1 t) (ms_2 t) (hs_2 t) scM (Memref.isWhole_whole _) ((hcondReset t).mpr h0) (fun h => h1 ((hcondStore t).mp h)) (iblk V c 0 t) (iblk V c 1 t), sout_A c (grid1.coords t) (ms_0 t) (hs_0 t) (ms_1 t) (hs_1 t) (ms_2 t) (hs_2 t) scM (Memref.isWhole_whole _) ((hcondReset t).mpr h0) (fun h => h1 ((hcondStore t).mp h)) (iblk V c 0 t) (iblk V c 1 t)) := by
  obtain ⟨n, hn⟩ := t
  cases n with
  | zero => exact rfl
  | succ n => exact (dif_pos h0).trans ((dif_neg h1).trans rfl)

/-- At a middle-column-tile point: the running minimum the point before left, lowered by this tile. -/
theorem outsAt_B (c : Dev nD) (t : Fin cfg1.N) (h0 : ¬t.val % 8 = 0) (h1 : ¬t.val % 8 = 7) :
    outsAt V c t.val t.isLt = (out_B_2 c (grid1.coords t) (ms_0 t) (hs_0 t) (ms_1 t) (hs_1 t) (ms_2 t) (hs_2 t) scM (Memref.isWhole_whole _) (fun h => h0 ((hcondReset t).mp h)) (fun h => h1 ((hcondStore t).mp h)) (iblk V c 0 t) (iblk V c 1 t) (outsAt V c (t.val - 1) (Nat.lt_of_le_of_lt (Nat.sub_le _ _) t.isLt)).2, sout_B c (grid1.coords t) (ms_0 t) (hs_0 t) (ms_1 t) (hs_1 t) (ms_2 t) (hs_2 t) scM (Memref.isWhole_whole _) (fun h => h0 ((hcondReset t).mp h)) (fun h => h1 ((hcondStore t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last-column-tile point: the running minimum the point before left, lowered by the last tile and stored. -/
theorem outsAt_C (c : Dev nD) (t : Fin cfg1.N) (h0 : ¬t.val % 8 = 0) (h1 : t.val % 8 = 7) :
    outsAt V c t.val t.isLt = (out_C_2 c (grid1.coords t) (ms_0 t) (hs_0 t) (ms_1 t) (hs_1 t) (ms_2 t) (hs_2 t) scM (Memref.isWhole_whole _) (fun h => h0 ((hcondReset t).mp h)) ((hcondStore t).mpr h1) (iblk V c 0 t) (iblk V c 1 t) (outsAt V c (t.val - 1) (Nat.lt_of_le_of_lt (Nat.sub_le _ _) t.isLt)).2, sout_C c (grid1.coords t) (ms_0 t) (hs_0 t) (ms_1 t) (hs_1 t) (ms_2 t) (hs_2 t) scM (Memref.isWhole_whole _) (fun h => h0 ((hcondReset t).mp h)) ((hcondStore t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`. Before the first point it is the class's own: the scratch at anything, the other
    launch's scoped buffers at anything, the generator register at some state. Afterwards the scratch is held at the
    running minimum the point before left in it; the other launch's buffers and the register ride along unchanged. -/
def PhiS (c : Dev nD) : (n : ℕ) → n ≤ cfg1.N → sProp 𝕄
  | 0, _ => Pipeline.ΦA spec1 c
  | n + 1, hn => iprop(iprop(owns (c : Thread nD τ) scM fullShare ((outsAt V c n hn).2) ∗ otherScoped c) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the scratch at that point's running minimum. -/
theorem PhiS_succ (c : Dev nD) (n : ℕ) (hn : n < cfg1.N) :
    PhiS V c (n + 1) hn = iprop(iprop(owns (c : Thread nD τ) scM fullShare ((outsAt V c n hn).2) ∗ otherScoped c) ∗ (∃ r, prngReg c r)) := rfl

/-- Before a point that is not the first: the scratch at the running minimum the point before left. -/
theorem PhiS_pos (c : Dev nD) (n : ℕ) (h : n ≤ cfg1.N) (hz : n ≠ 0) :
    PhiS V c n h = iprop(iprop(owns (c : Thread nD τ) scM fullShare ((outsAt V c (n - 1) (by omega)).2) ∗ otherScoped c) ∗ (∃ r, prngReg c r)) := by
  cases n with
  | zero => exact absurd rfl hz
  | succ n => rfl

/-! ## The pipeline's proof data -/

/-- The proof data of the pipeline on core `c`: the arrays as the region finds them; after the body at point `t` the
    row tile's and the column tile's buffers at their blocks and the output's buffer at `outsAt`'s first component
    (the finished row minima at a last-column-tile point); the invariant `PhiS`; full shares; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

/-- The proof data's arrays are the contents the region is entered with. -/
theorem A_eq (c : Dev nD) (w : Fin cfg1.W) : (dat V c).A w = V c (Pipeline.arrRef spec1 w) := by
  dsimp only [dat]

/-- The invariant at a point's start, restated at the point's position. -/
theorem PhiS_castSucc (c : Dev nD) (t : Fin cfg1.N) :
    (dat V c).Φ t.castSucc = PhiS V c t.val (Nat.le_of_lt t.isLt) := by
  dsimp only [dat]; simp only [Fin.coe_castSucc]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = (outsAt V c t.val t.isLt).1 := by dsimp only [dat]

/-- Each input's current staging buffer holds its block at every point, fetched there or not. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-! ## The body obligation, at a generic point -/

/-- What the body is called with at point `t`: the invariant, the core's debt, and each window's current staging
    buffer at what the pipeline leaves there before the body. -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The two input buffers hold their blocks. The point's position modulo 8 says which case it
    is in. The invariant hands the body the scratch at the running minimum the point before left (at anything at the very
    first point), and takes it back at this point's running minimum, the written pieces reaching every row of it. The
    output's buffer is handed back untouched except at a last-column-tile point, where it receives the finished minimum.
    The other launch's buffers, the generator register and the core's debt pass through unchanged. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  have hN : t.val < 512 := lt_of_lt_of_eq t.isLt (show cfg1.N = 512 from N_1)
  by_cases h0 : t.val % 8 = 0
  · by_cases h1 : t.val % 8 = 7
    · exfalso; omega
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [Dat.leavesExact_idle (dat V c) 2 t (idleAt_2 t (fun h => h1 ((hcondStore t).mp h))) (noFlush_2 t (fun h => h1 ((hcondStore t).mp h)))]
      rw [outsAt_A V c t h0 h1]
      unfold sout_A; (try dsimp only)
      by_cases hz : t.val = 0
      · rw [PhiS_castSucc V c t, PhiS_zero V c _ _ hz, PhiA_eq]
        iintro ⟨⟨⟨HS0, Hoth⟩, Hg⟩, Ho, ⟨%d0, H0⟩, ⟨%d1, H1⟩, ⟨%d2, H2⟩⟩
        iapply ((kernelRun_A c (grid1.coords t) _ _ _ _ _ _ _ _ ((hcondReset t).mpr h0) (fun h => h1 ((hcondStore t).mp h)) (iblk V c 0 t) (iblk V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover_A c _ _ _ _ _ _ _ _ _ _ _ _ _)
            iexact Hoth
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun_A c (grid1.coords t) _ _ _ _ _ _ _ _ ((hcondReset t).mpr h0) (fun h => h1 ((hcondStore t).mp h)) (iblk V c 0 t) (iblk V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover_A c _ _ _ _ _ _ _ _ _ _ _ _ _)
            iexact Hoth
          iexact Hg
        isplitl [Ho]; · iexact Ho
        isplitl [H0]; · iexact H0
        isplitl [H1]; · iexact H1
        iexists _; iexact H2
  · by_cases h1 : t.val % 8 = 7
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t ((hcondStore t).mpr h1)], after_2]
      rw [outsAt_C V c t h0 h1]
      unfold out_C_2 sout_C; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun_C c (grid1.coords t) _ _ _ _ _ _ _ _ (fun h => h0 ((hcondReset t).mp h)) ((hcondStore t).mpr h1) (iblk V c 0 t) (iblk V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover_C c _ _ _ _ _ _ _ _ _ _ _ _ _ _)
            iexact Hoth
          iexact Hg
        isplitl [Ho]; · iexact Ho
        isplitl [H0]; · iexact H0
        isplitl [H1]; · iexact H1
        unfold owns; iexists _; isplitr
        swap; · iexact H2
        ipureintro; exact View.read_writes_of_cover _ _ _ _ _ (cover_C_2 c _ _ _ _ _ _ _ _ _ _ _ _ _ _)
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [Dat.leavesExact_idle (dat V c) 2 t (idleAt_2 t (fun h => h1 ((hcondStore t).mp h))) (noFlush_2 t (fun h => h1 ((hcondStore t).mp h)))]
      rw [outsAt_B V c t h0 h1]
      unfold sout_B; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun_B c (grid1.coords t) _ _ _ _ _ _ _ _ (fun h => h0 ((hcondReset t).mp h)) (fun h => h1 ((hcondStore t).mp h)) (iblk V c 0 t) (iblk V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover_B c _ _ _ _ _ _ _ _ _ _ _ _ _ _)
            iexact Hoth
          iexact Hg
        isplitl [Ho]; · iexact Ho
        isplitl [H0]; · iexact H0
        isplitl [H1]; · iexact H1
        iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the scratch's running minimum is forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS0, Hoth⟩, Hg⟩
  isplitl [HS0 Hoth]
  · isplitl [HS0]
    · iexists _; iexact HS0
    iexact Hoth
  iexact Hg

/-- The same after the last point. -/
theorem hout (c : Dev nD) : (dat V c).Φ (Fin.last cfg1.N) ⊢ Pipeline.ΦA spec1 c :=
  Phi_out V c _ (by rw [Fin.val_last]; have : cfg1.N = 512 := N_1; omega)

end Cert.KernelIdeal.Rg1

end
-- ==== Proof.KI.Launch.lean ====
/-
  The launch of the whole program. @main is four items in order: the first run of the row-minimum kernel
  (rows from the first point cloud, columns from the second), one reshape of its result, the second run with the
  two clouds exchanged, and six host operations (the other reshape, two constants −∞, the maximum of each
  reshaped result, and their sum). This module follows the contents of every unscoped buffer of a core through
  the four items — a fold from the launch memory: a kernel run replaces its three arrays by what its write-backs
  leave and keeps every other buffer, a host stretch applies its operations — and proves that every weakly fair
  execution from any launch memory terminates with every unscoped buffer at the end of that fold. Neither
  argument array is written on the way, so both end as launched.
-/
import proofs.«115515_j9887014715551_1_alg».proof.Proof.KI.Frame0
import proofs.«115515_j9887014715551_1_alg».proof.Proof.KI.Frame1
import Idealize.ShloMosaic.Lib.Pipeline.Regions
import Idealize.ShloMosaic.Lib.Pipeline.RegionsLoop
import Idealize.ShloMosaic.Lib.Pipeline.Frame
import Idealize.ShloMosaic.Lib.Pipeline.FrameSuffix
import Idealize.ShloMosaic.Lib.Pipeline.Kit

set_option maxRecDepth 16384

noncomputable section

namespace Cert.KernelIdeal.Ln

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items: a fold through @main -/

/-- Core `c`'s buffers at launch (the first run's entry). -/
abbrev Bnd0 : Dev nD → Valuation τ sig (Elt F) := fun c b => m (c, b)
/-- The same read at the TensorCore's references (what the first run's proof data take). -/
abbrev Ent0 : (c : Dev nD) → (b : Ref sig .tc) → Buf (Elt F) ((c : Thread nD τ).loc b) := fun c b => Bnd0 m c b

/-- After the first run: its three arrays at what the write-backs leave (the two inputs as entered, the output's
    blocks folded in), every other buffer as entered. -/
def Bnd1 (c : Dev nD) : Valuation τ sig (Elt F) :=
  Pipeline.withArrays spec0 c (Bnd0 m c) fun w => (Rg0.dat (Ent0 m) c).arrAt w cfg0.N
theorem Bnd1_arr (c : Dev nD) (w : Fin cfg0.W) :
    Bnd1 m c (Proc.devRef .tc (Pipeline.arrRef spec0 w)) = (Rg0.dat (Ent0 m) c).arrAt w cfg0.N := by
  unfold Bnd1; exact Pipeline.withArrays_arr spec0 launch0.win.arr_inj c _ _ w
theorem Bnd1_of_ne (c : Dev nD) (b : Ref sig .tc) (hb : ∀ w, Pipeline.arrRef spec0 w ≠ b) :
    Bnd1 m c (Proc.devRef .tc b) = Bnd0 m c (Proc.devRef .tc b) := by
  unfold Bnd1; exact Pipeline.withArrays_of_ne spec0 c _ _ b hb
/-- The same read at the TensorCore's references (the first run's exit contents). -/
abbrev Ext0 : (c : Dev nD) → (b : Ref sig .tc) → Buf (Elt F) ((c : Thread nD τ).loc b) := fun c b => Bnd1 m c b
/-- At the first run's exit each of its arrays holds what the write-backs leave, and every other buffer what it
    held at entry. -/
theorem hF0 (c : Dev nD) (w : Fin cfg0.W) : (Rg0.dat (Ent0 m) c).arrAt w cfg0.N = Ext0 m c (Pipeline.arrRef spec0 w) :=
  (Bnd1_arr m c w).symm
theorem hrest0 (c : Dev nD) : ∀ b, b ∉ Finset.univ.image (Pipeline.arrRef spec0) → Ext0 m c b = Ent0 m c b :=
  fun b hb => Bnd1_of_ne m c b fun w e => hb (Finset.mem_image.mpr ⟨w, Finset.mem_univ _, e⟩)

/-- After the first reshape (the second run's entry). -/
abbrev Bnd2 (c : Dev nD) : Valuation τ sig (Elt F) := StableHlo.after hostOps1 (Bnd1 m c)
/-- The same read at the TensorCore's references (what the second run's proof data take). -/
abbrev Ent1 : (c : Dev nD) → (b : Ref sig .tc) → Buf (Elt F) ((c : Thread nD τ).loc b) := fun c b => Bnd2 m c b

/-- After the second run: its three arrays at what the write-backs leave, every other buffer as entered. -/
def Bnd3 (c : Dev nD) : Valuation τ sig (Elt F) :=
  Pipeline.withArrays spec1 c (Bnd2 m c) fun w => (Rg1.dat (Ent1 m) c).arrAt w cfg1.N
theorem Bnd3_arr (c : Dev nD) (w : Fin cfg1.W) :
    Bnd3 m c (Proc.devRef .tc (Pipeline.arrRef spec1 w)) = (Rg1.dat (Ent1 m) c).arrAt w cfg1.N := by
  unfold Bnd3; exact Pipeline.withArrays_arr spec1 launch1.win.arr_inj c _ _ w
theorem Bnd3_of_ne (c : Dev nD) (b : Ref sig .tc) (hb : ∀ w, Pipeline.arrRef spec1 w ≠ b) :
    Bnd3 m c (Proc.devRef .tc b) = Bnd2 m c (Proc.devRef .tc b) := by
  unfold Bnd3; exact Pipeline.withArrays_of_ne spec1 c _ _ b hb
/-- The same read at the TensorCore's references (the second run's exit contents). -/
abbrev Ext1 : (c : Dev nD) → (b : Ref sig .tc) → Buf (Elt F) ((c : Thread nD τ).loc b) := fun c b => Bnd3 m c b
theorem hF1 (c : Dev nD) (w : Fin cfg1.W) : (Rg1.dat (Ent1 m) c).arrAt w cfg1.N = Ext1 m c (Pipeline.arrRef spec1 w) :=
  (Bnd3_arr m c w).symm
theorem hrest1 (c : Dev nD) : ∀ b, b ∉ Finset.univ.image (Pipeline.arrRef spec1) → Ext1 m c b = Ent1 m c b :=
  fun b hb => Bnd3_of_ne m c b fun w e => hb (Finset.mem_image.mpr ⟨w, Finset.mem_univ _, e⟩)

/-- After the last six host operations: the contents the program ends with. -/
abbrev Bnd4 (c : Dev nD) : Valuation τ sig (Elt F) := StableHlo.after hostOps2 (Bnd3 m c)

/-! ## What the host stretches write -/

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- The one reference the first stretch writes: the reshaped first result. -/
abbrev wr1 : List (Ref sig .tc) := [main_v1]
theorem hostOps1_wr : (hostOps1 : List (HloOp τ sig (Elt F))).Forall fun op => op.writes ⊆ (wr1.map (Proc.devRef (τ := τ) .tc)).toFinset := by
  simp only [List.Forall, StableHlo.reshape_writes, Finset.singleton_subset_iff, List.mem_toFinset]
  exact List.mem_map_of_mem (by decide)
/-- The references the second stretch writes: the reshaped second result, the two constants, the two maxima, the sum. -/
abbrev wr2 : List (Ref sig .tc) := [main_v3, main_cst, main_v4, main_cst_0, main_v5, main_v6]
theorem hostOps2_wr : (hostOps2 : List (HloOp τ sig (Elt F))).Forall fun op => op.writes ⊆ (wr2.map (Proc.devRef (τ := τ) .tc)).toFinset := by
  simp only [List.Forall, StableHlo.reshape_writes, StableHlo.nullary_writes, StableHlo.binary_writes, Finset.singleton_subset_iff, List.mem_toFinset]
  refine ⟨?_, ?_, ?_, ?_, ?_, ?_⟩ <;> exact List.mem_map_of_mem (by decide)

/-- A buffer the first stretch does not write is after it as before it. -/
theorem Bnd2_of (c : Dev nD) (r : Ref sig .tc) (h : r ∉ wr1) : Bnd2 m c (Proc.devRef .tc r) = Bnd1 m c (Proc.devRef .tc r) :=
  StableHlo.after_of_writes_sub hostOps1 _ hostOps1_wr h
/-- A buffer the second stretch does not write is after it as before it. -/
theorem Bnd4_of (c : Dev nD) (r : Ref sig .tc) (h : r ∉ wr2) : Bnd4 m c (Proc.devRef .tc r) = Bnd3 m c (Proc.devRef .tc r) :=
  StableHlo.after_of_writes_sub hostOps2 _ hostOps2_wr h

/-! ### The arguments end as launched: no host operation writes one, and each run reads both through input
    windows, whose arrays are never written back -/

theorem Bnd4_main_arg0 (c : Dev nD) : Bnd4 m c (Proc.devRef .tc main_arg0) = m ((c : Thread nD τ).loc main_arg0) :=
  calc Bnd4 m c (Proc.devRef .tc main_arg0)
    _ = Bnd3 m c (Proc.devRef .tc main_arg0) := Bnd4_of m c main_arg0 (by decide)
    _ = Bnd2 m c (Proc.devRef .tc main_arg0) := (Bnd3_arr m c 1).trans (((Rg1.dat (Ent1 m) c).arrAt_in 1 rfl _).trans (Rg1.A_eq (Ent1 m) c 1))
    _ = Bnd1 m c (Proc.devRef .tc main_arg0) := Bnd2_of m c main_arg0 (by decide)
    _ = Bnd0 m c (Proc.devRef .tc main_arg0) := (Bnd1_arr m c 0).trans (((Rg0.dat (Ent0 m) c).arrAt_in 0 rfl _).trans (Rg0.A_eq (Ent0 m) c 0))
    _ = m ((c : Thread nD τ).loc main_arg0) := rfl
theorem Bnd4_main_arg1 (c : Dev nD) : Bnd4 m c (Proc.devRef .tc main_arg1) = m ((c : Thread nD τ).loc main_arg1) :=
  calc Bnd4 m c (Proc.devRef .tc main_arg1)
    _ = Bnd3 m c (Proc.devRef .tc main_arg1) := Bnd4_of m c main_arg1 (by decide)
    _ = Bnd2 m c (Proc.devRef .tc main_arg1) := (Bnd3_arr m c 0).trans (((Rg1.dat (Ent1 m) c).arrAt_in 0 rfl _).trans (Rg1.A_eq (Ent1 m) c 0))
    _ = Bnd1 m c (Proc.devRef .tc main_arg1) := Bnd2_of m c main_arg1 (by decide)
    _ = Bnd0 m c (Proc.devRef .tc main_arg1) := (Bnd1_arr m c 1).trans (((Rg0.dat (Ent0 m) c).arrAt_in 1 rfl _).trans (Rg0.A_eq (Ent0 m) c 1))
    _ = m ((c : Thread nD τ).loc main_arg1) := rfl

/-! ## The proof data family and the thread state -/

/-- The prefetched tables' admissible contents: neither run has a table. -/
abbrev adm : (p : Fin 2) → (pcfgs (F := F) p).Adm := fun p => (cfgs p).toPCfg_adm
/-- Both runs' proof data, each at its entry contents. -/
def pdats : (p : Fin 2) → (c : Dev nD) → Dat τ (Elt F) Unit ℕ (UR sig nD τ) ℕ (Pipeline.pin (pcfgs (F := F)) adm p) c
  | ⟨0, _⟩ => fun c => Rg0.dat (Ent0 m) c
  | ⟨1, _⟩ => fun c => Rg1.dat (Ent1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a run's
    invariant takes it in and gives it back) and the core owing nothing. -/
abbrev R (c : Dev nD) : sProp 𝕄 := iprop((∃ r, prngReg c r) ∗ ∃ W, owes (c : Thread nD τ) (0 : CellTallies nD τ sig Unit) W)
/-- A host stretch over every unscoped buffer from the contents `W`, `R` riding along: it ends with those buffers at
    the stretch's operations applied to `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator
    register at some state. -/
abbrev Tₙ (c : Dev nD) : sProp 𝕄 := iprop(StableHlo.held (c : Thread nD τ) (Pipeline.ucRefs τ sig) (Bnd4 m c) ∗ ∃ r, prngReg c r)

/-! ## The two runs as segments -/

set_option backward.isDefEq.respectTransparency.types false in
/-- THE FIRST RUN over the thread state: entered from every unscoped buffer at the launch contents, left at
    `Bnd1`. Its arrays are split out of the unscoped buffers and put back at the exit contents; the generator
    register and the scoped rest enter the run's invariant at its first point and come back from its last (the
    scratch's running minima are inside the invariant only in between); nothing owed; no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Rg0.body_obligation (Ent0 m) c).loose
  hwaits := Pipeline.hwaits_of_owed_zero _ _ _ _ L lv 0 fun _ _ => rfl
  pre c := iprop(StableHlo.held (c : Thread nD τ) (Pipeline.ucRefs τ sig) (Bnd0 m c) ∗ R c)
  post c := iprop(StableHlo.held (c : Thread nD τ) (Pipeline.ucRefs τ sig) (Bnd1 m c) ∗ R c)
  X c := iprop(∃ r, prngReg c r)
  Y c := iprop(∃ r, prngReg c r)
  Z c := Pipeline.unscopedRest (Ix := Unit) (Name := ℕ) (U := UR sig nD τ) (Lvl := ℕ) spec0 c (Ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Rg0.hin (Ent0 m) c)
    unfold Pipeline.ΦA
    iintro ⟨Hp, -, Hr⟩
    isplitl [Hr]; · iexact Hr
    iexact Hp
  hout c := by
    rw [Pipeline.ownSems0_none]
    refine BIBase.Entails.trans (Rg0.hout (Ent0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ent0 m c) (Ext0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND RUN over the thread state: entered from every unscoped buffer at `Bnd2`, left at `Bnd3`; otherwise
    as the first. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Rg1.body_obligation (Ent1 m) c).loose
  hwaits := Pipeline.hwaits_of_owed_zero _ _ _ _ L lv 1 fun _ _ => rfl
  pre c := iprop(StableHlo.held (c : Thread nD τ) (Pipeline.ucRefs τ sig) (Bnd2 m c) ∗ R c)
  post c := iprop(StableHlo.held (c : Thread nD τ) (Pipeline.ucRefs τ sig) (Bnd3 m c) ∗ R c)
  X c := iprop(∃ r, prngReg c r)
  Y c := iprop(∃ r, prngReg c r)
  Z c := Pipeline.unscopedRest (Ix := Unit) (Name := ℕ) (U := UR sig nD τ) (Lvl := ℕ) spec1 c (Ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Rg1.hin (Ent1 m) c)
    unfold Pipeline.ΦA
    iintro ⟨Hp, -, Hr⟩
    isplitl [Hr]; · iexact Hr
    iexact Hp
  hout c := by
    rw [Pipeline.ownSems0_none]
    refine BIBase.Entails.trans (Rg1.hout (Ent1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ent1 m c) (Ext1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The first reshape as a segment, from the first run's exit contents. -/
abbrev host1 : Pipeline.HostSeg (Name := ℕ) (U := UR sig nD τ) (pcfgs (F := F)) defs₀ 𝒱₀ L lv :=
  hseg hostOps1 hostOps1_sub hostOps1_fresh (Bnd1 m)
/-- The last six host operations as a segment, from the second run's exit contents. -/
abbrev host2 : Pipeline.HostSeg (Name := ℕ) (U := UR sig nD τ) (pcfgs (F := F)) defs₀ 𝒱₀ L lv :=
  hseg hostOps2 hostOps2_sub hostOps2_fresh (Bnd3 m)

/-- @main's four segments in order. -/
abbrev segs : List (Pipeline.Seg (pcfgs (F := F)) adm (pdats m) () defs₀ 𝒱₀ L lv) :=
  [ .region (reg0 m),
    .host (host1 m),
    .region (reg1 m),
    .host (host2 m) ]
/-- @main IS the run of the segments. -/
theorem main_run (c : Dev nD) : main (F := F) c = Pipeline.Seg.run (segs m) :=
  (main_chain c).trans (by chain_rfl)

/-- The last link of the chain: after the last stretch the thread state is the last contents and the generator
    register, beside the core owing nothing (the same three conjuncts, bracketed the other way). -/
theorem last_link (c : Dev nD) :
    iprop(StableHlo.held (c : Thread nD τ) (Pipeline.ucRefs τ sig) (Bnd4 m c) ∗ R c)
      ⊢ (iprop(Tₙ m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

set_option backward.isDefEq.respectTransparency.types false in
/-- THE RUN. From any memory with zero counters, every weakly fair execution of @main on the TensorCores terminates,
    nothing faulting, and in every final state each core's every unscoped buffer holds the end of the fold, `Bnd4`. -/
theorem run_all : θ_run defs (onTc (τ := τ) (main (F := F))) ⟨m, fun _ => 0, ρ⟩
    (fun r => ∀ c : Dev nD, ∀ b ∈ Pipeline.ucRefs τ sig, r.2.mem ((c : Thread nD τ).1, b) = Bnd4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bnd0 m c) ∗ R c)) (Tₙ := Tₙ m)
    (hch := ⟨fun _ => .rfl, fun _ => .rfl, fun _ => .rfl, fun _ => .rfl, fun c => last_link m c⟩)
    (hinit := by
      refine Pipeline.initEach L lv fun c => ?_
      rw [show unscopedBufs c (fun b => m ((c : Thread nD τ).loc b)) = StableHlo.held (c : Thread nD τ) (Pipeline.ucRefs τ sig) (Bnd0 m c)
        from Pipeline.unscopedBufs_held c (Bnd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bnd4 m c b)
    (hfin := fun c s' => by
      iintro ⟨⟨Hh, -⟩, HSI⟩
      unfold StableHlo.held
      imodintro
      iapply (pointsTo_read_all (Pipeline.ucRefs τ sig) (fun b => (((c : Thread nD τ)).1, b)) (Bnd4 m c) s')
      isplitl [Hh] <;> iassumption)
    (hQ := fun s h => h)

/-- THE FRAME: from any memory with zero counters every weakly fair execution of @main terminates and every final
    state has both argument arrays as launched — each read off the last contents, which the fold walks back to the
    launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (Bnd4_main_arg0 m c),
     (h c _ (mem_uc main_arg1 (by decide))).trans (Bnd4_main_arg1 m c)⟩) (run_all m ρ)

end Cert.KernelIdeal.Ln

end
-- ==== Proof.Spec.lean ====
/-
  The mathematics both programs compute, stated once over the extended reals.
  A cloud is four batches of 8192 points of ℝ³. For two clouds x, y the distance of point n of x to point m of y
  (same batch) is the square root of the clamped sum of the three squared coordinate differences, the differences
  squared and added onto zero in coordinate order; the row minimum of point n is the least such distance over all
  m, taken as a fold of `min` from +∞. The program's result is the greatest row minimum of x against y plus the
  greatest row minimum of y against x.
-/
import Idealize.ShloMosaic.PureOps.Ideal
import Idealize.ShloMosaic.Lib.ValueIdx

noncomputable section

namespace Cert.Spec

open Idealize.ShloMosaic Idealize.ShloMosaic.ValueIdx

/-- Four batches of 8192 points with three coordinates. -/
abbrev Cloud : Shape := ⟨3, ![4, 8192, 3]⟩
/-- One value per point. -/
abbrev Mat : Shape := ⟨2, ![4, 8192]⟩
/-- One value per point, kept as a column. -/
abbrev Col : Shape := ⟨3, ![4, 8192, 1]⟩

/-- The squared distance of point `n` of `x` to point `m` of `y` in batch `b`: the three squared coordinate
    differences added onto zero in order. -/
def sqDist (x y : Cloud.Idx → EReal) (b : Fin 4) (n m : Fin 8192) : EReal :=
  ((0 + (x (ix3 b n 0) - y (ix3 b m 0)) * (x (ix3 b n 0) - y (ix3 b m 0)))
      + (x (ix3 b n 1) - y (ix3 b m 1)) * (x (ix3 b n 1) - y (ix3 b m 1)))
    + (x (ix3 b n 2) - y (ix3 b m 2)) * (x (ix3 b n 2) - y (ix3 b m 2))

/-- The distance: the square root of the squared distance clamped at zero. -/
def dist (x y : Cloud.Idx → EReal) (b : Fin 4) (n m : Fin 8192) : EReal :=
  Ideal.sqrt (max (sqDist x y b n m) 0)

/-- The least distance from point `n` of `x` to any point of `y` in batch `b`, as a fold of `min` from +∞. -/
def rowMin (x y : Cloud.Idx → EReal) (b : Fin 4) (n : Fin 8192) : EReal :=
  (Finset.univ : Finset (Fin 8192)).fold min ⊤ (fun m => dist x y b n m)

/-- The row minima, one per point. -/
def rowMinMat (x y : Cloud.Idx → EReal) : Mat.Idx → EReal := fun j => rowMin x y (j 0) (j 1)

/-- The row minima, one per point, as a column. -/
def rowMinCol (x y : Cloud.Idx → EReal) : Col.Idx → EReal := fun j => rowMin x y (j 0) (j 1)

end Cert.Spec

end
-- ==== Proof.KI.HostTail.lean ====
/-
  What the program's two stretches of host operations compute, read off any contents of the device's arrays.
  The first stretch reshapes the first launch's column of row minima to one value per point. The second reshapes
  the second launch's column the same way, then takes the greatest entry of each of the two reshaped arrays
  (a fold of the maximum from −∞ over both axes) and adds the two. Every other array is left as it was.
-/
import proofs.«115515_j9887014715551_1_alg».proof.Proof.Gen.KernelIdeal.Launch
import proofs.«115515_j9887014715551_1_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Ln

open Idealize.ShloMosaic Idealize.ShloMosaic.TcCoe Idealize.ShloMosaic.ValueIdx Cert.KernelIdeal Cert.KernelIdeal.Gen

/-- The program's last five operations: the greatest entry of each array (a fold of the maximum from −∞ over both
    axes), the two added. -/
def tail (A B : (⟨S4x8192, .f32⟩ : BufTy).Contents (Elt Ideal)) : (⟨S_, .f32⟩ : BufTy).Contents (Elt Ideal) :=
  addf (Host.reduce FloatOps.maximumf A (constant (F := Ideal) S_ .f32 0xFF800000#32) reducesTo_S4x8192_S_d0_1 h_S_) (Host.reduce FloatOps.maximumf B (constant (F := Ideal) S_ .f32 0xFF800000#32) reducesTo_S4x8192_S_d0_1 h_S_)

/-- A column of row minima reshaped to one value per point: the same entries in row-major order. -/
def toMat (A : (⟨S4x8192x1, .f32⟩ : BufTy).Contents (Elt Ideal)) : (⟨S4x8192, .f32⟩ : BufTy).Contents (Elt Ideal) :=
  shapeCast S4x8192 A shapeCasts_S4x8192x1_S4x8192

/-- The column of row minima reshaped is the row minima one per point: entry (b, n) of the result sits at row-major
    position 8192·b + n, which is where entry (b, n, 0) of the column sits. -/
theorem toMat_rowMinCol (x y : Cert.Spec.Cloud.Idx → EReal) : toMat (Cert.Spec.rowMinCol x y) = Cert.Spec.rowMinMat x y := by
  funext j
  unfold toMat
  refine (shapeCast_apply (Cert.Spec.rowMinCol x y) shapeCasts_S4x8192x1_S4x8192 j (ix3 (j 0) (j 1) (0 : Fin 1)) ?_).trans ?_
  · rw [Shape.rowMajor_val_three, Shape.rowMajor_val_two]
    show ((j 0).val * 8192 + (j 1).val) * 1 + 0 = (j 0).val * 8192 + (j 1).val
    omega
  · rfl

/-- The references the first stretch writes. -/
abbrev W1 : List (Ref sig .tc) := [main_v1]
/-- The references the second stretch writes. -/
abbrev W2 : List (Ref sig .tc) := [main_v3, main_cst, main_v4, main_cst_0, main_v5, main_v6]

theorem writes1 : (hostOps1 (F := Ideal)).Forall fun op => op.writes ⊆ (W1.map (Proc.devRef (τ := τ) .tc)).toFinset := by
  simp only [List.Forall]
  simp only [StableHlo.reshape_writes, Finset.singleton_subset_iff, List.mem_toFinset]
  exact List.mem_map_of_mem (by decide)

theorem writes2 : (hostOps2 (F := Ideal)).Forall fun op => op.writes ⊆ (W2.map (Proc.devRef (τ := τ) .tc)).toFinset := by
  simp only [List.Forall]
  refine ⟨?_, ?_, ?_, ?_, ?_, ?_⟩ <;>
    (simp only [StableHlo.nullary_writes, StableHlo.binary_writes, StableHlo.reshape_writes, Finset.singleton_subset_iff, List.mem_toFinset]
     exact List.mem_map_of_mem (by decide))

/-- After the first stretch the per-point array holds the first launch's column, reshaped. -/
theorem after1_v1 (W : Valuation τ sig (Elt Ideal)) :
    StableHlo.after (hostOps1 (F := Ideal)) W (Proc.devRef .tc main_v1) = toMat (W (Proc.devRef .tc main_v0)) := by
  show StableHlo.after (hostOps1 (F := Ideal)) W (Proc.devRef .tc main_v1) = _
  after_results
  rfl

/-- The first stretch writes the per-point array only. -/
theorem after1_keep (W : Valuation τ sig (Elt Ideal)) (r : Ref sig .tc) (h : r ≠ main_v1) :
    StableHlo.after (hostOps1 (F := Ideal)) W (Proc.devRef .tc r) = W (Proc.devRef .tc r) :=
  StableHlo.after_of_writes_sub (W := W1) hostOps1 W writes1 (by simpa using h)

/-- After the second stretch the result holds the greatest entry of the first per-point array plus the greatest entry
    of the second launch's column reshaped. -/
theorem after2_v6 (W : Valuation τ sig (Elt Ideal)) :
    StableHlo.after (hostOps2 (F := Ideal)) W (Proc.devRef .tc main_v6) = tail (W (Proc.devRef .tc main_v1)) (toMat (W (Proc.devRef .tc main_v2))) := by
  show StableHlo.after (hostOps2 (F := Ideal)) W (Proc.devRef .tc main_v6) = _
  after_results
  rfl

/-- The second stretch writes its six results only. -/
theorem after2_keep (W : Valuation τ sig (Elt Ideal)) (r : Ref sig .tc)
    (h : r ∉ ([main_v3, main_cst, main_v4, main_cst_0, main_v5, main_v6] : List (Ref sig .tc))) :
    StableHlo.after (hostOps2 (F := Ideal)) W (Proc.devRef .tc r) = W (Proc.devRef .tc r) :=
  StableHlo.after_of_writes_sub (W := W2) hostOps2 W writes2 h

end Cert.KernelIdeal.Ln

end
-- ==== Proof.KI.Pieces0.lean ====
/-
  Region 0 (the first launch of the row-minimum kernel): what each control case leaves behind, as a value.
  Each case's run lists the pieces it wrote into the scratch (and, at the last column tile, into the output
  block). Every such piece is a store through the whole buffer at offset zero, so the pieces read back are the
  payload of the last store: the minimum of the scratch's previous contents (+∞ straight after the reset) and
  this tile's row minima for the scratch, and that same vector, read back from the scratch, for the output block.
-/
import proofs.«115515_j9887014715551_1_alg».proof.Proof.KI.Frame0
import Idealize.ShloMosaic.Lib.Pipeline.Value

set_option maxRecDepth 16384

noncomputable section

namespace Cert.KernelIdeal.Rg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The all-zero offset of a rank-2 store or load, as the constant function. -/
theorem hz2 : (![0, 0] : Fin 2 → Nat) = fun _ => 0 := funext fun a => by fin_cases a <;> rfl
/-- The all-zero offset of a rank-3 store or load, as the constant function. -/
theorem hz3 : (![0, 0, 0] : Fin 3 → Nat) = fun _ => 0 := funext fun a => by fin_cases a <;> rfl

/-- A first column tile leaves in the scratch the minimum of +∞ (the reset it has just stored and reads back) and
    this tile's row minima: what the scratch held before does not enter. -/
theorem sout_A_eq (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : condReset i) (hc1 : ¬condStore i)
    (x0 : Vec F S1x512x3 .f32) (x1 : Vec F S1x1024x3 .f32) :
    sout_A c i arg3 harg3 arg4 harg4 arg5 harg5 arg6 harg6 hc0 hc1 x0 x1 = k0_pay1 (k0_pay4 x0 x1 (k0_pay3 (F := F))) := by
  unfold sout_A
  rw [View.read_writes_eq_canon _ _ _ (scover_A c i arg3 harg3 arg4 harg4 arg5 harg5 arg6 harg6 hc0 hc1 x0 x1)]
  unfold kernelRun_A
  dsimp only
  sl_unfold_words
  rw [View.canon_cons_unit_zero (S := S512x1) hz2, View.readCov_unit_zero (S := S512x1) _ hz2]
  simp only [View.readAt_eq_ld, harg3.read_unread, harg4.read_unread, harg6.read_unread, View.ld_unit_zero (S := S1x512x3) hz3, View.ld_unit_zero (S := S1x1024x3) hz3, View.ld_unit_zero (S := S512x1) hz2]

/-- A middle column tile leaves in the scratch the minimum of what it held and this tile's row minima. -/
theorem sout_B_eq (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : ¬condStore i)
    (x0 : Vec F S1x512x3 .f32) (x1 : Vec F S1x1024x3 .f32) (xs : Vec F S512x1 .f32) :
    sout_B c i arg3 harg3 arg4 harg4 arg5 harg5 arg6 harg6 hc0 hc1 x0 x1 xs = k0_pay1 (k0_pay4 x0 x1 xs) := by
  unfold sout_B
  rw [View.read_writes_eq_canon _ _ _ (scover_B c i arg3 harg3 arg4 harg4 arg5 harg5 arg6 harg6 hc0 hc1 x0 x1 xs)]
  unfold kernelRun_B
  dsimp only
  sl_unfold_words
  rw [View.canon_unit_zero hz2]
  simp only [View.readAt_eq_ld, harg3.read_unread, harg4.read_unread, harg6.read_unread, View.ld_unit_zero (S := S1x512x3) hz3, View.ld_unit_zero (S := S1x1024x3) hz3, View.ld_unit_zero (S := S512x1) hz2]

/-- The last column tile leaves in the scratch the minimum of what it held and this tile's row minima. -/
theorem sout_C_eq (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : condStore i)
    (x0 : Vec F S1x512x3 .f32) (x1 : Vec F S1x1024x3 .f32) (xs : Vec F S512x1 .f32) :
    sout_C c i arg3 harg3 arg4 harg4 arg5 harg5 arg6 harg6 hc0 hc1 x0 x1 xs = k0_pay1 (k0_pay4 x0 x1 xs) := by
  unfold sout_C
  rw [View.read_writes_eq_canon _ _ _ (scover_C c i arg3 harg3 arg4 harg4 arg5 harg5 arg6 harg6 hc0 hc1 x0 x1 xs)]
  unfold kernelRun_C
  dsimp only
  sl_unfold_words
  rw [View.canon_unit_zero hz2]
  simp only [View.readAt_eq_ld, harg3.read_unread, harg4.read_unread, harg6.read_unread, View.ld_unit_zero (S := S1x512x3) hz3, View.ld_unit_zero (S := S1x1024x3) hz3, View.ld_unit_zero (S := S512x1) hz2]

/-- The last column tile stores into the output block the scratch it has just updated, read back: the finished
    running minimum, one value per row of the tile. -/
theorem out_C_2_eq (c : Dev nD) (i : grid0.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : condStore i)
    (x0 : Vec F S1x512x3 .f32) (x1 : Vec F S1x1024x3 .f32) (xs : Vec F S512x1 .f32) :
    out_C_2 c i arg3 harg3 arg4 harg4 arg5 harg5 arg6 harg6 hc0 hc1 x0 x1 xs = k0_pay2 (k0_pay1 (k0_pay4 x0 x1 xs)) := by
  unfold out_C_2
  rw [View.read_writes_eq_canon _ _ _ (cover_C_2 c i arg3 harg3 arg4 harg4 arg5 harg5 arg6 harg6 hc0 hc1 x0 x1 xs)]
  unfold kernelRun_C
  dsimp only
  sl_unfold_words
  rw [View.canon_unit_zero hz3]
  simp only [View.readAt_eq_ld, harg3.read_unread, harg4.read_unread, harg6.read_unread, View.ld_unit_zero (S := S1x512x3) hz3, View.ld_unit_zero (S := S1x1024x3) hz3, View.ld_unit_zero (S := S512x1) hz2, View.readCov_unit_zero (S := S512x1) _ hz2]

end Cert.KernelIdeal.Rg0

end
-- ==== Proof.KI.Pay0.lean ====
/-
  The values one grid point of the row-minimum kernel computes, read at an index, over the extended reals.
  A point holds a block of 512 rows of one cloud, a block of 1024 columns of the other and a running column of
  512 minima. Its arithmetic slices each coordinate column of the two blocks, spreads the row block's column
  along the columns and the column block's along the rows, subtracts, squares and adds the three squares onto
  zero, clamps at zero, takes the square root, takes the least over the 1024 columns from +∞ and then the lesser
  of that and the running minimum. Read at row r this is
      min (running r) (the fold of min from ⊤ over k of tileDist r k).
-/
import proofs.«115515_j9887014715551_1_alg».proof.Proof.Gen.KernelIdeal.Skeleton
import proofs.«115515_j9887014715551_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Rg0

open Idealize.ShloMosaic Idealize.ShloMosaic.ValueIdx Cert.KernelIdeal Cert.KernelIdeal.Gen

/-- the distance of row r of the row block to column k of the column block -/
def tileDist (x0 : Vec Ideal S1x512x3 .f32) (x1 : Vec Ideal S1x1024x3 .f32) (r : Fin 512) (k : Fin 1024) : EReal :=
  Ideal.sqrt (max (((0 + (x0 (ix3 0 r 0) - x1 (ix3 0 k 0)) * (x0 (ix3 0 r 0) - x1 (ix3 0 k 0))) + (x0 (ix3 0 r 1) - x1 (ix3 0 k 1)) * (x0 (ix3 0 r 1) - x1 (ix3 0 k 1))) + (x0 (ix3 0 r 2) - x1 (ix3 0 k 2)) * (x0 (ix3 0 r 2) - x1 (ix3 0 k 2))) 0)

/-! ## Every index of a column is a row number -/

/-- Every index of a 512 × 1 column is `(r, 0)`. -/
theorem idx_col (j : S512x1.Idx) : ∃ r : Fin 512, j = ix2 r 0 :=
  ⟨j 0, (eq_ix2 j).trans (congrArg (ix2 (j 0)) (Fin.ext (by
    have := idx2_lt1 j
    show (j 1).val = 0
    omega)))⟩

/-- Every index of a 1 × 512 × 1 block is `(0, r, 0)`. -/
theorem idx_blk (j : S1x512x1.Idx) : ∃ r : Fin 512, j = ix3 0 r 0 := by
  have h0 : j 0 = (0 : Fin 1) := Fin.ext (by
    have := (j 0).isLt
    show (j 0).val = 0
    have h : (j 0).val < 1 := this
    omega)
  have h2 : j 2 = (0 : Fin 1) := Fin.ext (by
    have := (j 2).isLt
    show (j 2).val = 0
    have h : (j 2).val < 1 := this
    omega)
  refine ⟨j 1, (eq_ix3 j).trans ?_⟩
  rw [h0, h2]
  rfl

/-! ## Layout operations on a column, read at an index -/

section Layout
variable {α : Type}

/-- An `[a, 1]` array cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The three small payloads -/

/-- The bit pattern of +∞ is the extended real `⊤`. -/
theorem ofBits_inf_f32 : Ideal.ofBits .f32 0x7F800000#32 = ⊤ := by simp [Ideal.ofBits, Ideal.ieee]

/-- The running minima, stored back as they are. -/
theorem pay1_apply (v : FVec Ideal S512x1 .f32) (r : Fin 512) : k0_pay1 (F := Ideal) v (ix2 r 0) = v (ix2 r 0) :=
  congrFun (shapeCast_self v shapeCasts_S512x1_S512x1) (ix2 r 0)

/-- The running minima, stored as a block with a leading unit axis. -/
theorem pay2_apply (v : Vec Ideal S512x1 .f32) (r : Fin 512) : k0_pay2 (F := Ideal) v (ix3 0 r 0) = v (ix2 r 0) :=
  shapeCast_ab_1ab_apply v shapeCasts_S512x1_S1x512x1 (0 : Fin 1) r (0 : Fin 1)

/-- The reset value of the running minima is +∞ at every row. -/
theorem pay3_apply (r : Fin 512) : k0_pay3 (F := Ideal) (ix2 r 0) = ⊤ :=
  (congrFun (shapeCast_self (broadcast S512x1 (Scalar.ofBits (F := Ideal) .f32 0x7F800000#32)) shapeCasts_S512x1_S512x1)
    (ix2 r 0)).trans ofBits_inf_f32

/-! ## The least over the columns -/

/-- The least over the columns of a 512 × 1024 array, from +∞: at row `r` the fold of `min` from `⊤` over the
    1024 columns. -/
theorem minCols_apply (src : FVec Ideal S512x1024 .f32) (h : S512x1024.Reduces [1] S512) (hφ : FKind.Formats .f32)
    (hacc : (0x7F800000#32 : BitVec 32) = FKind.minimumf.neutral .f32 hφ) (r : Fin 512) :
    multiReduction (F := Ideal) .minimumf [1] S512 src 0x7F800000#32 h hφ hacc (ix1 r)
      = (Finset.univ : Finset (Fin 1024)).fold min ⊤ (fun k => src (ix2 r k)) := by
  refine (multiReduction_minimumf_eq_fold src _ h hφ hacc (ix1 r)).trans ?_
  refine (h.fold_filter_drop_single _ _ src (ix1 r)).trans ?_
  show (Finset.univ : Finset (Fin 1024)).fold min (Ideal.ofBits .f32 0x7F800000#32) (fun k => src (h.lift (ix1 r) k)) = _
  rw [ofBits_inf_f32]
  refine congrArg (fun f => Finset.fold min ⊤ f Finset.univ) (funext fun k => congrArg src ?_)
  funext c
  match c with
  | ⟨0, _⟩ => exact Fin.ext rfl
  | ⟨1, _⟩ => exact Fin.ext rfl

/-! ## One coordinate of the two blocks, spread over the tile -/

/-- Coordinate `c` of the row block, cut out as a column and spread along the columns: at `(r, k)` it is the row
    block at `(0, r, c)`. -/
theorem rowCoord_apply (x0 : Vec Ideal S1x512x3 .f32) (o : Nat) (c : Fin 3) (hc : c.val = o + (0 : Fin 1).val)
    (h1 : S1x512x3.ShapeCasts S512x3) (h2 : S512x3.Slices ![0, o] S512x1) (h3 : S512x1.Broadcasts S512x1024)
    (r : Fin 512) (k : Fin 1024) :
    broadcastTo S512x1024 (extractStridedSlice S512x1 ![0, o] (shapeCast S512x3 x0 h1) h2) h3 (ix2 r k)
      = x0 (ix3 0 r c) :=
  (broadcastTo_a1_ab_apply _ h3 r k).trans
    ((slice2_axis1_apply o _ h2 r (0 : Fin 1) c hc).trans (shapeCast_1ab_ab_apply x0 h1 r c))

/-- Coordinate `c` of the column block, cut out as a column, laid as a row and spread along the rows: at `(r, k)`
    it is the column block at `(0, k, c)`. -/
theorem colCoord_apply (x1 : Vec Ideal S1x1024x3 .f32) (o : Nat) (c : Fin 3) (hc : c.val = o + (0 : Fin 1).val)
    (h1 : S1x1024x3.ShapeCasts S1024x3) (h2 : S1024x3.Slices ![0, o] S1024x1) (h3 : S1024x1.ShapeCasts S1024)
    (h4 : S1024.ShapeCasts S1x1024) (h5 : S1x1024.Broadcasts S512x1024) (r : Fin 512) (k : Fin 1024) :
    broadcastTo S512x1024
        (shapeCast S1x1024 (shapeCast S1024 (extractStridedSlice S1024x1 ![0, o] (shapeCast S1024x3 x1 h1) h2) h3) h4)
        h5 (ix2 r k)
      = x1 (ix3 0 k c) :=
  (broadcastTo_1b_ab_apply _ h5 r k).trans
    ((shapeCast_a_1a_apply _ h4 (0 : Fin 1) k).trans
      ((shapeCast_a1_a_apply _ h3 k).trans
        ((slice2_axis1_apply o _ h2 k (0 : Fin 1) c hc).trans (shapeCast_1ab_ab_apply x1 h1 k c))))

/-! ## One grid point's arithmetic -/

/-- The square root read at an index. -/
theorem sqrt_apply' {s : Shape} (a : FVec Ideal s .f32) (i : s.Idx) : sqrt a i = Ideal.sqrt (a i) := rfl

/-- One grid point's arithmetic at row `r`: the lesser of the running minimum and the least distance of row `r` to
    the 1024 columns of the tile. -/
theorem pay4_apply (x0 : Vec Ideal S1x512x3 .f32) (x1 : Vec Ideal S1x1024x3 .f32) (s : Vec Ideal S512x1 .f32) (r : Fin 512) :
    k0_pay4 (F := Ideal) x0 x1 s (ix2 r 0) = min (s (ix2 r 0)) ((Finset.univ : Finset (Fin 1024)).fold min ⊤ (fun k => tileDist x0 x1 r k)) := by
  unfold k0_pay4
  refine (minimumf_apply _ _ _).trans (congrArg (min (s (ix2 r 0))) ?_)
  refine (shapeCast_a_a1_apply _ _ r (0 : Fin 1)).trans ?_
  refine (minCols_apply _ _ _ _ r).trans ?_
  refine congrArg (fun f => Finset.fold min ⊤ f Finset.univ) (funext fun k => ?_)
  unfold tileDist
  simp only [sqrt_apply', maximumf_apply, addf_apply, mulf_apply, subf_apply, broadcast_apply,
    rowCoord_apply x0 0 (0 : Fin 3) rfl, rowCoord_apply x0 1 (1 : Fin 3) rfl, rowCoord_apply x0 2 (2 : Fin 3) rfl,
    colCoord_apply x1 0 (0 : Fin 3) rfl, colCoord_apply x1 1 (1 : Fin 3) rfl, colCoord_apply x1 2 (2 : Fin 3) rfl,
    Ideal.ofBits_def, Ideal.ofBits_zero_f32]

end Cert.KernelIdeal.Rg0

end
-- ==== Proof.KI.Inv0.lean ====
/-
  Region 0 (the first launch of the row-minimum kernel): the running-minimum invariant, over the extended reals.
  A grid point is (batch, row tile, column tile). Its row block is 512 rows of one batch of the row cloud and its
  column block is 1024 columns of the same batch of the column cloud, so the distance it computes between row r of
  the one and column k of the other is the distance between two points of the clouds. The fold of `min` over the
  columns below 1024 · (j + 1) splits into the fold over the columns below 1024 · j and the fold over the j-th
  tile's own columns; hence, by induction along the grid, after the point at column tile j the scratch's row r holds
  the least distance from its point to the columns of tiles 0 … j, and at column tile 7, where the output block
  receives the scratch, that is the row minimum.
-/
import proofs.«115515_j9887014715551_1_alg».proof.Proof.KI.Pieces0
import proofs.«115515_j9887014715551_1_alg».proof.Proof.KI.Pay0
import proofs.«115515_j9887014715551_1_alg».proof.Proof.Spec
import Idealize.ShloMosaic.Lib.ValueIdx
import Mathlib.Data.Finset.Fold

set_option maxRecDepth 16384

noncomputable section

namespace Cert.KernelIdeal.Rg0

open Idealize.ShloMosaic Idealize.ShloMosaic.TcCoe Idealize.ShloMosaic.ValueIdx Cert.KernelIdeal Cert.KernelIdeal.Gen

/-! ## Folds of `min` over an initial segment of the columns -/

/-- The least distance from point `n` of `x` to the first `1024 * j` points of `y` in batch `b`, as a fold of `min`
    from +∞: the row minimum restricted to the first `j` column tiles. -/
def partMin (x y : Cert.Spec.Cloud.Idx → EReal) (b : Fin 4) (n : Fin 8192) (j : ℕ) : EReal :=
  ((Finset.univ : Finset (Fin 8192)).filter fun m => m.val < 1024 * j).fold min ⊤ (fun m => Cert.Spec.dist x y b n m)

/-- Over no columns the fold is its starting value +∞. -/
theorem partMin_zero (x y : Cert.Spec.Cloud.Idx → EReal) (b : Fin 4) (n : Fin 8192) : partMin x y b n 0 = ⊤ := by
  unfold partMin
  have h : ((Finset.univ : Finset (Fin 8192)).filter fun m => m.val < 1024 * 0) = ∅ :=
    Finset.filter_eq_empty_iff.mpr fun m _ => by omega
  rw [h, Finset.fold_empty]

/-- Over all eight column tiles the fold is the row minimum: every column is below 8192 = 1024 · 8. -/
theorem partMin_full (x y : Cert.Spec.Cloud.Idx → EReal) (b : Fin 4) (n : Fin 8192) :
    partMin x y b n 8 = Cert.Spec.rowMin x y b n := by
  unfold partMin Cert.Spec.rowMin
  have h : ((Finset.univ : Finset (Fin 8192)).filter fun m => m.val < 1024 * 8) = Finset.univ :=
    Finset.filter_true_of_mem fun m _ => by have := m.isLt; omega
  rw [h]

/-- One more column tile. The fold over the first `1024 * (j + 1)` columns is the lesser of the fold over the first
    `1024 * j` and the fold over the `j`-th tile's own 1024 columns: a bound is below the one exactly when it is
    below +∞ and below every distance to a column `m < 1024 * (j + 1)`, and such an `m` is either below `1024 * j`
    or is `1024 * j + k` for one `k < 1024`. -/
theorem partMin_succ (x y : Cert.Spec.Cloud.Idx → EReal) (b : Fin 4) (n : Fin 8192) (j : ℕ) (hj : j < 8) :
    partMin x y b n (j + 1)
      = min (partMin x y b n j)
          ((Finset.univ : Finset (Fin 1024)).fold min ⊤
            (fun k => Cert.Spec.dist x y b n ⟨1024 * j + k.val, by have := k.isLt; omega⟩)) := by
  unfold partMin
  refine eq_of_forall_le_iff fun c => ?_
  simp only [Finset.le_fold_min, le_min_iff, Finset.mem_filter, Finset.mem_univ, true_and, le_top, true_imp_iff]
  constructor
  · intro h
    exact ⟨fun m hm => h m (by omega), fun k => h _ (by show 1024 * j + k.val < 1024 * (j + 1); have := k.isLt; omega)⟩
  · rintro ⟨h1, h2⟩ m hm
    by_cases hlt : m.val < 1024 * j
    · exact h1 m hlt
    · have h3 := h2 ⟨m.val - 1024 * j, by omega⟩
      have e : (⟨1024 * j + (m.val - 1024 * j), by have := m.isLt; omega⟩ : Fin 8192) = m :=
        Fin.ext (by show 1024 * j + (m.val - 1024 * j) = m.val; omega)
      rw [e] at h3
      exact h3

variable (V : (c : Dev nD) → (b : Ref sig .tc) → Buf (Elt Ideal) ((c : Thread nD τ).loc b))

/-! ## The two clouds and a grid point's coordinates -/

/-- The row cloud of this launch (its first window's array), as the region finds it. -/
abbrev xarr (c : Dev nD) : Cert.Spec.Cloud.Idx → EReal := V c (Pipeline.arrRef spec0 0)
/-- The column cloud of this launch (its second window's array), as the region finds it. -/
abbrev yarr (c : Dev nD) : Cert.Spec.Cloud.Idx → EReal := V c (Pipeline.arrRef spec0 1)

/-- The grid has 512 points. -/
theorem lt512 (t : Fin cfg0.N) : t.val < 512 := lt_of_lt_of_eq t.isLt (show cfg0.N = 512 from N_0)

/-- The batch of a grid point: the point is ((batch · 16) + row tile) · 8 + column tile. -/
def bOf (t : Fin cfg0.N) : Fin 4 := ⟨t.val / 128, by have := lt512 t; omega⟩
/-- The row of the cloud that row `r` of the point's row tile is. -/
def rowOf (t : Fin cfg0.N) (r : Fin 512) : Fin 8192 := ⟨512 * ((t.val / 8) % 16) + r.val, by have := r.isLt; omega⟩
/-- The column of the cloud that column `k` of the point's column tile is. -/
def colOf (t : Fin cfg0.N) (k : Fin 1024) : Fin 8192 := ⟨1024 * (t.val % 8) + k.val, by have := k.isLt; omega⟩

/-! ## From the blocks to the clouds -/

/-- The block indices of the two input windows in closed form, decided over the grid: the row tile's block is
    (batch, row tile, 0), the column tile's block is (batch, column tile, 0). -/
theorem idx_facts : ∀ t : Fin cfg0.N,
    win0_0.index t (0 : Fin 3) = t.val / 128 ∧ win0_0.index t (1 : Fin 3) = (t.val / 8) % 16 ∧ win0_0.index t (2 : Fin 3) = 0
    ∧ win0_1.index t (0 : Fin 3) = t.val / 128 ∧ win0_1.index t (1 : Fin 3) = t.val % 8 ∧ win0_1.index t (2 : Fin 3) = 0 :=
  (by decide +kernel : ∀ t : Fin grid0.N, _)

/-- Row `r`, coordinate `d` of the row block at point `t` is the row cloud at (batch, 512 · row tile + r, d): a block's
    coordinate on an axis is its block index times the block's extent plus the coordinate inside the block. -/
theorem xblk_apply (c : Dev nD) (t : Fin cfg0.N) (r : Fin 512) (d : Fin 3) :
    (iblk V c 0 t : Vec Ideal S1x512x3 .f32) (ix3 0 r d) = xarr V c (ix3 (bOf t) (rowOf t r) d) := by
  obtain ⟨e0, e1, e2, _, _, _⟩ := idx_facts t
  unfold iblk
  rw [View.read_apply]
  show V c (Pipeline.arrRef spec0 0) _ = V c (Pipeline.arrRef spec0 0) _
  congr 1
  funext a
  apply Fin.ext
  match a with
  | ⟨0, _⟩ => show win0_0.index t 0 * 1 + 1 * (0 : Fin 1).val = t.val / 128; rw [e0]; simp
  | ⟨1, _⟩ => show win0_0.index t 1 * 512 + 1 * r.val = 512 * ((t.val / 8) % 16) + r.val; rw [e1]; omega
  | ⟨2, _⟩ => show win0_0.index t 2 * 3 + 1 * d.val = d.val; rw [e2]; omega

/-- Column `k`, coordinate `d` of the column block at point `t` is the column cloud at
    (batch, 1024 · column tile + k, d). -/
theorem yblk_apply (c : Dev nD) (t : Fin cfg0.N) (k : Fin 1024) (d : Fin 3) :
    (iblk V c 1 t : Vec Ideal S1x1024x3 .f32) (ix3 0 k d) = yarr V c (ix3 (bOf t) (colOf t k) d) := by
  obtain ⟨_, _, _, e0, e1, e2⟩ := idx_facts t
  unfold iblk
  rw [View.read_apply]
  show V c (Pipeline.arrRef spec0 1) _ = V c (Pipeline.arrRef spec0 1) _
  congr 1
  funext a
  apply Fin.ext
  match a with
  | ⟨0, _⟩ => show win0_1.index t 0 * 1 + 1 * (0 : Fin 1).val = t.val / 128; rw [e0]; simp
  | ⟨1, _⟩ => show win0_1.index t 1 * 1024 + 1 * k.val = 1024 * (t.val % 8) + k.val; rw [e1]; omega
  | ⟨2, _⟩ => show win0_1.index t 2 * 3 + 1 * d.val = d.val; rw [e2]; omega

/-- So the distance the point computes between row `r` of its row block and column `k` of its column block is the
    distance between the two points of the clouds those are. -/
theorem tileDist_eq (c : Dev nD) (t : Fin cfg0.N) (r : Fin 512) (k : Fin 1024) :
    tileDist (iblk V c 0 t) (iblk V c 1 t) r k
      = Cert.Spec.dist (xarr V c) (yarr V c) (bOf t) (rowOf t r) (colOf t k) := by
  unfold tileDist Cert.Spec.dist Cert.Spec.sqDist
  rw [xblk_apply V c t r 0, xblk_apply V c t r 1, xblk_apply V c t r 2, yblk_apply V c t k 0, yblk_apply V c t k 1,
    yblk_apply V c t k 2]

/-- The least over the point's 1024 columns, as the fold over the column tile of the cloud. -/
theorem tileFold_eq (c : Dev nD) (t : Fin cfg0.N) (r : Fin 512) :
    (Finset.univ : Finset (Fin 1024)).fold min ⊤ (fun k => tileDist (iblk V c 0 t) (iblk V c 1 t) r k)
      = (Finset.univ : Finset (Fin 1024)).fold min ⊤
          (fun k => Cert.Spec.dist (xarr V c) (yarr V c) (bOf t) (rowOf t r)
            ⟨1024 * (t.val % 8) + k.val, by have := k.isLt; omega⟩) :=
  Finset.fold_congr fun k _ => tileDist_eq V c t r k

/-- Folding one more tile into the running minimum: if the scratch row holds the minimum over the first `t mod 8`
    column tiles, then the lesser of it and this tile's fold is the minimum over the first `t mod 8 + 1`. -/
theorem step_eq (c : Dev nD) (t : Fin cfg0.N) (r : Fin 512) (s : EReal)
    (hs : s = partMin (xarr V c) (yarr V c) (bOf t) (rowOf t r) (t.val % 8)) :
    min s ((Finset.univ : Finset (Fin 1024)).fold min ⊤ (fun k => tileDist (iblk V c 0 t) (iblk V c 1 t) r k))
      = partMin (xarr V c) (yarr V c) (bOf t) (rowOf t r) (t.val % 8 + 1) := by
  rw [tileFold_eq V c t r, hs]
  exact (partMin_succ (xarr V c) (yarr V c) (bOf t) (rowOf t r) (t.val % 8) (by omega)).symm

/-! ## The running-minimum invariant -/

/-- The points of one batch and row tile share their batch and their rows: stepping back from a point that is not
    at the first column tile changes only the column tile. -/
theorem bOf_pred (t : Fin cfg0.N) (h0 : ¬t.val % 8 = 0) (hlt : t.val - 1 < cfg0.N) : bOf ⟨t.val - 1, hlt⟩ = bOf t :=
  Fin.ext (by show (t.val - 1) / 128 = t.val / 128; omega)
theorem rowOf_pred (t : Fin cfg0.N) (h0 : ¬t.val % 8 = 0) (hlt : t.val - 1 < cfg0.N) (r : Fin 512) :
    rowOf ⟨t.val - 1, hlt⟩ r = rowOf t r :=
  Fin.ext (by show 512 * (((t.val - 1) / 8) % 16) + r.val = 512 * ((t.val / 8) % 16) + r.val; omega)

/-- After point `t` row `r` of the scratch holds the least distance from the row's point to the columns of the
    column tiles met so far in this batch and row tile: the first `t mod 8 + 1` of them. By induction along the grid:
    a first column tile starts from +∞, every later one lowers what the point before left. -/
theorem scratch_inv_aux (c : Dev nD) : ∀ (n : ℕ) (t : Fin cfg0.N), t.val = n → ∀ r : Fin 512,
    (outsAt V c t.val t.isLt).2 (ix2 r 0)
      = partMin (xarr V c) (yarr V c) (bOf t) (rowOf t r) (t.val % 8 + 1) := by
  intro n
  induction n using Nat.strong_induction_on with
  | _ n ih =>
    intro t htn r
    by_cases h0 : t.val % 8 = 0
    · have h1 : ¬t.val % 8 = 7 := by omega
      rw [outsAt_A V c t h0 h1]
      dsimp only
      rw [sout_A_eq, pay1_apply, pay4_apply, pay3_apply]
      refine step_eq V c t r ⊤ ?_
      rw [h0, partMin_zero]
    · have hlt : t.val - 1 < cfg0.N := Nat.lt_of_le_of_lt (Nat.sub_le _ _) t.isLt
      have hprev := ih (t.val - 1) (by omega) ⟨t.val - 1, hlt⟩ rfl r
      rw [bOf_pred t h0 hlt, rowOf_pred t h0 hlt r] at hprev
      have hj : (t.val - 1) % 8 + 1 = t.val % 8 := by omega
      have hprev' : (outsAt V c (t.val - 1) hlt).2 (ix2 r 0)
          = partMin (xarr V c) (yarr V c) (bOf t) (rowOf t r) (t.val % 8) := by
        rw [← hj]; exact hprev
      by_cases h1 : t.val % 8 = 7
      · rw [outsAt_C V c t h0 h1]
        dsimp only
        rw [sout_C_eq, pay1_apply, pay4_apply]
        exact step_eq V c t r _ hprev'
      · rw [outsAt_B V c t h0 h1]
        dsimp only
        rw [sout_B_eq, pay1_apply, pay4_apply]
        exact step_eq V c t r _ hprev'

/-- The invariant at every point. -/
theorem scratch_inv (c : Dev nD) (t : Fin cfg0.N) (r : Fin 512) :
    (outsAt V c t.val t.isLt).2 (ix2 r 0)
      = partMin (xarr V c) (yarr V c) (bOf t) (rowOf t r) (t.val % 8 + 1) :=
  scratch_inv_aux V c t.val t rfl r

/-- At a last column tile the output block receives the scratch it has just updated: the minimum over all eight
    column tiles, which is the row minimum. -/
theorem out_at_store (c : Dev nD) (t : Fin cfg0.N) (h : t.val % 8 = 7) (r : Fin 512) :
    (outsAt V c t.val t.isLt).1 (ix3 0 r 0)
      = Cert.Spec.rowMin (xarr V c) (yarr V c) (bOf t) (rowOf t r) := by
  have h0 : ¬t.val % 8 = 0 := by omega
  have hs := scratch_inv V c t r
  rw [outsAt_C V c t h0 h] at hs ⊢
  dsimp only at hs ⊢
  rw [sout_C_eq, pay1_apply] at hs
  rw [out_C_2_eq, pay2_apply, pay1_apply, hs, h]
  exact partMin_full _ _ _ _

end Cert.KernelIdeal.Rg0

end
-- ==== Proof.KI.Final0.lean ====
/-
  Region 0 (the first launch of the row-minimum kernel): the output array after the region.
  The output window's block at a grid point (batch, row tile, column tile) is the 512 rows of the row tile in the
  batch's column of the output; the column tile does not move it, and the block is written back only at the last
  column tile. Those points' blocks tile the array, and what each of them writes back is, row by row, the row
  minimum of its batch at the row tile's rows. Hence the array ends holding the row minima of the row cloud
  against the column cloud.
-/
import proofs.«115515_j9887014715551_1_alg».proof.Proof.KI.Inv0
import Idealize.ShloMosaic.Lib.Pipeline.Value
import Idealize.ShloMosaic.Lib.ValueIdx

set_option maxRecDepth 16384

noncomputable section

namespace Cert.KernelIdeal.Rg0

open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)
open Cert.KernelIdeal Cert.KernelIdeal.Gen

/-! ## The output window over the grid -/

/-- The output window's block index at a point: the batch, the row tile, and 0 along the unit axis; the column
    tile does not enter. -/
theorem idx2_facts : ∀ t : Fin cfg0.N, win0_2.index t (0 : Fin 3) = t.val / 128
    ∧ win0_2.index t (1 : Fin 3) = (t.val / 8) % 16 ∧ win0_2.index t (2 : Fin 3) = 0 :=
  (by decide +kernel : ∀ t : Fin grid0.N, win0_2.index t (0 : Fin 3) = t.val / 128
    ∧ win0_2.index t (1 : Fin 3) = (t.val / 8) % 16 ∧ win0_2.index t (2 : Fin 3) = 0)

/-- An index of the output array is in point `t`'s block iff each coordinate is in the block's range on its axis. -/
theorem mem_blk2 (t : Fin cfg0.N) (i : S4x8192x1.Idx) :
    i ∈ ((cfg0.win 2).blk t).view.set ↔ ∀ a : Fin 3, win0_2.index t a * S1x512x1.size a ≤ (i a).val ∧ (i a).val < win0_2.index t a * S1x512x1.size a + S1x512x1.size a := by
  show i ∈ ((View.whole main_v0).slice (win0_2.rect t)).set ↔ _
  rw [View.set_slice_whole, Rect.mem_set_unit]
  exact Iff.rfl

/-- Every index of the output array lies in the block of a point that writes its block back: the last column
    tile of the index's batch and row tile. -/
theorem cover2 (i : S4x8192x1.Idx) :
    ∃ t : Fin cfg0.N, (cfg0.win 2).flush t = true ∧ i ∈ ((cfg0.win 2).blk t).view.set := by
  have hi0 : (i 0).val < 4 := (i 0).isLt
  have hi1 : (i 1).val < 8192 := (i 1).isLt
  have hi2 : (i 2).val < 1 := (i 2).isLt
  obtain ⟨t, ht⟩ : ∃ t : Fin cfg0.N, t.val = 128 * (i 0).val + 8 * ((i 1).val / 512) + 7 :=
    ⟨⟨128 * (i 0).val + 8 * ((i 1).val / 512) + 7, by show _ < 512; omega⟩, rfl⟩
  obtain ⟨e0, e1, e2⟩ := idx2_facts t
  refine ⟨t, (flush0_2 t).mpr (by omega), ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1 ≤ (i 2).val ∧ (i 2).val < win0_2.index t (2 : Fin 3) * 1 + 1; omega

/-- What a point writes back, against a function of the array's index. If the staging buffer's contents `X` agree,
    row by row, with `G` at the point's batch and at the row tile's rows, then the part of `X` the write-back
    moves is the point's block of `G`. -/
theorem cut_read_eq (t : Fin cfg0.N) (X : S1x512x1.Idx → EReal) (G : Cert.Spec.Col.Idx → EReal)
    (h : ∀ (r : Fin 512) (b : Fin 4) (n : Fin 8192), b.val = t.val / 128 → n.val = 512 * ((t.val / 8) % 16) + r.val →
      X (ix3 0 r 0) = G (ix3 b n 0)) :
    (cfg0.win 2).cut (grid0.coords t) X = ((cfg0.win 2).blk t).view.read (Elt Ideal) G := by
  funext j
  have ht : t.val < 512 := t.isLt
  have hj0 : (j 0).val < 1 := (j 0).isLt
  have hj1 : (j 1).val < 512 := (j 1).isLt
  have hj2 : (j 2).val < 1 := (j 2).isLt
  obtain ⟨e0, e1, e2⟩ := idx2_facts t
  have hx : (cfg0.win 2).xinj (grid0.coords t) j = ix3 0 ⟨(j 1).val, hj1⟩ 0 := by
    funext a; apply Fin.ext
    match a with
    | ⟨0, _⟩ => show (j 0).val = 0; omega
    | ⟨1, _⟩ => rfl
    | ⟨2, _⟩ => show (j 2).val = 0; omega
  have hemb : ((cfg0.win 2).blk t).view.emb j
      = ix3 (⟨t.val / 128, by omega⟩ : Fin 4) (⟨512 * ((t.val / 8) % 16) + (j 1).val, by omega⟩ : Fin 8192) 0 := by
    funext a; apply Fin.ext
    match a with
    | ⟨0, _⟩ => show win0_2.index t (0 : Fin 3) * 1 + 1 * (j 0).val = t.val / 128; omega
    | ⟨1, _⟩ => show win0_2.index t (1 : Fin 3) * 512 + 1 * (j 1).val = 512 * ((t.val / 8) % 16) + (j 1).val; omega
    | ⟨2, _⟩ => show win0_2.index t (2 : Fin 3) * 1 + 1 * (j 2).val = 0; omega
  show X ((cfg0.win 2).xinj (grid0.coords t) j) = G (((cfg0.win 2).blk t).view.emb j)
  rw [hx, hemb]
  exact h ⟨(j 1).val, hj1⟩ _ _ rfl rfl

/-! ## The output array after the region -/

variable (V : (c : Dev nD) → (b : Ref sig .tc) → Buf (Elt Ideal) ((c : Thread nD τ).loc b))

/-- What a last-column-tile point writes back is its block of the row minima of the two clouds: the staging
    buffer holds, row by row, the row minimum of the point's batch at the row tile's rows. -/
theorem flushed_eq (c : Dev nD) (t : Fin cfg0.N) (hf : (cfg0.win 2).flush t = true) :
    (dat V c).flushed 2 t
      = ((cfg0.win 2).blk t).view.read (Elt Ideal) (Cert.Spec.rowMinCol (xarr V c) (yarr V c)) := by
  have h7 : t.val % 8 = 7 := (flush0_2 t).mp hf
  show (cfg0.win 2).cut (grid0.coords t) ((dat V c).after 2 t) = _
  rw [after_2]
  refine cut_read_eq t _ _ (fun r b n hb hn => ?_)
  rw [out_at_store V c t h7 r]
  have eb : bOf t = b := Fin.ext (by show t.val / 128 = b.val; omega)
  have en : rowOf t r = n := Fin.ext (by show 512 * ((t.val / 8) % 16) + r.val = n.val; omega)
  rw [eb, en]
  rfl

/-- After the region the output array holds, at every index, the row minimum of the row cloud against the column
    cloud: the last-column-tile points' blocks tile the array, and each writes back its block of the row minima. -/
theorem final (c : Dev nD) :
    (dat V c).arrAt 2 cfg0.N = Cert.Spec.rowMinCol (xarr V c) (yarr V c) :=
  (dat V c).arrAt_eq_of_cover 2 (Cert.Spec.rowMinCol (xarr V c) (yarr V c)) (fun t hf => flushed_eq V c t hf) cover2

end Cert.KernelIdeal.Rg0

end
-- ==== Proof.KI.Pieces1.lean ====
/-
  Region 1 (the second launch of the row-minimum kernel): what each control case leaves behind, as a value.
  Each case's run lists the pieces it wrote into the scratch (and, at the last column tile, into the output
  block). Every such piece is a store through the whole buffer at offset zero, so the pieces read back are the
  payload of the last store: the minimum of the scratch's previous contents (+∞ straight after the reset) and
  this tile's row minima for the scratch, and that same vector, read back from the scratch, for the output block.
-/
import proofs.«115515_j9887014715551_1_alg».proof.Proof.KI.Frame1
import Idealize.ShloMosaic.Lib.Pipeline.Value

set_option maxRecDepth 16384

noncomputable section

namespace Cert.KernelIdeal.Rg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The all-zero offset of a rank-2 store or load, as the constant function. -/
theorem hz2 : (![0, 0] : Fin 2 → Nat) = fun _ => 0 := funext fun a => by fin_cases a <;> rfl
/-- The all-zero offset of a rank-3 store or load, as the constant function. -/
theorem hz3 : (![0, 0, 0] : Fin 3 → Nat) = fun _ => 0 := funext fun a => by fin_cases a <;> rfl

/-- A first column tile leaves in the scratch the minimum of +∞ (the reset it has just stored and reads back) and
    this tile's row minima: what the scratch held before does not enter. -/
theorem sout_A_eq (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : condReset i) (hc1 : ¬condStore i)
    (x0 : Vec F S1x512x3 .f32) (x1 : Vec F S1x1024x3 .f32) :
    sout_A c i arg3 harg3 arg4 harg4 arg5 harg5 arg6 harg6 hc0 hc1 x0 x1 = k1_pay1 (k1_pay4 x0 x1 (k1_pay3 (F := F))) := by
  unfold sout_A
  rw [View.read_writes_eq_canon _ _ _ (scover_A c i arg3 harg3 arg4 harg4 arg5 harg5 arg6 harg6 hc0 hc1 x0 x1)]
  unfold kernelRun_A
  dsimp only
  sl_unfold_words
  rw [View.canon_cons_unit_zero (S := S512x1) hz2, View.readCov_unit_zero (S := S512x1) _ hz2]
  simp only [View.readAt_eq_ld, harg3.read_unread, harg4.read_unread, harg6.read_unread, View.ld_unit_zero (S := S1x512x3) hz3, View.ld_unit_zero (S := S1x1024x3) hz3, View.ld_unit_zero (S := S512x1) hz2]

/-- A middle column tile leaves in the scratch the minimum of what it held and this tile's row minima. -/
theorem sout_B_eq (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : ¬condStore i)
    (x0 : Vec F S1x512x3 .f32) (x1 : Vec F S1x1024x3 .f32) (xs : Vec F S512x1 .f32) :
    sout_B c i arg3 harg3 arg4 harg4 arg5 harg5 arg6 harg6 hc0 hc1 x0 x1 xs = k1_pay1 (k1_pay4 x0 x1 xs) := by
  unfold sout_B
  rw [View.read_writes_eq_canon _ _ _ (scover_B c i arg3 harg3 arg4 harg4 arg5 harg5 arg6 harg6 hc0 hc1 x0 x1 xs)]
  unfold kernelRun_B
  dsimp only
  sl_unfold_words
  rw [View.canon_unit_zero hz2]
  simp only [View.readAt_eq_ld, harg3.read_unread, harg4.read_unread, harg6.read_unread, View.ld_unit_zero (S := S1x512x3) hz3, View.ld_unit_zero (S := S1x1024x3) hz3, View.ld_unit_zero (S := S512x1) hz2]

/-- The last column tile leaves in the scratch the minimum of what it held and this tile's row minima. -/
theorem sout_C_eq (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : condStore i)
    (x0 : Vec F S1x512x3 .f32) (x1 : Vec F S1x1024x3 .f32) (xs : Vec F S512x1 .f32) :
    sout_C c i arg3 harg3 arg4 harg4 arg5 harg5 arg6 harg6 hc0 hc1 x0 x1 xs = k1_pay1 (k1_pay4 x0 x1 xs) := by
  unfold sout_C
  rw [View.read_writes_eq_canon _ _ _ (scover_C c i arg3 harg3 arg4 harg4 arg5 harg5 arg6 harg6 hc0 hc1 x0 x1 xs)]
  unfold kernelRun_C
  dsimp only
  sl_unfold_words
  rw [View.canon_unit_zero hz2]
  simp only [View.readAt_eq_ld, harg3.read_unread, harg4.read_unread, harg6.read_unread, View.ld_unit_zero (S := S1x512x3) hz3, View.ld_unit_zero (S := S1x1024x3) hz3, View.ld_unit_zero (S := S512x1) hz2]

/-- The last column tile stores into the output block the scratch it has just updated, read back: the finished
    running minimum, one value per row of the tile. -/
theorem out_C_2_eq (c : Dev nD) (i : grid1.Coords) (arg3 : Memref sig .tc .vmem S1x512x3 .f32) (harg3 : arg3.IsWhole) (arg4 : Memref sig .tc .vmem S1x1024x3 .f32) (harg4 : arg4.IsWhole) (arg5 : Memref sig .tc .vmem S1x512x1 .f32) (harg5 : arg5.IsWhole) (arg6 : Memref sig .tc .vmem S512x1 .f32) (harg6 : arg6.IsWhole) (hc0 : ¬condReset i) (hc1 : condStore i)
    (x0 : Vec F S1x512x3 .f32) (x1 : Vec F S1x1024x3 .f32) (xs : Vec F S512x1 .f32) :
    out_C_2 c i arg3 harg3 arg4 harg4 arg5 harg5 arg6 harg6 hc0 hc1 x0 x1 xs = k1_pay2 (k1_pay1 (k1_pay4 x0 x1 xs)) := by
  unfold out_C_2
  rw [View.read_writes_eq_canon _ _ _ (cover_C_2 c i arg3 harg3 arg4 harg4 arg5 harg5 arg6 harg6 hc0 hc1 x0 x1 xs)]
  unfold kernelRun_C
  dsimp only
  sl_unfold_words
  rw [View.canon_unit_zero hz3]
  simp only [View.readAt_eq_ld, harg3.read_unread, harg4.read_unread, harg6.read_unread, View.ld_unit_zero (S := S1x512x3) hz3, View.ld_unit_zero (S := S1x1024x3) hz3, View.ld_unit_zero (S := S512x1) hz2, View.readCov_unit_zero (S := S512x1) _ hz2]

end Cert.KernelIdeal.Rg1

end
-- ==== Proof.KI.Pay1.lean ====
/-
  The values one grid point of the row-minimum kernel computes, read at an index, over the extended reals.
  A point holds a block of 512 rows of one cloud, a block of 1024 columns of the other and a running column of
  512 minima. Its arithmetic slices each coordinate column of the two blocks, spreads the row block's column
  along the columns and the column block's along the rows, subtracts, squares and adds the three squares onto
  zero, clamps at zero, takes the square root, takes the least over the 1024 columns from +∞ and then the lesser
  of that and the running minimum. Read at row r this is
      min (running r) (the fold of min from ⊤ over k of tileDist r k).
-/
import proofs.«115515_j9887014715551_1_alg».proof.Proof.Gen.KernelIdeal.Skeleton
import proofs.«115515_j9887014715551_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Rg1

open Idealize.ShloMosaic Idealize.ShloMosaic.ValueIdx Cert.KernelIdeal Cert.KernelIdeal.Gen

/-- the distance of row r of the row block to column k of the column block -/
def tileDist (x0 : Vec Ideal S1x512x3 .f32) (x1 : Vec Ideal S1x1024x3 .f32) (r : Fin 512) (k : Fin 1024) : EReal :=
  Ideal.sqrt (max (((0 + (x0 (ix3 0 r 0) - x1 (ix3 0 k 0)) * (x0 (ix3 0 r 0) - x1 (ix3 0 k 0))) + (x0 (ix3 0 r 1) - x1 (ix3 0 k 1)) * (x0 (ix3 0 r 1) - x1 (ix3 0 k 1))) + (x0 (ix3 0 r 2) - x1 (ix3 0 k 2)) * (x0 (ix3 0 r 2) - x1 (ix3 0 k 2))) 0)

/-! ## Every index of a column is a row number -/

/-- Every index of a 512 × 1 column is `(r, 0)`. -/
theorem idx_col (j : S512x1.Idx) : ∃ r : Fin 512, j = ix2 r 0 :=
  ⟨j 0, (eq_ix2 j).trans (congrArg (ix2 (j 0)) (Fin.ext (by
    have := idx2_lt1 j
    show (j 1).val = 0
    omega)))⟩

/-- Every index of a 1 × 512 × 1 block is `(0, r, 0)`. -/
theorem idx_blk (j : S1x512x1.Idx) : ∃ r : Fin 512, j = ix3 0 r 0 := by
  have h0 : j 0 = (0 : Fin 1) := Fin.ext (by
    have := (j 0).isLt
    show (j 0).val = 0
    have h : (j 0).val < 1 := this
    omega)
  have h2 : j 2 = (0 : Fin 1) := Fin.ext (by
    have := (j 2).isLt
    show (j 2).val = 0
    have h : (j 2).val < 1 := this
    omega)
  refine ⟨j 1, (eq_ix3 j).trans ?_⟩
  rw [h0, h2]
  rfl

/-! ## Layout operations on a column, read at an index -/

section Layout
variable {α : Type}

/-- An `[a, 1]` array cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The three small payloads -/

/-- The bit pattern of +∞ is the extended real `⊤`. -/
theorem ofBits_inf_f32 : Ideal.ofBits .f32 0x7F800000#32 = ⊤ := by simp [Ideal.ofBits, Ideal.ieee]

/-- The running minima, stored back as they are. -/
theorem pay1_apply (v : FVec Ideal S512x1 .f32) (r : Fin 512) : k1_pay1 (F := Ideal) v (ix2 r 0) = v (ix2 r 0) :=
  congrFun (shapeCast_self v shapeCasts_S512x1_S512x1) (ix2 r 0)

/-- The running minima, stored as a block with a leading unit axis. -/
theorem pay2_apply (v : Vec Ideal S512x1 .f32) (r : Fin 512) : k1_pay2 (F := Ideal) v (ix3 0 r 0) = v (ix2 r 0) :=
  shapeCast_ab_1ab_apply v shapeCasts_S512x1_S1x512x1 (0 : Fin 1) r (0 : Fin 1)

/-- The reset value of the running minima is +∞ at every row. -/
theorem pay3_apply (r : Fin 512) : k1_pay3 (F := Ideal) (ix2 r 0) = ⊤ :=
  (congrFun (shapeCast_self (broadcast S512x1 (Scalar.ofBits (F := Ideal) .f32 0x7F800000#32)) shapeCasts_S512x1_S512x1)
    (ix2 r 0)).trans ofBits_inf_f32

/-! ## The least over the columns -/

/-- The least over the columns of a 512 × 1024 array, from +∞: at row `r` the fold of `min` from `⊤` over the
    1024 columns. -/
theorem minCols_apply (src : FVec Ideal S512x1024 .f32) (h : S512x1024.Reduces [1] S512) (hφ : FKind.Formats .f32)
    (hacc : (0x7F800000#32 : BitVec 32) = FKind.minimumf.neutral .f32 hφ) (r : Fin 512) :
    multiReduction (F := Ideal) .minimumf [1] S512 src 0x7F800000#32 h hφ hacc (ix1 r)
      = (Finset.univ : Finset (Fin 1024)).fold min ⊤ (fun k => src (ix2 r k)) := by
  refine (multiReduction_minimumf_eq_fold src _ h hφ hacc (ix1 r)).trans ?_
  refine (h.fold_filter_drop_single _ _ src (ix1 r)).trans ?_
  show (Finset.univ : Finset (Fin 1024)).fold min (Ideal.ofBits .f32 0x7F800000#32) (fun k => src (h.lift (ix1 r) k)) = _
  rw [ofBits_inf_f32]
  refine congrArg (fun f => Finset.fold min ⊤ f Finset.univ) (funext fun k => congrArg src ?_)
  funext c
  match c with
  | ⟨0, _⟩ => exact Fin.ext rfl
  | ⟨1, _⟩ => exact Fin.ext rfl

/-! ## One coordinate of the two blocks, spread over the tile -/

/-- Coordinate `c` of the row block, cut out as a column and spread along the columns: at `(r, k)` it is the row
    block at `(0, r, c)`. -/
theorem rowCoord_apply (x0 : Vec Ideal S1x512x3 .f32) (o : Nat) (c : Fin 3) (hc : c.val = o + (0 : Fin 1).val)
    (h1 : S1x512x3.ShapeCasts S512x3) (h2 : S512x3.Slices ![0, o] S512x1) (h3 : S512x1.Broadcasts S512x1024)
    (r : Fin 512) (k : Fin 1024) :
    broadcastTo S512x1024 (extractStridedSlice S512x1 ![0, o] (shapeCast S512x3 x0 h1) h2) h3 (ix2 r k)
      = x0 (ix3 0 r c) :=
  (broadcastTo_a1_ab_apply _ h3 r k).trans
    ((slice2_axis1_apply o _ h2 r (0 : Fin 1) c hc).trans (shapeCast_1ab_ab_apply x0 h1 r c))

/-- Coordinate `c` of the column block, cut out as a column, laid as a row and spread along the rows: at `(r, k)`
    it is the column block at `(0, k, c)`. -/
theorem colCoord_apply (x1 : Vec Ideal S1x1024x3 .f32) (o : Nat) (c : Fin 3) (hc : c.val = o + (0 : Fin 1).val)
    (h1 : S1x1024x3.ShapeCasts S1024x3) (h2 : S1024x3.Slices ![0, o] S1024x1) (h3 : S1024x1.ShapeCasts S1024)
    (h4 : S1024.ShapeCasts S1x1024) (h5 : S1x1024.Broadcasts S512x1024) (r : Fin 512) (k : Fin 1024) :
    broadcastTo S512x1024
        (shapeCast S1x1024 (shapeCast S1024 (extractStridedSlice S1024x1 ![0, o] (shapeCast S1024x3 x1 h1) h2) h3) h4)
        h5 (ix2 r k)
      = x1 (ix3 0 k c) :=
  (broadcastTo_1b_ab_apply _ h5 r k).trans
    ((shapeCast_a_1a_apply _ h4 (0 : Fin 1) k).trans
      ((shapeCast_a1_a_apply _ h3 k).trans
        ((slice2_axis1_apply o _ h2 k (0 : Fin 1) c hc).trans (shapeCast_1ab_ab_apply x1 h1 k c))))

/-! ## One grid point's arithmetic -/

/-- The square root read at an index. -/
theorem sqrt_apply' {s : Shape} (a : FVec Ideal s .f32) (i : s.Idx) : sqrt a i = Ideal.sqrt (a i) := rfl

/-- One grid point's arithmetic at row `r`: the lesser of the running minimum and the least distance of row `r` to
    the 1024 columns of the tile. -/
theorem pay4_apply (x0 : Vec Ideal S1x512x3 .f32) (x1 : Vec Ideal S1x1024x3 .f32) (s : Vec Ideal S512x1 .f32) (r : Fin 512) :
    k1_pay4 (F := Ideal) x0 x1 s (ix2 r 0) = min (s (ix2 r 0)) ((Finset.univ : Finset (Fin 1024)).fold min ⊤ (fun k => tileDist x0 x1 r k)) := by
  unfold k1_pay4
  refine (minimumf_apply _ _ _).trans (congrArg (min (s (ix2 r 0))) ?_)
  refine (shapeCast_a_a1_apply _ _ r (0 : Fin 1)).trans ?_
  refine (minCols_apply _ _ _ _ r).trans ?_
  refine congrArg (fun f => Finset.fold min ⊤ f Finset.univ) (funext fun k => ?_)
  unfold tileDist
  simp only [sqrt_apply', maximumf_apply, addf_apply, mulf_apply, subf_apply, broadcast_apply,
    rowCoord_apply x0 0 (0 : Fin 3) rfl, rowCoord_apply x0 1 (1 : Fin 3) rfl, rowCoord_apply x0 2 (2 : Fin 3) rfl,
    colCoord_apply x1 0 (0 : Fin 3) rfl, colCoord_apply x1 1 (1 : Fin 3) rfl, colCoord_apply x1 2 (2 : Fin 3) rfl,
    Ideal.ofBits_def, Ideal.ofBits_zero_f32]

end Cert.KernelIdeal.Rg1

end
-- ==== Proof.KI.Inv1.lean ====
/-
  Region 1 (the second launch of the row-minimum kernel): the running-minimum invariant, over the extended reals.
  A grid point is (batch, row tile, column tile). Its row block is 512 rows of one batch of the row cloud and its
  column block is 1024 columns of the same batch of the column cloud, so the distance it computes between row r of
  the one and column k of the other is the distance between two points of the clouds. The fold of `min` over the
  columns below 1024 · (j + 1) splits into the fold over the columns below 1024 · j and the fold over the j-th
  tile's own columns; hence, by induction along the grid, after the point at column tile j the scratch's row r holds
  the least distance from its point to the columns of tiles 0 … j, and at column tile 7, where the output block
  receives the scratch, that is the row minimum.
-/
import proofs.«115515_j9887014715551_1_alg».proof.Proof.KI.Pieces1
import proofs.«115515_j9887014715551_1_alg».proof.Proof.KI.Pay1
import proofs.«115515_j9887014715551_1_alg».proof.Proof.Spec
import Idealize.ShloMosaic.Lib.ValueIdx
import Mathlib.Data.Finset.Fold

set_option maxRecDepth 16384

noncomputable section

namespace Cert.KernelIdeal.Rg1

open Idealize.ShloMosaic Idealize.ShloMosaic.TcCoe Idealize.ShloMosaic.ValueIdx Cert.KernelIdeal Cert.KernelIdeal.Gen

/-! ## Folds of `min` over an initial segment of the columns -/

/-- The least distance from point `n` of `x` to the first `1024 * j` points of `y` in batch `b`, as a fold of `min`
    from +∞: the row minimum restricted to the first `j` column tiles. -/
def partMin (x y : Cert.Spec.Cloud.Idx → EReal) (b : Fin 4) (n : Fin 8192) (j : ℕ) : EReal :=
  ((Finset.univ : Finset (Fin 8192)).filter fun m => m.val < 1024 * j).fold min ⊤ (fun m => Cert.Spec.dist x y b n m)

/-- Over no columns the fold is its starting value +∞. -/
theorem partMin_zero (x y : Cert.Spec.Cloud.Idx → EReal) (b : Fin 4) (n : Fin 8192) : partMin x y b n 0 = ⊤ := by
  unfold partMin
  have h : ((Finset.univ : Finset (Fin 8192)).filter fun m => m.val < 1024 * 0) = ∅ :=
    Finset.filter_eq_empty_iff.mpr fun m _ => by omega
  rw [h, Finset.fold_empty]

/-- Over all eight column tiles the fold is the row minimum: every column is below 8192 = 1024 · 8. -/
theorem partMin_full (x y : Cert.Spec.Cloud.Idx → EReal) (b : Fin 4) (n : Fin 8192) :
    partMin x y b n 8 = Cert.Spec.rowMin x y b n := by
  unfold partMin Cert.Spec.rowMin
  have h : ((Finset.univ : Finset (Fin 8192)).filter fun m => m.val < 1024 * 8) = Finset.univ :=
    Finset.filter_true_of_mem fun m _ => by have := m.isLt; omega
  rw [h]

/-- One more column tile. The fold over the first `1024 * (j + 1)` columns is the lesser of the fold over the first
    `1024 * j` and the fold over the `j`-th tile's own 1024 columns: a bound is below the one exactly when it is
    below +∞ and below every distance to a column `m < 1024 * (j + 1)`, and such an `m` is either below `1024 * j`
    or is `1024 * j + k` for one `k < 1024`. -/
theorem partMin_succ (x y : Cert.Spec.Cloud.Idx → EReal) (b : Fin 4) (n : Fin 8192) (j : ℕ) (hj : j < 8) :
    partMin x y b n (j + 1)
      = min (partMin x y b n j)
          ((Finset.univ : Finset (Fin 1024)).fold min ⊤
            (fun k => Cert.Spec.dist x y b n ⟨1024 * j + k.val, by have := k.isLt; omega⟩)) := by
  unfold partMin
  refine eq_of_forall_le_iff fun c => ?_
  simp only [Finset.le_fold_min, le_min_iff, Finset.mem_filter, Finset.mem_univ, true_and, le_top, true_imp_iff]
  constructor
  · intro h
    exact ⟨fun m hm => h m (by omega), fun k => h _ (by show 1024 * j + k.val < 1024 * (j + 1); have := k.isLt; omega)⟩
  · rintro ⟨h1, h2⟩ m hm
    by_cases hlt : m.val < 1024 * j
    · exact h1 m hlt
    · have h3 := h2 ⟨m.val - 1024 * j, by omega⟩
      have e : (⟨1024 * j + (m.val - 1024 * j), by have := m.isLt; omega⟩ : Fin 8192) = m :=
        Fin.ext (by show 1024 * j + (m.val - 1024 * j) = m.val; omega)
      rw [e] at h3
      exact h3

variable (V : (c : Dev nD) → (b : Ref sig .tc) → Buf (Elt Ideal) ((c : Thread nD τ).loc b))

/-! ## The two clouds and a grid point's coordinates -/

/-- The row cloud of this launch (its first window's array), as the region finds it. -/
abbrev xarr (c : Dev nD) : Cert.Spec.Cloud.Idx → EReal := V c (Pipeline.arrRef spec1 0)
/-- The column cloud of this launch (its second window's array), as the region finds it. -/
abbrev yarr (c : Dev nD) : Cert.Spec.Cloud.Idx → EReal := V c (Pipeline.arrRef spec1 1)

/-- The grid has 512 points. -/
theorem lt512 (t : Fin cfg1.N) : t.val < 512 := lt_of_lt_of_eq t.isLt (show cfg1.N = 512 from N_1)

/-- The batch of a grid point: the point is ((batch · 16) + row tile) · 8 + column tile. -/
def bOf (t : Fin cfg1.N) : Fin 4 := ⟨t.val / 128, by have := lt512 t; omega⟩
/-- The row of the cloud that row `r` of the point's row tile is. -/
def rowOf (t : Fin cfg1.N) (r : Fin 512) : Fin 8192 := ⟨512 * ((t.val / 8) % 16) + r.val, by have := r.isLt; omega⟩
/-- The column of the cloud that column `k` of the point's column tile is. -/
def colOf (t : Fin cfg1.N) (k : Fin 1024) : Fin 8192 := ⟨1024 * (t.val % 8) + k.val, by have := k.isLt; omega⟩

/-! ## From the blocks to the clouds -/

/-- The block indices of the two input windows in closed form, decided over the grid: the row tile's block is
    (batch, row tile, 0), the column tile's block is (batch, column tile, 0). -/
theorem idx_facts : ∀ t : Fin cfg1.N,
    win1_0.index t (0 : Fin 3) = t.val / 128 ∧ win1_0.index t (1 : Fin 3) = (t.val / 8) % 16 ∧ win1_0.index t (2 : Fin 3) = 0
    ∧ win1_1.index t (0 : Fin 3) = t.val / 128 ∧ win1_1.index t (1 : Fin 3) = t.val % 8 ∧ win1_1.index t (2 : Fin 3) = 0 :=
  (by decide +kernel : ∀ t : Fin grid1.N, _)

/-- Row `r`, coordinate `d` of the row block at point `t` is the row cloud at (batch, 512 · row tile + r, d): a block's
    coordinate on an axis is its block index times the block's extent plus the coordinate inside the block. -/
theorem xblk_apply (c : Dev nD) (t : Fin cfg1.N) (r : Fin 512) (d : Fin 3) :
    (iblk V c 0 t : Vec Ideal S1x512x3 .f32) (ix3 0 r d) = xarr V c (ix3 (bOf t) (rowOf t r) d) := by
  obtain ⟨e0, e1, e2, _, _, _⟩ := idx_facts t
  unfold iblk
  rw [View.read_apply]
  show V c (Pipeline.arrRef spec1 0) _ = V c (Pipeline.arrRef spec1 0) _
  congr 1
  funext a
  apply Fin.ext
  match a with
  | ⟨0, _⟩ => show win1_0.index t 0 * 1 + 1 * (0 : Fin 1).val = t.val / 128; rw [e0]; simp
  | ⟨1, _⟩ => show win1_0.index t 1 * 512 + 1 * r.val = 512 * ((t.val / 8) % 16) + r.val; rw [e1]; omega
  | ⟨2, _⟩ => show win1_0.index t 2 * 3 + 1 * d.val = d.val; rw [e2]; omega

/-- Column `k`, coordinate `d` of the column block at point `t` is the column cloud at
    (batch, 1024 · column tile + k, d). -/
theorem yblk_apply (c : Dev nD) (t : Fin cfg1.N) (k : Fin 1024) (d : Fin 3) :
    (iblk V c 1 t : Vec Ideal S1x1024x3 .f32) (ix3 0 k d) = yarr V c (ix3 (bOf t) (colOf t k) d) := by
  obtain ⟨_, _, _, e0, e1, e2⟩ := idx_facts t
  unfold iblk
  rw [View.read_apply]
  show V c (Pipeline.arrRef spec1 1) _ = V c (Pipeline.arrRef spec1 1) _
  congr 1
  funext a
  apply Fin.ext
  match a with
  | ⟨0, _⟩ => show win1_1.index t 0 * 1 + 1 * (0 : Fin 1).val = t.val / 128; rw [e0]; simp
  | ⟨1, _⟩ => show win1_1.index t 1 * 1024 + 1 * k.val = 1024 * (t.val % 8) + k.val; rw [e1]; omega
  | ⟨2, _⟩ => show win1_1.index t 2 * 3 + 1 * d.val = d.val; rw [e2]; omega

/-- So the distance the point computes between row `r` of its row block and column `k` of its column block is the
    distance between the two points of the clouds those are. -/
theorem tileDist_eq (c : Dev nD) (t : Fin cfg1.N) (r : Fin 512) (k : Fin 1024) :
    tileDist (iblk V c 0 t) (iblk V c 1 t) r k
      = Cert.Spec.dist (xarr V c) (yarr V c) (bOf t) (rowOf t r) (colOf t k) := by
  unfold tileDist Cert.Spec.dist Cert.Spec.sqDist
  rw [xblk_apply V c t r 0, xblk_apply V c t r 1, xblk_apply V c t r 2, yblk_apply V c t k 0, yblk_apply V c t k 1,
    yblk_apply V c t k 2]

/-- The least over the point's 1024 columns, as the fold over the column tile of the cloud. -/
theorem tileFold_eq (c : Dev nD) (t : Fin cfg1.N) (r : Fin 512) :
    (Finset.univ : Finset (Fin 1024)).fold min ⊤ (fun k => tileDist (iblk V c 0 t) (iblk V c 1 t) r k)
      = (Finset.univ : Finset (Fin 1024)).fold min ⊤
          (fun k => Cert.Spec.dist (xarr V c) (yarr V c) (bOf t) (rowOf t r)
            ⟨1024 * (t.val % 8) + k.val, by have := k.isLt; omega⟩) :=
  Finset.fold_congr fun k _ => tileDist_eq V c t r k

/-- Folding one more tile into the running minimum: if the scratch row holds the minimum over the first `t mod 8`
    column tiles, then the lesser of it and this tile's fold is the minimum over the first `t mod 8 + 1`. -/
theorem step_eq (c : Dev nD) (t : Fin cfg1.N) (r : Fin 512) (s : EReal)
    (hs : s = partMin (xarr V c) (yarr V c) (bOf t) (rowOf t r) (t.val % 8)) :
    min s ((Finset.univ : Finset (Fin 1024)).fold min ⊤ (fun k => tileDist (iblk V c 0 t) (iblk V c 1 t) r k))
      = partMin (xarr V c) (yarr V c) (bOf t) (rowOf t r) (t.val % 8 + 1) := by
  rw [tileFold_eq V c t r, hs]
  exact (partMin_succ (xarr V c) (yarr V c) (bOf t) (rowOf t r) (t.val % 8) (by omega)).symm

/-! ## The running-minimum invariant -/

/-- The points of one batch and row tile share their batch and their rows: stepping back from a point that is not
    at the first column tile changes only the column tile. -/
theorem bOf_pred (t : Fin cfg1.N) (h0 : ¬t.val % 8 = 0) (hlt : t.val - 1 < cfg1.N) : bOf ⟨t.val - 1, hlt⟩ = bOf t :=
  Fin.ext (by show (t.val - 1) / 128 = t.val / 128; omega)
theorem rowOf_pred (t : Fin cfg1.N) (h0 : ¬t.val % 8 = 0) (hlt : t.val - 1 < cfg1.N) (r : Fin 512) :
    rowOf ⟨t.val - 1, hlt⟩ r = rowOf t r :=
  Fin.ext (by show 512 * (((t.val - 1) / 8) % 16) + r.val = 512 * ((t.val / 8) % 16) + r.val; omega)

/-- After point `t` row `r` of the scratch holds the least distance from the row's point to the columns of the
    column tiles met so far in this batch and row tile: the first `t mod 8 + 1` of them. By induction along the grid:
    a first column tile starts from +∞, every later one lowers what the point before left. -/
theorem scratch_inv_aux (c : Dev nD) : ∀ (n : ℕ) (t : Fin cfg1.N), t.val = n → ∀ r : Fin 512,
    (outsAt V c t.val t.isLt).2 (ix2 r 0)
      = partMin (xarr V c) (yarr V c) (bOf t) (rowOf t r) (t.val % 8 + 1) := by
  intro n
  induction n using Nat.strong_induction_on with
  | _ n ih =>
    intro t htn r
    by_cases h0 : t.val % 8 = 0
    · have h1 : ¬t.val % 8 = 7 := by omega
      rw [outsAt_A V c t h0 h1]
      dsimp only
      rw [sout_A_eq, pay1_apply, pay4_apply, pay3_apply]
      refine step_eq V c t r ⊤ ?_
      rw [h0, partMin_zero]
    · have hlt : t.val - 1 < cfg1.N := Nat.lt_of_le_of_lt (Nat.sub_le _ _) t.isLt
      have hprev := ih (t.val - 1) (by omega) ⟨t.val - 1, hlt⟩ rfl r
      rw [bOf_pred t h0 hlt, rowOf_pred t h0 hlt r] at hprev
      have hj : (t.val - 1) % 8 + 1 = t.val % 8 := by omega
      have hprev' : (outsAt V c (t.val - 1) hlt).2 (ix2 r 0)
          = partMin (xarr V c) (yarr V c) (bOf t) (rowOf t r) (t.val % 8) := by
        rw [← hj]; exact hprev
      by_cases h1 : t.val % 8 = 7
      · rw [outsAt_C V c t h0 h1]
        dsimp only
        rw [sout_C_eq, pay1_apply, pay4_apply]
        exact step_eq V c t r _ hprev'
      · rw [outsAt_B V c t h0 h1]
        dsimp only
        rw [sout_B_eq, pay1_apply, pay4_apply]
        exact step_eq V c t r _ hprev'

/-- The invariant at every point. -/
theorem scratch_inv (c : Dev nD) (t : Fin cfg1.N) (r : Fin 512) :
    (outsAt V c t.val t.isLt).2 (ix2 r 0)
      = partMin (xarr V c) (yarr V c) (bOf t) (rowOf t r) (t.val % 8 + 1) :=
  scratch_inv_aux V c t.val t rfl r

/-- At a last column tile the output block receives the scratch it has just updated: the minimum over all eight
    column tiles, which is the row minimum. -/
theorem out_at_store (c : Dev nD) (t : Fin cfg1.N) (h : t.val % 8 = 7) (r : Fin 512) :
    (outsAt V c t.val t.isLt).1 (ix3 0 r 0)
      = Cert.Spec.rowMin (xarr V c) (yarr V c) (bOf t) (rowOf t r) := by
  have h0 : ¬t.val % 8 = 0 := by omega
  have hs := scratch_inv V c t r
  rw [outsAt_C V c t h0 h] at hs ⊢
  dsimp only at hs ⊢
  rw [sout_C_eq, pay1_apply] at hs
  rw [out_C_2_eq, pay2_apply, pay1_apply, hs, h]
  exact partMin_full _ _ _ _

end Cert.KernelIdeal.Rg1

end
-- ==== Proof.KI.Final1.lean ====
/-
  Region 1 (the second launch of the row-minimum kernel): the output array after the region.
  The output window's block at a grid point (batch, row tile, column tile) is the 512 rows of the row tile in the
  batch's column of the output; the column tile does not move it, and the block is written back only at the last
  column tile. Those points' blocks tile the array, and what each of them writes back is, row by row, the row
  minimum of its batch at the row tile's rows. Hence the array ends holding the row minima of the row cloud
  against the column cloud.
-/
import proofs.«115515_j9887014715551_1_alg».proof.Proof.KI.Inv1
import Idealize.ShloMosaic.Lib.Pipeline.Value
import Idealize.ShloMosaic.Lib.ValueIdx

set_option maxRecDepth 16384

noncomputable section

namespace Cert.KernelIdeal.Rg1

open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)
open Cert.KernelIdeal Cert.KernelIdeal.Gen

/-! ## The output window over the grid -/

/-- The output window's block index at a point: the batch, the row tile, and 0 along the unit axis; the column
    tile does not enter. -/
theorem idx2_facts : ∀ t : Fin cfg1.N, win1_2.index t (0 : Fin 3) = t.val / 128
    ∧ win1_2.index t (1 : Fin 3) = (t.val / 8) % 16 ∧ win1_2.index t (2 : Fin 3) = 0 :=
  (by decide +kernel : ∀ t : Fin grid1.N, win1_2.index t (0 : Fin 3) = t.val / 128
    ∧ win1_2.index t (1 : Fin 3) = (t.val / 8) % 16 ∧ win1_2.index t (2 : Fin 3) = 0)

/-- An index of the output array is in point `t`'s block iff each coordinate is in the block's range on its axis. -/
theorem mem_blk2 (t : Fin cfg1.N) (i : S4x8192x1.Idx) :
    i ∈ ((cfg1.win 2).blk t).view.set ↔ ∀ a : Fin 3, win1_2.index t a * S1x512x1.size a ≤ (i a).val ∧ (i a).val < win1_2.index t a * S1x512x1.size a + S1x512x1.size a := by
  show i ∈ ((View.whole main_v0).slice (win1_2.rect t)).set ↔ _
  rw [View.set_slice_whole, Rect.mem_set_unit]
  exact Iff.rfl

/-- Every index of the output array lies in the block of a point that writes its block back: the last column
    tile of the index's batch and row tile. -/
theorem cover2 (i : S4x8192x1.Idx) :
    ∃ t : Fin cfg1.N, (cfg1.win 2).flush t = true ∧ i ∈ ((cfg1.win 2).blk t).view.set := by
  have hi0 : (i 0).val < 4 := (i 0).isLt
  have hi1 : (i 1).val < 8192 := (i 1).isLt
  have hi2 : (i 2).val < 1 := (i 2).isLt
  obtain ⟨t, ht⟩ : ∃ t : Fin cfg1.N, t.val = 128 * (i 0).val + 8 * ((i 1).val / 512) + 7 :=
    ⟨⟨128 * (i 0).val + 8 * ((i 1).val / 512) + 7, by show _ < 512; omega⟩, rfl⟩
  obtain ⟨e0, e1, e2⟩ := idx2_facts t
  refine ⟨t, (flush1_2 t).mpr (by omega), ?_⟩
  rw [mem_blk2]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 512 ≤ (i 1).val ∧ (i 1).val < win1_2.index t (1 : Fin 3) * 512 + 512; omega
  | ⟨2, _⟩ => show win1_2.index t (2 : Fin 3) * 1 ≤ (i 2).val ∧ (i 2).val < win1_2.index t (2 : Fin 3) * 1 + 1; omega

/-- What a point writes back, against a function of the array's index. If the staging buffer's contents `X` agree,
    row by row, with `G` at the point's batch and at the row tile's rows, then the part of `X` the write-back
    moves is the point's block of `G`. -/
theorem cut_read_eq (t : Fin cfg1.N) (X : S1x512x1.Idx → EReal) (G : Cert.Spec.Col.Idx → EReal)
    (h : ∀ (r : Fin 512) (b : Fin 4) (n : Fin 8192), b.val = t.val / 128 → n.val = 512 * ((t.val / 8) % 16) + r.val →
      X (ix3 0 r 0) = G (ix3 b n 0)) :
    (cfg1.win 2).cut (grid1.coords t) X = ((cfg1.win 2).blk t).view.read (Elt Ideal) G := by
  funext j
  have ht : t.val < 512 := t.isLt
  have hj0 : (j 0).val < 1 := (j 0).isLt
  have hj1 : (j 1).val < 512 := (j 1).isLt
  have hj2 : (j 2).val < 1 := (j 2).isLt
  obtain ⟨e0, e1, e2⟩ := idx2_facts t
  have hx : (cfg1.win 2).xinj (grid1.coords t) j = ix3 0 ⟨(j 1).val, hj1⟩ 0 := by
    funext a; apply Fin.ext
    match a with
    | ⟨0, _⟩ => show (j 0).val = 0; omega
    | ⟨1, _⟩ => rfl
    | ⟨2, _⟩ => show (j 2).val = 0; omega
  have hemb : ((cfg1.win 2).blk t).view.emb j
      = ix3 (⟨t.val / 128, by omega⟩ : Fin 4) (⟨512 * ((t.val / 8) % 16) + (j 1).val, by omega⟩ : Fin 8192) 0 := by
    funext a; apply Fin.ext
    match a with
    | ⟨0, _⟩ => show win1_2.index t (0 : Fin 3) * 1 + 1 * (j 0).val = t.val / 128; omega
    | ⟨1, _⟩ => show win1_2.index t (1 : Fin 3) * 512 + 1 * (j 1).val = 512 * ((t.val / 8) % 16) + (j 1).val; omega
    | ⟨2, _⟩ => show win1_2.index t (2 : Fin 3) * 1 + 1 * (j 2).val = 0; omega
  show X ((cfg1.win 2).xinj (grid1.coords t) j) = G (((cfg1.win 2).blk t).view.emb j)
  rw [hx, hemb]
  exact h ⟨(j 1).val, hj1⟩ _ _ rfl rfl

/-! ## The output array after the region -/

variable (V : (c : Dev nD) → (b : Ref sig .tc) → Buf (Elt Ideal) ((c : Thread nD τ).loc b))

/-- What a last-column-tile point writes back is its block of the row minima of the two clouds: the staging
    buffer holds, row by row, the row minimum of the point's batch at the row tile's rows. -/
theorem flushed_eq (c : Dev nD) (t : Fin cfg1.N) (hf : (cfg1.win 2).flush t = true) :
    (dat V c).flushed 2 t
      = ((cfg1.win 2).blk t).view.read (Elt Ideal) (Cert.Spec.rowMinCol (xarr V c) (yarr V c)) := by
  have h7 : t.val % 8 = 7 := (flush1_2 t).mp hf
  show (cfg1.win 2).cut (grid1.coords t) ((dat V c).after 2 t) = _
  rw [after_2]
  refine cut_read_eq t _ _ (fun r b n hb hn => ?_)
  rw [out_at_store V c t h7 r]
  have eb : bOf t = b := Fin.ext (by show t.val / 128 = b.val; omega)
  have en : rowOf t r = n := Fin.ext (by show 512 * ((t.val / 8) % 16) + r.val = n.val; omega)
  rw [eb, en]
  rfl

/-- After the region the output array holds, at every index, the row minimum of the row cloud against the column
    cloud: the last-column-tile points' blocks tile the array, and each writes back its block of the row minima. -/
theorem final (c : Dev nD) :
    (dat V c).arrAt 2 cfg1.N = Cert.Spec.rowMinCol (xarr V c) (yarr V c) :=
  (dat V c).arrAt_eq_of_cover 2 (Cert.Spec.rowMinCol (xarr V c) (yarr V c)) (fun t hf => flushed_eq V c t hf) cover2

end Cert.KernelIdeal.Rg1

end
-- ==== Proof.KI.Result.lean ====
/-
  The idealized program's result as a function of the two clouds, over the extended reals.
  The contents of a core's buffers are followed through the program's four items. The first run of the row-minimum
  kernel reads both clouds through input windows, which are never written back, and leaves in its output array the
  row minima of the first cloud against the second, one per point, as a column. The reshape turns that column into
  a matrix and touches nothing else, so the second run is entered with both clouds as launched; it leaves the row
  minima of the second cloud against the first. The last stretch reshapes that column too and combines the two
  matrices. Hence the program's result is that combination of the two matrices of row minima.
-/
import proofs.«115515_j9887014715551_1_alg».proof.Proof.KI.Launch
import proofs.«115515_j9887014715551_1_alg».proof.Proof.KI.HostTail
import proofs.«115515_j9887014715551_1_alg».proof.Proof.KI.Final0
import proofs.«115515_j9887014715551_1_alg».proof.Proof.KI.Final1
import proofs.«115515_j9887014715551_1_alg».proof.Proof.Spec

set_option maxRecDepth 16384

noncomputable section

namespace Cert.KernelIdeal.Ln

open Idealize.ShloMosaic Idealize.ShloMosaic.TcCoe Cert.KernelIdeal Cert.KernelIdeal.Gen

variable (m : (ℓ : Loc nD τ sig) → Buf (Elt Ideal) ℓ)

/-! ## The clouds reach the second run as launched -/

/-- After the first run the first cloud is as launched: the run reads it through an input window, whose array is
    never written back. -/
theorem bnd1_arg0 (c : Dev nD) : Bnd1 m c (Proc.devRef .tc main_arg0) = m ((c : Thread nD τ).loc main_arg0) :=
  (Bnd1_arr m c 0).trans (((Rg0.dat (Ent0 m) c).arrAt_in 0 rfl _).trans (Rg0.A_eq (Ent0 m) c 0))

/-- After the first run the second cloud is as launched, for the same reason. -/
theorem bnd1_arg1 (c : Dev nD) : Bnd1 m c (Proc.devRef .tc main_arg1) = m ((c : Thread nD τ).loc main_arg1) :=
  (Bnd1_arr m c 1).trans (((Rg0.dat (Ent0 m) c).arrAt_in 1 rfl _).trans (Rg0.A_eq (Ent0 m) c 1))

/-- The second run is entered with the first cloud as launched: the reshape in between writes only its own result. -/
theorem ent1_arg0 (c : Dev nD) : Ent1 m c main_arg0 = m ((c : Thread nD τ).loc main_arg0) :=
  (after1_keep (Bnd1 m c) main_arg0 (by decide)).trans (bnd1_arg0 m c)

/-- The second run is entered with the second cloud as launched. -/
theorem ent1_arg1 (c : Dev nD) : Ent1 m c main_arg1 = m ((c : Thread nD τ).loc main_arg1) :=
  (after1_keep (Bnd1 m c) main_arg1 (by decide)).trans (bnd1_arg1 m c)

/-! ## The two results before the last stretch -/

/-- After the first run its output array holds the row minima of the first cloud against the second, as a column:
    the run is entered with the clouds as launched. -/
theorem bnd1_v0 (c : Dev nD) :
    Bnd1 m c (Proc.devRef .tc main_v0)
      = Cert.Spec.rowMinCol (m ((c : Thread nD τ).loc main_arg0)) (m ((c : Thread nD τ).loc main_arg1)) :=
  (Bnd1_arr m c 2).trans (Rg0.final (Ent0 m) c)

/-- Before the last stretch the reshaped first result is the matrix of row minima of the first cloud against the
    second: the second run does not touch it, the reshape made it from the first run's column. -/
theorem bnd3_v1 (c : Dev nD) :
    Bnd3 m c (Proc.devRef .tc main_v1)
      = Cert.Spec.rowMinMat (m ((c : Thread nD τ).loc main_arg0)) (m ((c : Thread nD τ).loc main_arg1)) :=
  calc Bnd3 m c (Proc.devRef .tc main_v1)
    _ = Bnd2 m c (Proc.devRef .tc main_v1) := Bnd3_of_ne m c main_v1 (by decide)
    _ = toMat (Bnd1 m c (Proc.devRef .tc main_v0)) := after1_v1 (Bnd1 m c)
    _ = toMat (Cert.Spec.rowMinCol (m ((c : Thread nD τ).loc main_arg0)) (m ((c : Thread nD τ).loc main_arg1))) :=
        congrArg toMat (bnd1_v0 m c)
    _ = Cert.Spec.rowMinMat (m ((c : Thread nD τ).loc main_arg0)) (m ((c : Thread nD τ).loc main_arg1)) :=
        toMat_rowMinCol _ _

/-- Before the last stretch the second run's output array holds the row minima of the second cloud against the
    first, as a column: the second run's row cloud is the second cloud and its column cloud the first, both entered
    as launched. -/
theorem bnd3_v2 (c : Dev nD) :
    Bnd3 m c (Proc.devRef .tc main_v2)
      = Cert.Spec.rowMinCol (m ((c : Thread nD τ).loc main_arg1)) (m ((c : Thread nD τ).loc main_arg0)) :=
  calc Bnd3 m c (Proc.devRef .tc main_v2)
    _ = Cert.Spec.rowMinCol (Ent1 m c main_arg1) (Ent1 m c main_arg0) :=
        (Bnd3_arr m c 2).trans (Rg1.final (Ent1 m) c)
    _ = Cert.Spec.rowMinCol (m ((c : Thread nD τ).loc main_arg1)) (m ((c : Thread nD τ).loc main_arg0)) :=
        congrArg₂ Cert.Spec.rowMinCol (ent1_arg1 m c) (ent1_arg0 m c)

/-! ## The result -/

/-- The program's result: the last stretch applied to the matrix of row minima of the first cloud against the
    second and the matrix of row minima of the second against the first. -/
theorem result (c : Dev nD) :
    Bnd4 m c (Proc.devRef .tc main_v6)
      = tail (Cert.Spec.rowMinMat (m ((c : Thread nD τ).loc main_arg0)) (m ((c : Thread nD τ).loc main_arg1)))
          (Cert.Spec.rowMinMat (m ((c : Thread nD τ).loc main_arg1)) (m ((c : Thread nD τ).loc main_arg0))) :=
  calc Bnd4 m c (Proc.devRef .tc main_v6)
    _ = tail (Bnd3 m c (Proc.devRef .tc main_v1)) (toMat (Bnd3 m c (Proc.devRef .tc main_v2))) :=
        after2_v6 (Bnd3 m c)
    _ = tail (Cert.Spec.rowMinMat (m ((c : Thread nD τ).loc main_arg0)) (m ((c : Thread nD τ).loc main_arg1)))
          (toMat (Cert.Spec.rowMinCol (m ((c : Thread nD τ).loc main_arg1)) (m ((c : Thread nD τ).loc main_arg0)))) :=
        congrArg₂ tail (bnd3_v1 m c) (congrArg toMat (bnd3_v2 m c))
    _ = tail (Cert.Spec.rowMinMat (m ((c : Thread nD τ).loc main_arg0)) (m ((c : Thread nD τ).loc main_arg1)))
          (Cert.Spec.rowMinMat (m ((c : Thread nD τ).loc main_arg1)) (m ((c : Thread nD τ).loc main_arg0))) :=
        congrArg (tail _) (toMat_rowMinCol _ _)

end Cert.KernelIdeal.Ln

end
-- ==== Proof.SpecLaws.lean ====
/-
  Laws of the extended reals the reference's arrangement of the distance rests on: for finite coordinates the
  expanded form (squared norms added, twice the inner product taken away) is the sum of the squared coordinate
  differences, and a squared difference does not see the order of its two points.
-/
import proofs.«115515_j9887014715551_1_alg».proof.Proof.Spec
import Idealize.ShloMosaic.PureOps.Ideal.Laws

noncomputable section

namespace Cert.Spec

open Idealize.ShloMosaic Idealize.ShloMosaic.ValueIdx

/-- The word of 2.0 denotes the real 2. -/
theorem ofBits_two : Ideal.ofBits .f32 0x40000000#32 = ((2 : ℝ) : EReal) := by
  simp [Ideal.ofBits, Ideal.ieee, -EReal.coe_mul]; norm_num

/-- The word of +∞ denotes the top element. -/
theorem ofBits_posInf : Ideal.ofBits .f32 0x7F800000#32 = (⊤ : EReal) := by
  simp [Ideal.ofBits, Ideal.ieee]

/-- For real coordinates: squared norms added, twice the inner product taken away, is the sum of the squared
    differences, each side in the order of additions its program performs. -/
theorem expand_real (a0 a1 a2 b0 b1 b2 : ℝ) :
    ((0 + (((a0 : EReal) * a0 + (a1 : EReal) * a1) + (a2 : EReal) * a2))
        + (0 + (((b0 : EReal) * b0 + (b1 : EReal) * b1) + (b2 : EReal) * b2)))
      - ((2 : ℝ) : EReal) * (((a0 : EReal) * b0 + (a1 : EReal) * b1) + (a2 : EReal) * b2)
    = ((0 + ((a0 : EReal) - b0) * ((a0 : EReal) - b0)) + ((a1 : EReal) - b1) * ((a1 : EReal) - b1))
        + ((a2 : EReal) - b2) * ((a2 : EReal) - b2) := by
  rw [← EReal.coe_zero]
  simp only [← EReal.coe_mul, ← EReal.coe_add, ← EReal.coe_sub]
  exact congrArg _ (by ring)

/-- For finite clouds the reference's expanded form at (b, n, m) is the squared distance. -/
theorem sqDist_expand (x y : Cloud.Idx → EReal) (hx : ∀ i, ∃ r : ℝ, x i = (r : EReal))
    (hy : ∀ i, ∃ r : ℝ, y i = (r : EReal)) (b : Fin 4) (n m : Fin 8192) :
    ((0 + ∑ k : Fin 3, x (ix3 b n k) * x (ix3 b n k)) + (0 + ∑ k : Fin 3, y (ix3 b m k) * y (ix3 b m k)))
      - Ideal.ofBits .f32 0x40000000#32 * ∑ k : Fin 3, x (ix3 b n k) * y (ix3 b m k)
    = sqDist x y b n m := by
  obtain ⟨a0, h0⟩ := hx (ix3 b n 0)
  obtain ⟨a1, h1⟩ := hx (ix3 b n 1)
  obtain ⟨a2, h2⟩ := hx (ix3 b n 2)
  obtain ⟨b0, g0⟩ := hy (ix3 b m 0)
  obtain ⟨b1, g1⟩ := hy (ix3 b m 1)
  obtain ⟨b2, g2⟩ := hy (ix3 b m 2)
  unfold sqDist
  rw [Fin.sum_univ_three, Fin.sum_univ_three, Fin.sum_univ_three, ofBits_two, h0, h1, h2, g0, g1, g2]
  exact expand_real a0 a1 a2 b0 b1 b2

/-- For finite clouds the squared distance does not see which cloud comes first. -/
theorem sqDist_symm (x y : Cloud.Idx → EReal) (hx : ∀ i, ∃ r : ℝ, x i = (r : EReal))
    (hy : ∀ i, ∃ r : ℝ, y i = (r : EReal)) (b : Fin 4) (n m : Fin 8192) :
    sqDist x y b n m = sqDist y x b m n := by
  obtain ⟨a0, h0⟩ := hx (ix3 b n 0)
  obtain ⟨a1, h1⟩ := hx (ix3 b n 1)
  obtain ⟨a2, h2⟩ := hx (ix3 b n 2)
  obtain ⟨b0, g0⟩ := hy (ix3 b m 0)
  obtain ⟨b1, g1⟩ := hy (ix3 b m 1)
  obtain ⟨b2, g2⟩ := hy (ix3 b m 2)
  unfold sqDist
  rw [h0, h1, h2, g0, g1, g2, ← EReal.coe_zero]
  simp only [← EReal.coe_mul, ← EReal.coe_add, ← EReal.coe_sub]
  exact congrArg _ (by ring)

/-- So neither does the distance. -/
theorem dist_symm (x y : Cloud.Idx → EReal) (hx : ∀ i, ∃ r : ℝ, x i = (r : EReal))
    (hy : ∀ i, ∃ r : ℝ, y i = (r : EReal)) (b : Fin 4) (n m : Fin 8192) :
    dist x y b n m = dist y x b m n := by
  unfold dist
  rw [sqDist_symm x y hx hy b n m]

end Cert.Spec

end
-- ==== Proof.Ref.lean ====
/-
  The reference's result, read index by index: squared norms, the batched inner product, the clamped square root,
  and the two directed minima, as one function of the two point clouds.
-/
import proofs.«115515_j9887014715551_1_alg».proof.Defs
import proofs.«115515_j9887014715551_1_alg».proof.Proof.Gen.ReferenceIdeal.Run
import proofs.«115515_j9887014715551_1_alg».proof.Proof.Gen.ReferenceIdeal.Read
import proofs.«115515_j9887014715551_1_alg».proof.Proof.Spec
import proofs.«115515_j9887014715551_1_alg».proof.Proof.SpecLaws

noncomputable section

namespace Cert.ReferenceIdeal.RefValue

open Cert.ReferenceIdeal Cert.ReferenceIdeal.Gen Cert.ReferenceIdeal.Read Idealize.ShloMosaic Idealize.ShloMosaic.ValueIdx

/-- The shared end of both programs: the greatest entry of each array (a max-reduce from −∞ over both axes), added. -/
def tail (A B : (⟨S4x8192, .f32⟩ : BufTy).Contents (Elt Ideal)) : (⟨S_, .f32⟩ : BufTy).Contents (Elt Ideal) :=
  addf (Host.reduce FloatOps.maximumf A (constant (F := Ideal) S_ .f32 0xFF800000#32) reducesTo_S4x8192_S_d0_1 h_S_) (Host.reduce FloatOps.maximumf B (constant (F := Ideal) S_ .f32 0xFF800000#32) reducesTo_S4x8192_S_d0_1 h_S_)

/-- Entry (b, n, m) of the array of distances: for finite clouds the expanded form under the clamp and the root is the
    distance of point n of the first cloud to point m of the second. -/
theorem dis_apply (x y : (⟨S4x8192x3, .f32⟩ : BufTy).Contents (Elt Ideal)) (hx : ∀ i, ∃ r : ℝ, x i = (r : EReal))
    (hy : ∀ i, ∃ r : ℝ, y i = (r : EReal)) (b : Fin 4) (n m : Fin 8192) :
    val_main_v15 (F := Ideal) x y (ix3 b n m) = Cert.Spec.dist x y b n m := by
  have e1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have e3 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have el : ∀ k : Fin 3, lidx_main_v4 (ix3 b n m) k = ix3 b n k := fun k =>
    funext fun a => Fin.ext (by match a with | ⟨0, _⟩ => rfl | ⟨1, _⟩ => rfl | ⟨2, _⟩ => rfl)
  have er : ∀ k : Fin 3, ridx_main_v4 (ix3 b n m) k = ix3 b m k := fun k =>
    funext fun a => Fin.ext (by match a with | ⟨0, _⟩ => rfl | ⟨1, _⟩ => rfl | ⟨2, _⟩ => rfl)
  rw [val_main_v15_apply, val_main_v14_apply, val_main_v12_apply, val_main_v9_apply, val_main_v7_apply,
    val_main_v5_apply, val_main_v1_apply, val_main_v8_apply, val_main_v6_apply, val_main_v3_apply,
    val_main_v11_apply, val_main_v10_apply, val_main_v4_apply, val_main_v13_apply, val_main_cst_2_apply,
    val_main_cst_1_apply, val_main_cst_apply, val_main_cst_0_apply]
  simp only [val_main_v0_apply, val_main_v2_apply, e1, e3, el, er, Ideal.hostUnary_sqrt_def, Ideal.maximumf_def,
    Ideal.subf_def, Ideal.addf_def, Ideal.mulf_def, Ideal.ofBits_def, Ideal.ofBits_zero_f32]
  unfold Cert.Spec.dist
  rw [Cert.Spec.sqDist_expand x y hx hy b n m]

/-- The array of distances loses its last axis, and its middle axis, as a vector reduction does. -/
theorem reduces_d2 : S4x8192x8192.Reduces [2] S4x8192 := by decide
theorem reduces_d1 : S4x8192x8192.Reduces [1] S4x8192 := by decide

/-- The minimum over the second cloud's points: at (b, n) the least distance from point n of the first cloud. -/
theorem min_over_m (x y : (⟨S4x8192x3, .f32⟩ : BufTy).Contents (Elt Ideal)) (hx : ∀ i, ∃ r : ℝ, x i = (r : EReal))
    (hy : ∀ i, ∃ r : ℝ, y i = (r : EReal)) :
    val_main_v16 (F := Ideal) x y = Cert.Spec.rowMinMat x y := by
  funext j
  unfold val_main_v16
  rw [Host.reduce_eq_fold_single FloatOps.minimumf _ _ reducesTo_S4x8192x8192_S4x8192_d2 reduces_d2 h_S_ j,
    val_main_cst_3_apply]
  show Finset.fold min (Ideal.ofBits .f32 0x7F800000#32) (val_main_v15 (F := Ideal) x y ∘ reduces_d2.lift j)
      (Finset.univ : Finset (Fin 8192)) = Cert.Spec.rowMin x y (j 0) (j 1)
  rw [Cert.Spec.ofBits_posInf]
  unfold Cert.Spec.rowMin
  refine congrArg (fun f => Finset.fold min ⊤ f (Finset.univ : Finset (Fin 8192))) (funext fun (m : Fin 8192) => ?_)
  show val_main_v15 (F := Ideal) x y (reduces_d2.lift j m) = _
  rw [show reduces_d2.lift j m = ix3 (j 0) (j 1) m from
    funext fun a => Fin.ext (by match a with | ⟨0, _⟩ => rfl | ⟨1, _⟩ => rfl | ⟨2, _⟩ => rfl)]
  exact dis_apply x y hx hy (j 0) (j 1) m

/-- The minimum over the first cloud's points: at (b, m) the least distance from point m of the second cloud, the
    distance read from the second cloud's side. -/
theorem min_over_n (x y : (⟨S4x8192x3, .f32⟩ : BufTy).Contents (Elt Ideal)) (hx : ∀ i, ∃ r : ℝ, x i = (r : EReal))
    (hy : ∀ i, ∃ r : ℝ, y i = (r : EReal)) :
    val_main_v18 (F := Ideal) x y = Cert.Spec.rowMinMat y x := by
  funext j
  unfold val_main_v18
  rw [Host.reduce_eq_fold_single FloatOps.minimumf _ _ reducesTo_S4x8192x8192_S4x8192_d1 reduces_d1 h_S_ j,
    val_main_cst_5_apply]
  show Finset.fold min (Ideal.ofBits .f32 0x7F800000#32) (val_main_v15 (F := Ideal) x y ∘ reduces_d1.lift j)
      (Finset.univ : Finset (Fin 8192)) = Cert.Spec.rowMin y x (j 0) (j 1)
  rw [Cert.Spec.ofBits_posInf]
  unfold Cert.Spec.rowMin
  refine congrArg (fun f => Finset.fold min ⊤ f (Finset.univ : Finset (Fin 8192))) (funext fun (n : Fin 8192) => ?_)
  show val_main_v15 (F := Ideal) x y (reduces_d1.lift j n) = _
  rw [show reduces_d1.lift j n = ix3 (j 0) n (j 1) from
    funext fun a => Fin.ext (by match a with | ⟨0, _⟩ => rfl | ⟨1, _⟩ => rfl | ⟨2, _⟩ => rfl)]
  exact (dis_apply x y hx hy (j 0) n (j 1)).trans (Cert.Spec.dist_symm x y hx hy (j 0) n (j 1))

/-- The reference's result: the greatest of the first cloud's row minima plus the greatest of the second's. -/
theorem result_eq (x y : (⟨S4x8192x3, .f32⟩ : BufTy).Contents (Elt Ideal)) (hx : ∀ i, ∃ r : ℝ, x i = (r : EReal))
    (hy : ∀ i, ∃ r : ℝ, y i = (r : EReal)) :
    Cert.ReferenceIdeal.Read.val_main_v20 (F := Ideal) x y = tail (Cert.Spec.rowMinMat x y) (Cert.Spec.rowMinMat y x) := by
  unfold val_main_v20 val_main_v17 val_main_v19 val_main_cst_4 val_main_cst_6 tail
  rw [min_over_m x y hx hy, min_over_n x y hx hy]

end Cert.ReferenceIdeal.RefValue

end
-- ==== Proof.Finite.lean ====
import proofs.«115515_j9887014715551_1_alg».proof.Defs
import proofs.«115515_j9887014715551_1_alg».proof.Proof.Gen.Pre_finite_inputs
import Idealize.ShloMosaic.Lib.ReduceAll
import Idealize.ShloMosaic.Lib.ValueIdx
import Idealize.ShloMosaic.Lib.Affine
import Idealize.ShloMosaic.PureOps.Ideal

noncomputable section

namespace Cert.Proof.Finite

open Idealize.ShloMosaic Idealize.SL.Sem

/-- The rank-0 shape has exactly one index. -/
instance subsingleton_scalar_idx : Subsingleton Cert.Pre_finite_inputs.S_.Idx :=
  ⟨fun a b => funext fun d => d.elim0⟩

/-- An extended real whose absolute value `max x (-x)` lies strictly below `+∞` is a real number:
    `+∞` has absolute value `+∞`, and so has `-∞`. -/
theorem real_of_abs_lt_top (x : EReal) (h : max x (-x) < ⊤) : ∃ r : ℝ, x = (r : EReal) := by
  induction x using EReal.rec with
  | bot => simp at h
  | coe r => exact ⟨r, rfl⟩
  | top => simp at h

/-- One entry of the comparison `|x| < +∞` being 1 says that entry of `x` is a real number. The bound is the
    scalar `0x7F800000`, the pattern of `+∞`, read at every index. -/
theorem entry_real [Cert.Pre_finite_inputs.Facts]
    (x : FVec Ideal Cert.Pre_finite_inputs.S4x8192x3 .f32) (i : Cert.Pre_finite_inputs.S4x8192x3.Idx)
    (h : cmpf .olt (Host.absf x)
        (broadcastInDim Cert.Pre_finite_inputs.S4x8192x3 ![] Cert.Pre_finite_inputs.Facts.bcast_S_S4x8192x3
          (constant Cert.Pre_finite_inputs.S_ .f32 0x7F800000#32)) i = 1#1) :
    ∃ r : ℝ, x i = (r : EReal) := by
  have h' : Ideal.cmp .olt (max (x i) (-(x i))) (Ideal.ofBits .f32 0x7F800000#32) = 1#1 := h
  have htop : Ideal.ofBits .f32 0x7F800000#32 = (⊤ : EReal) := by simp [Ideal.ofBits, Ideal.ieee]
  rw [htop] at h'
  apply real_of_abs_lt_top
  by_contra hc
  simp only [Ideal.cmp, decide_eq_false hc] at h'
  exact absurd h' (by decide)

/-- The precondition `all(|x| < +∞) ∧ all(|y| < +∞)` being 1 makes every entry of both arrays a real number:
    the conjunction splits, each `all` is a reduction by `and` over every axis from 1, so it is 1 only if every
    compared entry is 1. -/
theorem finite_of_pre [Cert.Pre_finite_inputs.Facts]
    (x y : (⟨Cert.KernelIdeal.S4x8192x3, .f32⟩ : BufTy).Contents (Elt Ideal))
    (h : Cert.Pre_finite_inputs.fn (F := Ideal) x y = fun _ => 1#1) :
    (∀ i, ∃ r : ℝ, x i = (r : EReal)) ∧ (∀ i, ∃ r : ℝ, y i = (r : EReal)) := by
  have h0 := congrFun h ValueIdx.ix0
  dsimp only [Cert.Pre_finite_inputs.fn] at h0
  obtain ⟨hx, hy⟩ := IntOp.andi_eq_one.1 h0
  exact ⟨fun i => entry_real x i (Host.reduce_andi_all _ _ _ _ _ hx i),
         fun i => entry_real y i (Host.reduce_andi_all _ _ _ _ _ hy i)⟩

/-- The same, stated of the two argument arrays of the idealized kernel program in a memory that satisfies its
    precondition, on any device. -/
theorem finite_of_Pre_KernelIdeal [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal)) ∧
    (∀ i, ∃ r : ℝ, m ((c.tc : Thread Cert.KernelIdeal.nD Cert.KernelIdeal.τ).loc Cert.KernelIdeal.main_arg1) i = (r : EReal)) :=
  finite_of_pre _ _ (hpre c)

end Cert.Proof.Finite

end
-- ==== Proof.lean ====
/-
  The certificate's five claims.

  The kernel program computes, for two clouds x, y of four batches of 8192 points of ℝ³, the row minima of the
  pairwise distances of x against y and of y against x — each by one launch that walks the 8192 columns in eight
  tiles and keeps the running minimum of a row tile in a scratch — then the greatest row minimum of each, and adds
  the two. The reference computes the whole distance matrix from ‖x‖² + ‖y‖² − 2⟨x, y⟩ and takes its minima along
  both axes. Over the reals the two squared distances agree (the square of a difference expanded), the distance of
  x to y is that of y to x, and a minimum over eight tiles of 1024 is the minimum over 8192; the expansion needs
  every coordinate finite, which the precondition gives. Both programs end with the same two maxima and the same
  sum, so the results are equal as soon as the two arrays of row minima are.

  The three frames: each kernel program runs its two launches to the end with the argument arrays untouched (the
  launches write only their own result arrays, the host stretches only theirs); the reference's frame is its run
  with the result dropped. The idealization rewrote nothing.
-/
import proofs.«115515_j9887014715551_1_alg».proof.Defs
import proofs.«115515_j9887014715551_1_alg».proof.Proof.Gen.Kernel
import proofs.«115515_j9887014715551_1_alg».proof.Proof.Gen.KernelIdeal
import proofs.«115515_j9887014715551_1_alg».proof.Proof.Gen.ReferenceIdeal
import proofs.«115515_j9887014715551_1_alg».proof.Proof.Gen.Pre_finite_inputs
import proofs.«115515_j9887014715551_1_alg».proof.Proof.K.Launch
import proofs.«115515_j9887014715551_1_alg».proof.Proof.KI.Launch
import proofs.«115515_j9887014715551_1_alg».proof.Proof.KI.Result
import proofs.«115515_j9887014715551_1_alg».proof.Proof.Ref
import proofs.«115515_j9887014715551_1_alg».proof.Proof.Finite
import Idealize.ShloMosaic.Adequacy
import Idealize.ShloMosaic.Init

noncomputable section

namespace Cert.Proof

open Idealize.ShloMosaic Idealize.ShloMosaic.TcCoe Idealize.SL.Sem

/-- Both programs end with the same operations: the greatest entry of each array of row minima, added. -/
theorem tail_eq (A B : (⟨Cert.KernelIdeal.S4x8192, .f32⟩ : BufTy).Contents (Elt Ideal)) :
    Cert.KernelIdeal.Ln.tail A B = Cert.ReferenceIdeal.RefValue.tail A B := rfl

/-- The word-level kernel program runs to the end and leaves both clouds as launched. -/
theorem frame_k : Cert.frame_Kernel (hKernel := Cert.Kernel.Gen.facts) (hPre_finite_inputs := Cert.Pre_finite_inputs.Gen.facts) :=
  fun m ρ _ => Cert.Kernel.Ln.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Ln.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the two clouds, both idealized programs end with the greatest row minimum of x against
    y plus the greatest row minimum of y against x. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Ln.tail
      (Cert.Spec.rowMinMat (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Cert.Spec.rowMinMat (m ((c.tc : Thread Cert.KernelIdeal.nD Cert.KernelIdeal.τ).loc Cert.KernelIdeal.main_arg1)) (m ((c.tc : Thread Cert.KernelIdeal.nD Cert.KernelIdeal.τ).loc Cert.KernelIdeal.main_arg0))), ?_, ?_⟩
  · refine (θ_run Cert.KernelIdeal.defs _ _).mono (fun r h c => ⟨?_, ?_, ?_⟩) (Cert.KernelIdeal.Ln.run_all m ρ)
    · exact (h c _ (Cert.KernelIdeal.Ln.mem_uc Cert.KernelIdeal.main_v6 (by decide))).trans (Cert.KernelIdeal.Ln.result m c)
    · exact (h c _ (Cert.KernelIdeal.Ln.mem_uc Cert.KernelIdeal.main_arg0 (by decide))).trans (Cert.KernelIdeal.Ln.Bnd4_main_arg0 m c)
    · exact (h c _ (Cert.KernelIdeal.Ln.mem_uc Cert.KernelIdeal.main_arg1 (by decide))).trans (Cert.KernelIdeal.Ln.Bnd4_main_arg1 m c)
  · refine (θ_run Cert.ReferenceIdeal.defs _ _).mono (fun _ h c => ⟨?_, (h c).2⟩) (Cert.ReferenceIdeal.Value.run (F := Ideal) m' ρ')
    obtain ⟨hx, hy⟩ := @Cert.Proof.Finite.finite_of_Pre_KernelIdeal Cert.Pre_finite_inputs.Gen.facts m hpre c
    rw [(h c).1, Cert.ReferenceIdeal.Read.val_main_v20_eq, (hagree c).1, (hagree c).2,
      Cert.ReferenceIdeal.RefValue.result_eq _ _ hx hy]
    exact (tail_eq _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
